-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S16384 : Shape := ⟨1, ![16384]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_arg2 : IVec S16384 32) (main_v15 : IVec S_ 1) : IVec S_ 1 :=
  let main_c_6 : IVec S_ 32 := constantI S_ 32 2#32
  let main_v16 : IVec S16384 32 := broadcastInDim S16384 ![] bcast_S_S16384 main_c_6
  let main_v17 : IVec S16384 1 := cmpi .slt main_arg2 main_v16
  let main_c_7 : IVec S_ 1 := constantI S_ 1 1#1
  let main_v18 : IVec S_ 1 := (fun x v => Host.reduce IntOp.andi x v reducesTo_S16384_S_d0 h_S_) main_v17 main_c_7
  let main_v19 : IVec S_ 1 := andi main_v15 main_v18
  main_v19

def fn {F : FTy → Type} [FloatOps F] (main_arg0 : FVec F S32768x128 .f32) (main_arg1 : IVec S16384 32) (main_arg2 : IVec S16384 32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 1 := constantI S_ 1 1#1
  let main_v6 : IVec S_ 1 := (fun x v => Host.reduce IntOp.andi x v reducesTo_S16384_S_d0 h_S_) main_v5 main_c_1
  let main_v7 : IVec S_ 1 := andi main_v3 main_v6
  let main_c_2 : IVec S_ 32 := constantI S_ 32 2#32
  let main_v8 : IVec S16384 32 := broadcastInDim S16384 ![] bcast_S_S16384 main_c_2
  let main_v9 : IVec S16384 1 := cmpi .slt main_arg1 main_v8
  let main_c_3 : IVec S_ 1 := constantI S_ 1 1#1
  let main_v10 : IVec S_ 1 := (fun x v => Host.reduce IntOp.andi x v reducesTo_S16384_S_d0 h_S_) main_v9 main_c_3
  let main_v11 : IVec S_ 1 := andi main_v7 main_v10
  let main_c_4 : IVec S_ 32 := constantI S_ 32 0#32
  let main_v12 : IVec S16384 32 := broadcastInDim S16384 ![] bcast_S_S16384 main_c_4
  let main_v13 : IVec S16384 1 := cmpi .sge main_arg2 main_v12
  let main_c_5 : IVec S_ 1 := constantI S_ 1 1#1
  let main_v14 : IVec S_ 1 := (fun x v => Host.reduce IntOp.andi x v reducesTo_S16384_S_d0 h_S_) main_v13 main_c_5
  let main_v15 : IVec S_ 1 := andi main_v11 main_v14
  fn_part1 (F := F) main_arg2 main_v15
-- ==== Kernel.lean ====
abbrev S32768x128 : Shape := ⟨2, ![32768, 128]⟩
abbrev S16384 : Shape := ⟨1, ![16384]⟩
abbrev S16384x256 : Shape := ⟨2, ![16384, 256]⟩
abbrev S16384x1 : Shape := ⟨2, ![16384, 1]⟩
abbrev S2048x256 : Shape := ⟨2, ![2048, 256]⟩
abbrev S512x128 : Shape := ⟨2, ![512, 128]⟩
abbrev S2048x1 : Shape := ⟨2, ![2048, 1]⟩
abbrev S2048x128 : Shape := ⟨2, ![2048, 128]⟩
abbrev S2048 : Shape := ⟨1, ![2048]⟩
abbrev S2048x512 : Shape := ⟨2, ![2048, 512]⟩
abbrev S_ : Shape := ⟨0, ![]⟩

abbrev nBuf : Space → Nat
  | .hbm => 9
  | .vmem => 13
  | .smem => 0
  | _ => 0

abbrev bufTy : (tb : Table) → Fin (tcTables nBuf tb) → BufTy
  | .hbm, ⟨0, _⟩ => ⟨S32768x128, .f32⟩
  | .hbm, ⟨1, _⟩ => ⟨S16384, .i32⟩
  | .hbm, ⟨2, _⟩ => ⟨S16384, .i32⟩
  | .hbm, ⟨3, _⟩ => ⟨S16384x256, .f32⟩
  | .hbm, ⟨4, _⟩ => ⟨S16384x1, .i32⟩
  | .hbm, ⟨5, _⟩ => ⟨S16384x1, .i32⟩
  | .hbm, ⟨6, _⟩ => ⟨S16384x1, .f32⟩
  | .hbm, ⟨7, _⟩ => ⟨S_, .f32⟩
  | .hbm, ⟨8, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S512x128, .f32⟩
  | .local _ .vmem, ⟨3, _⟩ => ⟨S512x128, .f32⟩
  | .local _ .vmem, ⟨4, _⟩ => ⟨S2048x1, .i32⟩
  | .local _ .vmem, ⟨5, _⟩ => ⟨S2048x1, .i32⟩
  | .local _ .vmem, ⟨6, _⟩ => ⟨S2048x1, .i32⟩
  | .local _ .vmem, ⟨7, _⟩ => ⟨S2048x1, .i32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x128, .f32⟩
  | .local _ .vmem, ⟨12, _⟩ => ⟨S2048x1, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v29 : BitVec 1 := Scalar.cmpi .eq arg1 c31_i32
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32768x128_S16384x256 : S32768x128.ShapeCasts S16384x256
  shapeCasts_S16384_S16384x1 : S16384.ShapeCasts S16384x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  slices_S2048x256_o0_0_S2048x128 : S2048x256.Slices ![0, 0] S2048x128
  slices_S2048x256_o0_128_S2048x128 : S2048x256.Slices ![0, 128] S2048x128
  broadcasts_S2048x1_S2048x128 : S2048x1.Broadcasts S2048x128
  reduces_S2048x128_S2048 : S2048x128.Reduces [1] S2048
  shapeCasts_S2048_S2048x1 : S2048.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S2048x1_S2048x512 : S2048x1.Broadcasts S2048x512
  iota_S2048x512_d0_w32 : S2048x512.Iotas .tc 32 [0]
  iota_S2048x512_d1_w32 : S2048x512.Iotas .tc 32 [1]
  reduces_S2048x512_S2048 : S2048x512.Reduces [1] S2048
  reducesTo_S16384x1_S_d0_1 : S16384x1.ReducesTo [0, 1] S_
  h_S_ : 0 < S_.numel
  dot_S2048x128_S512x128_S2048x512_1_1_0_0_n_n_wf : DotDims.WF S2048x128 S512x128 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S16384x256.size a
  hwx0_1 : ∀ i : grid0.Coords, EltTy.bits .f32 = 32 ∨ (Rect.block (s := S16384x256) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .i32 = 32 ∨ (Rect.block (s := S16384x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S16384x1.size a
  hwx0_3 : ∀ i : grid0.Coords, EltTy.bits .i32 = 32 ∨ (Rect.block (s := S16384x1) S2048x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S16384x1.size a
  hwx0_4 : ∀ i : grid0.Coords, EltTy.bits .f32 = 32 ∨ (Rect.block (s := S16384x1) S2048x1.size (cc0_transform_4 i) (hinb0_4 i)).WholeWords (EltTy.packing .f32)

variable [Facts₀]

def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32768x128 : Shape := ⟨2, ![32768, 128]⟩
abbrev S16384 : Shape := ⟨1, ![16384]⟩
abbrev S16384x2x128 : Shape := ⟨3, ![16384, 2, 128]⟩
abbrev S16384x1x1 : Shape := ⟨3, ![16384, 1, 1]⟩
abbrev S_ : Shape := ⟨0, ![]⟩
abbrev S1 : Shape := ⟨1, ![1]⟩
abbrev S1x1x1 : Shape := ⟨3, ![1, 1, 1]⟩
abbrev S16384x1 : Shape := ⟨2, ![16384, 1]⟩
abbrev S16384x1x128 : Shape := ⟨3, ![16384, 1, 128]⟩
abbrev S16384x128 : Shape := ⟨2, ![16384, 128]⟩
abbrev S128x16384 : Shape := ⟨2, ![128, 16384]⟩
abbrev S16384x16384 : Shape := ⟨2, ![16384, 16384]⟩

abbrev nBuf : Space → Nat
  | .hbm => 78
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S16384, .i32⟩
  | .hbm, ⟨2, _⟩ => ⟨S16384, .i32⟩
  | .hbm, ⟨3, _⟩ => ⟨S16384x2x128, .f32⟩
  | .hbm, ⟨4, _⟩ => ⟨S16384x1x1, .i32⟩
  | .hbm, ⟨5, _⟩ => ⟨S_, .i32⟩
  | .hbm, ⟨6, _⟩ => ⟨S16384x1x1, .i32⟩
  | .hbm, ⟨7, _⟩ => ⟨S16384x1x1, .i1⟩
  | .hbm, ⟨8, _⟩ => ⟨S_, .i32⟩
  | .hbm, ⟨9, _⟩ => ⟨S16384x1x1, .i32⟩
  | .hbm, ⟨10, _⟩ => ⟨S16384x1x1, .i32⟩
  | .hbm, ⟨11, _⟩ => ⟨S16384x1x1, .i32⟩
  | .hbm, ⟨12, _⟩ => ⟨S1, .i32⟩
  | .hbm, ⟨13, _⟩ => ⟨S_, .i32⟩
  | .hbm, ⟨14, _⟩ => ⟨S16384x1x1, .i32⟩
  | .hbm, ⟨15, _⟩ => ⟨S16384x1x1, .i1⟩
  | .hbm, ⟨16, _⟩ => ⟨S1x1x1, .i32⟩
  | .hbm, ⟨17, _⟩ => ⟨S16384x1x1, .i32⟩
  | .hbm, ⟨18, _⟩ => ⟨S16384x1x1, .i1⟩
  | .hbm, ⟨19, _⟩ => ⟨S16384x1x1, .i1⟩
  | .hbm, ⟨20, _⟩ => ⟨S_, .i1⟩
  | .hbm, ⟨21, _⟩ => ⟨S16384x1, .i1⟩
  | .hbm, ⟨22, _⟩ => ⟨S16384x1x128, .f32⟩
  | .hbm, ⟨23, _⟩ => ⟨S16384x1x128, .i1⟩
  | .hbm, ⟨24, _⟩ => ⟨S_, .f32⟩
  | .hbm, ⟨25, _⟩ => ⟨S16384x1x128, .f32⟩
  | .hbm, ⟨26, _⟩ => ⟨S16384x1x128, .f32⟩
  | .hbm, ⟨27, _⟩ => ⟨S16384x128, .f32⟩
  | .hbm, ⟨28, _⟩ => ⟨S16384x1x1, .i32⟩
  | .hbm, ⟨29, _⟩ => ⟨S_, .i32⟩
  | .hbm, ⟨30, _⟩ => ⟨S16384x1x1, .i32⟩
  | .hbm, ⟨31, _⟩ => ⟨S16384x1x1, .i1⟩
  | .hbm, ⟨32, _⟩ => ⟨S_, .i32⟩
  | .hbm, ⟨33, _⟩ => ⟨S16384x1x1, .i32⟩
  | .hbm, ⟨34, _⟩ => ⟨S16384x1x1, .i32⟩
  | .hbm, ⟨35, _⟩ => ⟨S16384x1x1, .i32⟩
  | .hbm, ⟨36, _⟩ => ⟨S1, .i32⟩
  | .hbm, ⟨37, _⟩ => ⟨S_, .i32⟩
  | .hbm, ⟨38, _⟩ => ⟨S16384x1x1, .i32⟩
  | .hbm, ⟨39, _⟩ => ⟨S16384x1x1, .i1⟩
  | .hbm, ⟨40, _⟩ => ⟨S1x1x1, .i32⟩
  | .hbm, ⟨41, _⟩ => ⟨S16384x1x1, .i32⟩
  | .hbm, ⟨42, _⟩ => ⟨S16384x1x1, .i1⟩
  | .hbm, ⟨43, _⟩ => ⟨S16384x1x1, .i1⟩
  | .hbm, ⟨44, _⟩ => ⟨S_, .i1⟩
  | .hbm, ⟨45, _⟩ => ⟨S16384x1, .i1⟩
  | .hbm, ⟨46, _⟩ => ⟨S16384x1x128, .f32⟩
  | .hbm, ⟨47, _⟩ => ⟨S16384x1x128, .i1⟩
  | .hbm, ⟨48, _⟩ => ⟨S_, .f32⟩
  | .hbm, ⟨49, _⟩ => ⟨S16384x1x128, .f32⟩
  | .hbm, ⟨50, _⟩ => ⟨S16384x1x128, .f32⟩
  | .hbm, ⟨51, _⟩ => ⟨S16384x128, .f32⟩
  | .hbm, ⟨52, _⟩ => ⟨S16384x1x128, .f32⟩
  | .hbm, ⟨53, _⟩ => ⟨S16384x128, .f32⟩
  | .hbm, ⟨54, _⟩ => ⟨S128x16384, .f32⟩
  | .hbm, ⟨55, _⟩ => ⟨S16384x16384, .f32⟩
  | .hbm, ⟨56, _⟩ => ⟨S16384x128, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S16384x16384, .f32⟩
  | .hbm, ⟨61, _⟩ => ⟨S16384x16384, .f32⟩
  | .hbm, ⟨62, _⟩ => ⟨S16384x16384, .i32⟩
  | .hbm, ⟨63, _⟩ => ⟨S16384x16384, .i32⟩
  | .hbm, ⟨64, _⟩ => ⟨S_, .i32⟩
  | .hbm, ⟨65, _⟩ => ⟨S16384x16384, .i32⟩
  | .hbm, ⟨66, _⟩ => ⟨S16384x16384, .i32⟩
  | .hbm, ⟨67, _⟩ => ⟨S16384x16384, .i1⟩
  | .hbm, ⟨68, _⟩ => ⟨S16384x16384, .i1⟩
  | .hbm, ⟨69, _⟩ => ⟨S16384x16384, .f32⟩
  | .hbm, ⟨70, _⟩ => ⟨S_, .f32⟩
  | .hbm, ⟨71, _⟩ => ⟨S16384x16384, .f32⟩
  | .hbm, ⟨72, _⟩ => ⟨S16384x16384, .f32⟩
  | .hbm, ⟨73, _⟩ => ⟨S_, .f32⟩
  | .hbm, ⟨74, _⟩ => ⟨S16384, .f32⟩
  | .hbm, ⟨75, _⟩ => ⟨S16384, .f32⟩
  | .hbm, ⟨76, _⟩ => ⟨S_, .f32⟩
  | .hbm, ⟨77, _⟩ => ⟨S_, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_c_2 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_c_3 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_cst : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_c : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_0 : Ref sig .tc := ⟨.hbm, 70, rfl⟩
abbrev main_call2_v0 : Ref sig .tc := ⟨.hbm, 71, rfl⟩
abbrev main_v23 : Ref sig .tc := ⟨.hbm, 72, rfl⟩
abbrev main_cst_1 : Ref sig .tc := ⟨.hbm, 73, rfl⟩
abbrev main_v24 : Ref sig .tc := ⟨.hbm, 74, rfl⟩
abbrev main_v25 : Ref sig .tc := ⟨.hbm, 75, rfl⟩
abbrev main_cst_2 : Ref sig .tc := ⟨.hbm, 76, rfl⟩
abbrev main_v26 : Ref sig .tc := ⟨.hbm, 77, rfl⟩

abbrev nD : Nat := 1
abbrev τ : Topo := Topo.v7x

variable {F : FTy → Type} [FloatOps F]

class Facts₀ : Prop where
  shapeCasts_S32768x128_S16384x2x128 : S32768x128.ShapeCasts S16384x2x128
  bcast_S16384_S16384x1x1_0 : S16384.BroadcastsInDim S16384x1x1 (![0] : Fin 1 → Fin S16384x1x1.rank)
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  bcast_S16384x1_S16384x1x128_0_1 : S16384x1.BroadcastsInDim S16384x1x128 (![0, 1] : Fin 2 → Fin S16384x1x128.rank)
  bcast_S_S16384x1x128 : S_.BroadcastsInDim S16384x1x128 (![] : Fin 0 → Fin S16384x1x128.rank)
  shapeCasts_S16384x1x128_S16384x128 : S16384x1x128.ShapeCasts S16384x128
  slices_S16384x2x128_S16384x1x128_0_1_0 : S16384x2x128.Slices ![0, 1, 0] S16384x1x128
  transposes_S16384x128_S128x16384_1_0 : S16384x128.Transposes [1, 0] S128x16384
  reducesTo_S16384x128_S16384_d1 : S16384x128.ReducesTo [1] S16384
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  gather_S16384x2x128_S16384x1x1_S16384x1x128_2_1_0_0_1_2_11128_wf : GatherDims.WF S16384x2x128 S16384x1x1 S16384x1x128 [2] [1] [0] [1] [0] 2 ![1, 1, 128]
  dot_S16384x128_S128x16384_S16384x16384_1_0_0_1_n_n_wf : DotDims.WF S16384x128 S128x16384 S16384x16384 [1] [0] [0] [1] [] []

variable [Facts₀]

def gather_S16384x2x128_S16384x1x1_S16384x1x128_2_1_0_0_1_2_11128 : GatherDims S16384x2x128 S16384x1x1 S16384x1x128 where
  offsetDims := [2]
  collapsedSliceDims := [1]
  operandBatchingDims := [0]
  startIndicesBatchingDims := [0]
  startIndexMap := [1]
  indexVectorDim := 2
  sliceSizes := ![1, 1, 128]
  wf := gather_S16384x2x128_S16384x1x1_S16384x1x128_2_1_0_0_1_2_11128_wf
def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.K.Data.lean ====
/-
  The proof data of the one pipelined region, for every float instance.

  The region walks a grid of 8 row tiles (2048 classes each) by 32 column tiles (512 classes each), point
  `t = 32·i + j`. Three scratch buffers live across the points of one row tile: the anchors of the tile's 2048
  classes, their products with the positives, and the running row sums. At the first column tile (`j = 0`) all
  three are written afresh from the row tile's sample block and its two index blocks; at every column tile the
  running sums grow by that tile's masked exponentials; at the last (`j = 31`) their `log(1 + ·)` goes out.

  So the scratch contents after `n` points are a function of the argument arrays alone (`scr`), by recursion on
  `n`: what the buffers held before a row tile's first point is never read, and the invariant says nothing of them
  there.
-/
import proofs.«414660_j40200893890726_2_alg».proof.Proof.Gen.Kernel.Launch
import proofs.«414660_j40200893890726_2_alg».proof.Proof.Gen.Kernel.Points
import proofs.«414660_j40200893890726_2_alg».proof.Proof.Gen.Kernel.Skeleton
import Idealize.ShloMosaic.Lib.Pipeline.Kit
import Idealize.ShloMosaic.Lib.Pipeline.Frame
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- What core `c`'s buffers hold when the region is entered: the launch contents after the three reshapes. -/
abbrev V (c : Dev nD) (b : Ref sig .tc) : Buf (Elt F) ((c : Thread nD τ).loc b) :=
  StableHlo.after (List.flatten [hostOps0]) (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile's samples: 2048 classes, both samples side by side (256 columns). -/
abbrev xblk (c : Dev nD) (t : Fin cfg0.N) : Vec F S2048x256 .f32 := iblk m c 0 t
/-- The column tile's negatives: 512 classes, sample 1 (128 columns). -/
abbrev nblk (c : Dev nD) (t : Fin cfg0.N) : Vec F S512x128 .f32 := iblk m c 1 t
/-- The row tile's anchor index words. -/
abbrev ablk (c : Dev nD) (t : Fin cfg0.N) : Vec F S2048x1 .i32 := iblk m c 2 t
/-- The row tile's positive index words. -/
abbrev pblk (c : Dev nD) (t : Fin cfg0.N) : Vec F S2048x1 .i32 := iblk m c 3 t

/-- The scratch buffers — running row sums, anchors, anchor·positive — after the first `n` points. At a row tile's
    first point all three are recomputed from the tile's blocks; otherwise the sums grow and the other two stay. -/
def scr (c : Dev nD) : ℕ → Vec F S2048x1 .f32 × Vec F S2048x128 .f32 × Vec F S2048x1 .f32
  | 0 => (fun _ => Scalar.ofBits .f32 0#32, fun _ => Scalar.ofBits .f32 0#32, fun _ => Scalar.ofBits .f32 0#32)
  | n + 1 =>
    if h : n < cfg0.N then
      if n % 32 = 0 then
        (k0_pay8 (grid0.coords ⟨n, h⟩) (k0_pay6 (xblk m c ⟨n, h⟩) (ablk m c ⟨n, h⟩))
            (k0_pay7 (xblk m c ⟨n, h⟩) (ablk m c ⟨n, h⟩) (pblk m c ⟨n, h⟩)) (nblk m c ⟨n, h⟩) (k0_pay1 (F := F)),
          k0_pay6 (xblk m c ⟨n, h⟩) (ablk m c ⟨n, h⟩),
          k0_pay7 (xblk m c ⟨n, h⟩) (ablk m c ⟨n, h⟩) (pblk m c ⟨n, h⟩))
      else
        (k0_pay8 (grid0.coords ⟨n, h⟩) (scr c n).2.1 (scr c n).2.2 (nblk m c ⟨n, h⟩) (scr c n).1, (scr c n).2.1, (scr c n).2.2)
    else scr c n

/-- What the result's staging buffer holds after the body at a point that writes it back. -/
def outAt (c : Dev nD) (t : Fin cfg0.N) : Vec F S2048x1 .f32 := k0_pay9 (scr m c (t.val + 1)).1

/-- The invariant between points: the three scratch buffers, at `scr` once a row tile is under way and at anything
    before its first point. -/
def Phi (c : Dev nD) (t : Fin (cfg0.N + 1)) : sProp 𝕄 :=
  iprop(∃ (s0 : Vec F S2048x1 .f32) (s1 : Vec F S2048x128 .f32) (s2 : Vec F S2048x1 .f32),
    ⌜t.val % 32 ≠ 0 → s0 = (scr m c t.val).1 ∧ s1 = (scr m c t.val).2.1 ∧ s2 = (scr m c t.val).2.2⌝
      ∗ owns (c : Thread nD τ) (Memref.whole cc0_scratch0) fullShare s0
      ∗ owns (c : Thread nD τ) (Memref.whole cc0_scratch1) fullShare s1
      ∗ owns (c : Thread nD τ) (Memref.whole cc0_scratch2) fullShare s2)

/-- The proof data on core `c`: the arrays as the region finds them; every input's staging buffer left at its block;
    the result's at `outAt`; the sample array, read through two windows, held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Phi m c t
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

end Cert.Kernel.Hand

end
-- ==== Proof.K.Body.lean ====
/-
  The run of the kernel body in the program logic, for any float values, by the column tile (the second
  grid coordinate, 0 ‥ 31) the body is called at.

  The body keeps three scratch blocks across the 32 column tiles of one row tile: an accumulator of 2048 row
  sums, the 2048 selected anchor rows, and their 2048 row products with the selected positives.
    * On the FIRST column tile it resets the accumulator to zero and computes and stores the anchors and the
      row products from the row tile's samples and its two index columns.
    * On EVERY column tile it reads the anchors, the row products, the tile's 512 negatives and the
      accumulator, and stores back the accumulator plus the tile's masked exponential row sums.
    * On the LAST column tile it then reads the accumulator just stored and stores log(1 + ·) of it to the
      result block.
  Every load and store is of a whole block (the full rectangle at zero offsets), so a load reads what the block
  is held at, or what the same run stored there last, and a store leaves exactly its value. The three theorems
  state this over abstract whole blocks: given the blocks a case reads at named contents (and the blocks it only
  overwrites at any contents), the body runs to a continuation that holds the read blocks unchanged and each
  written block at the generated payload of the values read. Blocks a case does not touch are not mentioned.
-/
import proofs.«414660_j40200893890726_2_alg».proof.Proof.Gen.Kernel.Skeleton
import proofs.«414660_j40200893890726_2_alg».proof.Proof.Gen.Kernel.Launch
import proofs.«414660_j40200893890726_2_alg».proof.Proof.Gen.Kernel.Points
import Idealize.ShloMosaic.Lib.Pipeline.Kit
import Idealize.ShloMosaic.Lib.Tactic
import Idealize.ShloMosaic.Lib.Pipeline.FrameBody
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none

/-- The two-axis zero offsets, as the constant function. -/
theorem hz : (![0, 0] : Fin 2 → Nat) = fun _ => 0 := funext fun a => by fin_cases a <;> rfl

/-- The first branch is taken exactly on the first column tile. -/
theorem cond1_iff (i : grid0.Coords) :
    (Scalar.cmpi .ne (Scalar.extui (Scalar.cmpi .eq (BitVec.ofNat 32 (i 1).val) 0#32)) 0#32) = 1#1 ↔ (i 1).val = 0 := by
  generalize (i 1) = j
  revert j
  decide

/-- The last branch is taken exactly on the last column tile. -/
theorem cond2_iff (i : grid0.Coords) : k0_cond2 i = 1#1 ↔ (i 1).val = 31 := by
  unfold k0_cond2
  generalize (i 1) = j
  revert j
  decide

/-- A load of a whole buffer through the full rectangle at zero offsets reads the contents it is held at. -/
theorem readAt_full {S : Shape} {e : EltTy} {m : Memref sig .tc .vmem S e} (h : m.IsWhole) (X : S.Idx → Elt F e)
    {off : Fin S.rank → Nat} (ho : off = fun _ => 0) (inb : ∀ a, off a + S.size a ≤ S.size a) :
    View.readAt (Elt F) m.view (Rect.unit off S.size inb).toLoadRect (h.unread X) = X := by
  rw [View.readAt_eq_ld, h.read_unread, View.ld_unit_zero ho]

/-- After a last store through the full rectangle at zero offsets the buffer reads the stored value, whatever it
    held and whatever was stored before. -/
theorem read_store_full {S : Shape} {e : EltTy} (m : Memref sig .tc .vmem S e) (f : m.view.ty.Contents (Elt F))
    {off : Fin S.rank → Nat} (ho : off = fun _ => 0) (inb : ∀ a, off a + S.size a ≤ S.size a) (w : S.Idx → Elt F e)
    (L : List (View.Piece (Elt F) S e)) :
    m.view.read (Elt F) (m.view.writes (Elt F) f (⟨Rect.unit off S.size inb, w⟩ :: L)) = w := by
  rw [View.read_writes_eq_canon _ _ _ (fun y => ⟨_, List.Mem.head _, View.mem_set_unit_zero ho inb y⟩),
    View.canon_cons_unit_zero ho]

set_option maxHeartbeats 1000000 in
/-- A column tile strictly between the first and the last: the accumulator takes the tile's masked
    exponential row sums on top of what it held; the anchors, their row products and the negatives'
    block are read and left as they were. -/
theorem run_mid (c : Dev nD) (i : grid0.Coords) (E : Set ℕ) (K : PUnit → sProp 𝕄)
    (arg2 : Memref sig .tc .vmem S2048x256 .f32) (harg2 : arg2.IsWhole)
    (arg3 : Memref sig .tc .vmem S512x128 .f32) (harg3 : arg3.IsWhole)
    (arg4 : Memref sig .tc .vmem S2048x1 .i32) (harg4 : arg4.IsWhole)
    (arg5 : Memref sig .tc .vmem S2048x1 .i32) (harg5 : arg5.IsWhole)
    (arg6 : Memref sig .tc .vmem S2048x1 .f32) (harg6 : arg6.IsWhole)
    (arg7 : Memref sig .tc .vmem S2048x1 .f32) (harg7 : arg7.IsWhole)
    (arg8 : Memref sig .tc .vmem S2048x128 .f32) (harg8 : arg8.IsWhole)
    (arg9 : Memref sig .tc .vmem S2048x1 .f32) (harg9 : arg9.IsWhole)
    (h0 : (i 1).val ≠ 0) (h31 : (i 1).val ≠ 31)
    (x1 : Vec F S512x128 .f32) (s0 : Vec F S2048x1 .f32) (s1 : Vec F S2048x128 .f32) (s2 : Vec F S2048x1 .f32) :
    iprop(owns (c : Thread nD τ) arg3 fullShare x1 ∗ owns (c : Thread nD τ) arg7 fullShare s0
          ∗ owns (c : Thread nD τ) arg8 fullShare s1 ∗ owns (c : Thread nD τ) arg9 fullShare s2
          ∗ (iprop(owns (c : Thread nD τ) arg3 fullShare x1 ∗ owns (c : Thread nD τ) arg7 fullShare (k0_pay8 i s1 s2 x1 s0)
                ∗ owns (c : Thread nD τ) arg8 fullShare s1 ∗ owns (c : Thread nD τ) arg9 fullShare s2) -∗ K ⟨⟩))
      ⊢ wp frame (wpE (defs₀ (F := F)) 𝒱₀ c none) E
          (cc0__kernel (F := F) i arg2 harg2 arg3 harg3 arg4 harg4 arg5 harg5 arg6 harg6 arg7 harg7 arg8 harg8 arg9 harg9) K := by
  have hc1 : ¬ ((Scalar.cmpi .ne (Scalar.extui (Scalar.cmpi .eq (BitVec.ofNat 32 (i 1).val) 0#32)) 0#32) = 1#1) :=
    fun h => h0 ((cond1_iff i).mp h)
  have hc2 : ¬ (k0_cond2 i = 1#1) := fun h => h31 ((cond2_iff i).mp h)
  simp only [cc0__kernel_eq_skeleton]; unfold cc0__kernel_skel
  unfold owns
  iintro ⟨⟨%f3, %hf3, H3⟩, ⟨%f7, %hf7, H7⟩, ⟨%f8, %hf8, H8⟩, ⟨%f9, %hf9, H9⟩, Hk⟩
  obtain rfl := harg3.eq_unread hf3; obtain rfl := harg7.eq_unread hf7
  obtain rfl := harg8.eq_unread hf8; obtain rfl := harg9.eq_unread hf9
  sl_exec (disch := first | exact hc1 | exact hc2)
  sl_step
  iapply Hk
  isplitl [H3]
  · iexists _; isplitr; · ipureintro; exact harg3.read_unread _
    iexact H3
  isplitl [H7]
  · iexists _; isplitr
    swap
    · iexact H7
    · ipureintro
      rw [read_store_full arg7 _ hz, readAt_full harg8 s1 hz, readAt_full harg9 s2 hz, readAt_full harg3 x1 hz,
        readAt_full harg7 s0 hz]
  isplitl [H8]
  · iexists _; isplitr; · ipureintro; exact harg8.read_unread _
    iexact H8
  · iexists _; isplitr; · ipureintro; exact harg9.read_unread _
    iexact H9

set_option maxHeartbeats 1000000 in
/-- The last column tile: the accumulator takes the tile's sums as on any tile, and the result block
    takes log(1 + ·) of the accumulator just stored, read back after the store. -/
theorem run_last (c : Dev nD) (i : grid0.Coords) (E : Set ℕ) (K : PUnit → sProp 𝕄)
    (arg2 : Memref sig .tc .vmem S2048x256 .f32) (harg2 : arg2.IsWhole)
    (arg3 : Memref sig .tc .vmem S512x128 .f32) (harg3 : arg3.IsWhole)
    (arg4 : Memref sig .tc .vmem S2048x1 .i32) (harg4 : arg4.IsWhole)
    (arg5 : Memref sig .tc .vmem S2048x1 .i32) (harg5 : arg5.IsWhole)
    (arg6 : Memref sig .tc .vmem S2048x1 .f32) (harg6 : arg6.IsWhole)
    (arg7 : Memref sig .tc .vmem S2048x1 .f32) (harg7 : arg7.IsWhole)
    (arg8 : Memref sig .tc .vmem S2048x128 .f32) (harg8 : arg8.IsWhole)
    (arg9 : Memref sig .tc .vmem S2048x1 .f32) (harg9 : arg9.IsWhole)
    (h31 : (i 1).val = 31)
    (x1 : Vec F S512x128 .f32) (s0 : Vec F S2048x1 .f32) (s1 : Vec F S2048x128 .f32) (s2 : Vec F S2048x1 .f32) :
    iprop(owns (c : Thread nD τ) arg3 fullShare x1 ∗ (∃ d, owns (c : Thread nD τ) arg6 fullShare d)
          ∗ owns (c : Thread nD τ) arg7 fullShare s0
          ∗ owns (c : Thread nD τ) arg8 fullShare s1 ∗ owns (c : Thread nD τ) arg9 fullShare s2
          ∗ (iprop(owns (c : Thread nD τ) arg3 fullShare x1
                ∗ owns (c : Thread nD τ) arg6 fullShare (k0_pay9 (k0_pay8 i s1 s2 x1 s0))
                ∗ owns (c : Thread nD τ) arg7 fullShare (k0_pay8 i s1 s2 x1 s0)
                ∗ owns (c : Thread nD τ) arg8 fullShare s1 ∗ owns (c : Thread nD τ) arg9 fullShare s2) -∗ K ⟨⟩))
      ⊢ wp frame (wpE (defs₀ (F := F)) 𝒱₀ c none) E
          (cc0__kernel (F := F) i arg2 harg2 arg3 harg3 arg4 harg4 arg5 harg5 arg6 harg6 arg7 harg7 arg8 harg8 arg9 harg9) K := by
  have hc1 : ¬ ((Scalar.cmpi .ne (Scalar.extui (Scalar.cmpi .eq (BitVec.ofNat 32 (i 1).val) 0#32)) 0#32) = 1#1) :=
    fun h => by have := (cond1_iff i).mp h; omega
  have hc2 : k0_cond2 i = 1#1 := (cond2_iff i).mpr h31
  simp only [cc0__kernel_eq_skeleton]; unfold cc0__kernel_skel
  unfold owns
  iintro ⟨⟨%f3, %hf3, H3⟩, ⟨%d6, %f6, -, H6⟩, ⟨%f7, %hf7, H7⟩, ⟨%f8, %hf8, H8⟩, ⟨%f9, %hf9, H9⟩, Hk⟩
  obtain rfl := harg3.eq_unread hf3; obtain rfl := harg7.eq_unread hf7
  obtain rfl := harg8.eq_unread hf8; obtain rfl := harg9.eq_unread hf9
  sl_exec (disch := first | exact hc1 | exact hc2)
  sl_step
  iapply Hk
  isplitl [H3]
  · iexists _; isplitr; · ipureintro; exact harg3.read_unread _
    iexact H3
  isplitl [H6]
  · iexists _; isplitr
    swap
    · iexact H6
    · ipureintro
      sl_unfold_words
      rw [read_store_full arg6 _ hz, View.readCov_unit_zero (S := S2048x1) arg7.view hz, readAt_full harg8 s1 hz,
        readAt_full harg9 s2 hz, readAt_full harg3 x1 hz, readAt_full harg7 s0 hz]
  isplitl [H7]
  · iexists _; isplitr
    swap
    · iexact H7
    · ipureintro
      sl_unfold_words
      rw [read_store_full arg7 _ hz, readAt_full harg8 s1 hz, readAt_full harg9 s2 hz, readAt_full harg3 x1 hz,
        readAt_full harg7 s0 hz]
  isplitl [H8]
  · iexists _; isplitr; · ipureintro; exact harg8.read_unread _
    iexact H8
  · iexists _; isplitr; · ipureintro; exact harg9.read_unread _
    iexact H9

set_option maxHeartbeats 1000000 in
/-- The first column tile: the accumulator is reset to zero, the anchors selected by the anchor words and
    their row products with the selected positives are stored, and then the tile's sums are added to the
    zero accumulator, every value read back after its store. The last branch is not taken (0 ≠ 31). -/
theorem run_first (c : Dev nD) (i : grid0.Coords) (E : Set ℕ) (K : PUnit → sProp 𝕄)
    (arg2 : Memref sig .tc .vmem S2048x256 .f32) (harg2 : arg2.IsWhole)
    (arg3 : Memref sig .tc .vmem S512x128 .f32) (harg3 : arg3.IsWhole)
    (arg4 : Memref sig .tc .vmem S2048x1 .i32) (harg4 : arg4.IsWhole)
    (arg5 : Memref sig .tc .vmem S2048x1 .i32) (harg5 : arg5.IsWhole)
    (arg6 : Memref sig .tc .vmem S2048x1 .f32) (harg6 : arg6.IsWhole)
    (arg7 : Memref sig .tc .vmem S2048x1 .f32) (harg7 : arg7.IsWhole)
    (arg8 : Memref sig .tc .vmem S2048x128 .f32) (harg8 : arg8.IsWhole)
    (arg9 : Memref sig .tc .vmem S2048x1 .f32) (harg9 : arg9.IsWhole)
    (h0 : (i 1).val = 0)
    (x0 : Vec F S2048x256 .f32) (x1 : Vec F S512x128 .f32) (a0 p0 : Vec F S2048x1 .i32) :
    iprop(owns (c : Thread nD τ) arg2 fullShare x0 ∗ owns (c : Thread nD τ) arg3 fullShare x1
          ∗ owns (c : Thread nD τ) arg4 fullShare a0 ∗ owns (c : Thread nD τ) arg5 fullShare p0
          ∗ (∃ d, owns (c : Thread nD τ) arg7 fullShare d) ∗ (∃ d, owns (c : Thread nD τ) arg8 fullShare d)
          ∗ (∃ d, owns (c : Thread nD τ) arg9 fullShare d)
          ∗ (iprop(owns (c : Thread nD τ) arg2 fullShare x0 ∗ owns (c : Thread nD τ) arg3 fullShare x1
                ∗ owns (c : Thread nD τ) arg4 fullShare a0 ∗ owns (c : Thread nD τ) arg5 fullShare p0
                ∗ owns (c : Thread nD τ) arg7 fullShare (k0_pay8 i (k0_pay6 x0 a0) (k0_pay7 x0 a0 p0) x1 (k0_pay1 (F := F)))
                ∗ owns (c : Thread nD τ) arg8 fullShare (k0_pay6 x0 a0)
                ∗ owns (c : Thread nD τ) arg9 fullShare (k0_pay7 x0 a0 p0)) -∗ K ⟨⟩))
      ⊢ wp frame (wpE (defs₀ (F := F)) 𝒱₀ c none) E
          (cc0__kernel (F := F) i arg2 harg2 arg3 harg3 arg4 harg4 arg5 harg5 arg6 harg6 arg7 harg7 arg8 harg8 arg9 harg9) K := by
  have hc1 : (Scalar.cmpi .ne (Scalar.extui (Scalar.cmpi .eq (BitVec.ofNat 32 (i 1).val) 0#32)) 0#32) = 1#1 :=
    (cond1_iff i).mpr h0
  have hc2 : ¬ (k0_cond2 i = 1#1) := fun h => by have := (cond2_iff i).mp h; omega
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%d7, %f7, -, H7⟩, ⟨%d8, %f8, -, H8⟩,
    ⟨%d9, %f9, -, H9⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr
    swap
    · iexact H7
    · ipureintro
      sl_unfold_words
      rw [read_store_full arg7 _ hz, View.readCov_unit_zero (S := S2048x128) arg8.view hz,
        View.readCov_unit_zero (S := S2048x1) arg9.view hz, View.readCov_unit_zero (S := S2048x1) arg7.view hz,
        readAt_full harg2 x0 hz, readAt_full harg4 a0 hz, readAt_full harg5 p0 hz, readAt_full harg3 x1 hz]
  isplitl [H8]
  · iexists _; isplitr
    swap
    · iexact H8
    · ipureintro
      sl_unfold_words
      rw [read_store_full arg8 _ hz, readAt_full harg2 x0 hz, readAt_full harg4 a0 hz]
  · iexists _; isplitr
    swap
    · iexact H9
    · ipureintro
      sl_unfold_words
      rw [read_store_full arg9 _ hz, readAt_full harg2 x0 hz, readAt_full harg4 a0 hz, readAt_full harg5 p0 hz]

end Cert.Kernel.Hand

end
-- ==== Proof.K.Obligation.lean ====
/-
  The body obligation of the pipelined region: at each of the 256 grid points the kernel body, run on the windows'
  current staging buffers and the three scratch buffers, takes the invariant before the point to the invariant after it.

  The point's column tile decides the case. At the first tile of a row tile the body writes all three scratch buffers
  afresh, so nothing is asked of what they held; strictly inside, and at the last tile, it reads the anchors and their
  products with the positives as the first tile left them and adds the tile's share to the running sums; at the last
  tile the sums' log(1 + ·) is stored to the result's staging buffer, which at every other point is handed back as found.
  An input window's buffer holds its block whether or not the point fetched it: where it did not, the block index has
  not moved since the fetch.
-/
import proofs.«414660_j40200893890726_2_alg».proof.Proof.K.Data
import proofs.«414660_j40200893890726_2_alg».proof.Proof.K.Body
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The grid point's coordinates and the result window's schedule, decided over the 256 points -/

/-- Point `t` is column tile `t mod 32` -/
theorem coords_col : ∀ t : Fin cfg0.N, ((grid0.coords t) 1).val = t.val % 32 :=
  (by decide +kernel : ∀ t : Fin grid0.N, ((grid0.coords t) 1).val = t.val % 32)
/-- of row tile `t / 32`. -/
theorem coords_row : ∀ t : Fin cfg0.N, ((grid0.coords t) 0).val = t.val / 32 :=
  (by decide +kernel : ∀ t : Fin grid0.N, ((grid0.coords t) 0).val = t.val / 32)
/-- The body stores nothing into the result's staging buffer except at the last column tile. -/
theorem idle4_iff : ∀ t : Fin cfg0.N, idle0 4 (grid0.coords t) = true ↔ t.val % 32 ≠ 31 :=
  (by decide +kernel : ∀ t : Fin grid0.N, idle0 4 (grid0.coords t) = true ↔ t.val % 32 ≠ 31)

/-! ## What the body finds in the input windows' staging buffers: the block, fetched at this point or not -/

theorem before_in0 (c : Dev nD) (t : Fin cfg0.N) (d) : (dats m 0 c).before 0 t d = iblk m c 0 t :=
  ((dats m 0 c).before_in_eq_fetched 0 rfl (fun _ => rfl) (fun _ _ _ => rfl)
    (fun t => by dsimp only [dats]; unfold Dat.blockOf iblk; rfl) t d).trans
    (by unfold Dat.fetched Dat.blockOf iblk; dsimp only [dats]; try rfl)
theorem before_in1 (c : Dev nD) (t : Fin cfg0.N) (d) : (dats m 0 c).before 1 t d = iblk m c 1 t :=
  ((dats m 0 c).before_in_eq_fetched 1 rfl (fun _ => rfl) (fun _ _ _ => rfl)
    (fun t => by dsimp only [dats]; unfold Dat.blockOf iblk; rfl) t d).trans
    (by unfold Dat.fetched Dat.blockOf iblk; dsimp only [dats]; try rfl)
theorem before_in2 (c : Dev nD) (t : Fin cfg0.N) (d) : (dats m 0 c).before 2 t d = iblk m c 2 t :=
  ((dats m 0 c).before_in_eq_fetched 2 rfl (fun _ => rfl) (fun _ _ _ => rfl)
    (fun t => by dsimp only [dats]; unfold Dat.blockOf iblk; rfl) t d).trans
    (by unfold Dat.fetched Dat.blockOf iblk; dsimp only [dats]; try rfl)
theorem before_in3 (c : Dev nD) (t : Fin cfg0.N) (d) : (dats m 0 c).before 3 t d = iblk m c 3 t :=
  ((dats m 0 c).before_in_eq_fetched 3 rfl (fun _ => rfl) (fun _ _ _ => rfl)
    (fun t => by dsimp only [dats]; unfold Dat.blockOf iblk; rfl) t d).trans
    (by unfold Dat.fetched Dat.blockOf iblk; dsimp only [dats]; try rfl)

/-! ## One step of the scratch recursion -/

/-- At a row tile's first point the three buffers are recomputed from the tile's blocks. -/
theorem scr_succ_first (c : Dev nD) (t : Fin cfg0.N) (h0 : t.val % 32 = 0) :
    scr m c (t.val + 1)
      = (k0_pay8 (grid0.coords t) (k0_pay6 (xblk m c t) (ablk m c t)) (k0_pay7 (xblk m c t) (ablk m c t) (pblk m c t)) (nblk m c t) (k0_pay1 (F := F)),
          k0_pay6 (xblk m c t) (ablk m c t), k0_pay7 (xblk m c t) (ablk m c t) (pblk m c t)) := by
  rw [scr, dif_pos t.isLt, if_pos h0]
/-- At every other point the running sums grow by the column tile's share and the other two stay. -/
theorem scr_succ_next (c : Dev nD) (t : Fin cfg0.N) (h0 : t.val % 32 ≠ 0) :
    scr m c (t.val + 1)
      = (k0_pay8 (grid0.coords t) (scr m c t.val).2.1 (scr m c t.val).2.2 (nblk m c t) (scr m c t.val).1, (scr m c t.val).2.1, (scr m c t.val).2.2) := by
  rw [scr, dif_pos t.isLt, if_neg h0]

/-! ## The body obligation -/

/-- At every point the body takes the invariant and the windows' buffers to the invariant at the next point and the
    buffers at what the proof data say: by the column tile — first, strictly inside, last. -/
theorem body_obligation (c : Dev nD) : BodyObligationLoose (dats m 0 c) (defs₀ (F := F)) 𝒱₀ () Set.univ := fun t => by
  rw [bigSep_W0, bigSep_W0]
  simp only
  rw [show (dats m 0 c).owesAt () t.succ = (dats m 0 c).owesAt () t.castSucc from rfl,
    show (dats m 0 c).Φ t.castSucc = Phi m c t.castSucc from rfl, show (dats m 0 c).Φ t.succ = Phi m c t.succ from rfl,
    show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = outAt m c t from rfl]
  unfold Phi
  iintro ⟨⟨%s0, %s1, %s2, %hs, Hs0, Hs1, Hs2⟩, Ho, ⟨%d0, H0⟩, ⟨%d1, H1⟩, ⟨%d2, H2⟩, ⟨%d3, H3⟩, ⟨%d4, H4⟩⟩
  rw [before_in0 m c t d0, before_in1 m c t d1, before_in2 m c t d2, before_in3 m c t d3]
  have hcol := coords_col t
  have hsv : (t.succ : Fin (cfg0.N + 1)).val = t.val + 1 := rfl
  have hcv : (t.castSucc : Fin (cfg0.N + 1)).val = t.val := rfl
  by_cases h0 : t.val % 32 = 0
  · -- the row tile's first point
    have hidle : idle0 4 (grid0.coords t) = true := (idle4_iff t).mpr (by omega)
    have hfl : (win0 4).flush t = false := by
      rw [Bool.eq_false_iff]; exact fun h => absurd ((flush0_4 t).mp h) (by omega)
    simp only [hidle, hfl]
    iapply (run_first (F := F) c (grid0.coords t) Set.univ _ _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (Memref.whole cc0_scratch0) (Memref.isWhole_whole _) (Memref.whole cc0_scratch1) (Memref.isWhole_whole _) (Memref.whole cc0_scratch2) (Memref.isWhole_whole _)
      (hcol.trans h0)
      (xblk m c t) (nblk m c t) (ablk m c t) (pblk m c t))
    isplitl [H0]; · iexact H0
    isplitl [H1]; · iexact H1
    isplitl [H2]; · iexact H2
    isplitl [H3]; · iexact H3
    isplitl [Hs0]; · iexists s0; iexact Hs0
    isplitl [Hs1]; · iexists s1; iexact Hs1
    isplitl [Hs2]; · iexists s2; iexact Hs2
    iintro ⟨H0, H1, H2, H3, Hs0, Hs1, Hs2⟩
    isplitl [Hs0 Hs1 Hs2]
    · iexists _, _, _
      isplitr
      · ipureintro; intro _; rw [hsv, scr_succ_first m c t h0]; exact ⟨rfl, rfl, rfl⟩
      isplitl [Hs0]; · iexact Hs0
      isplitl [Hs1]; · iexact Hs1
      iexact Hs2
    isplitl [Ho]; · iexact Ho
    isplitl [H0]; · iexact H0
    isplitl [H1]; · iexact H1
    isplitl [H2]; · iexact H2
    isplitl [H3]; · iexact H3
    iexists d4; iexact H4
  · obtain ⟨hs0, hs1, hs2⟩ := hs (by rw [hcv]; exact h0)
    subst hs0 hs1 hs2
    by_cases h31 : t.val % 32 = 31
    · -- the row tile's last point: the sums go out
      have hidle : idle0 4 (grid0.coords t) = false := by
        rw [Bool.eq_false_iff]; exact fun h => absurd ((idle4_iff t).mp h) (by omega)
      simp only [hidle]
      iapply (run_last (F := F) c (grid0.coords t) Set.univ _ _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (Memref.whole cc0_scratch0) (Memref.isWhole_whole _) (Memref.whole cc0_scratch1) (Memref.isWhole_whole _) (Memref.whole cc0_scratch2) (Memref.isWhole_whole _)
      (hcol.trans h31)
        (nblk m c t) (scr m c t.val).1 (scr m c t.val).2.1 (scr m c t.val).2.2)
      isplitl [H1]; · iexact H1
      isplitl [H4]; · iexists _; iexact H4
      isplitl [Hs0]; · iexact Hs0
      isplitl [Hs1]; · iexact Hs1
      isplitl [Hs2]; · iexact Hs2
      iintro ⟨H1, H4, Hs0, Hs1, Hs2⟩
      isplitl [Hs0 Hs1 Hs2]
      · iexists _, _, _
        isplitr
        · ipureintro; intro _; rw [hsv, scr_succ_next m c t h0]; exact ⟨rfl, rfl, rfl⟩
        isplitl [Hs0]; · iexact Hs0
        isplitl [Hs1]; · iexact Hs1
        iexact Hs2
      isplitl [Ho]; · iexact Ho
      isplitl [H0]; · iexact H0
      isplitl [H1]; · iexact H1
      isplitl [H2]; · iexact H2
      isplitl [H3]; · iexact H3
      unfold outAt; rw [scr_succ_next m c t h0]
      iexact H4
    · -- strictly inside the row tile
      have hidle : idle0 4 (grid0.coords t) = true := (idle4_iff t).mpr h31
      have hfl : (win0 4).flush t = false := by
        rw [Bool.eq_false_iff]; exact fun h => absurd ((flush0_4 t).mp h) h31
      simp only [hidle, hfl]
      iapply (run_mid (F := F) c (grid0.coords t) Set.univ _ _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (Memref.whole cc0_scratch0) (Memref.isWhole_whole _) (Memref.whole cc0_scratch1) (Memref.isWhole_whole _) (Memref.whole cc0_scratch2) (Memref.isWhole_whole _)
      (by rw [hcol]; exact h0) (by rw [hcol]; exact h31)
        (nblk m c t) (scr m c t.val).1 (scr m c t.val).2.1 (scr m c t.val).2.2)
      isplitl [H1]; · iexact H1
      isplitl [Hs0]; · iexact Hs0
      isplitl [Hs1]; · iexact Hs1
      isplitl [Hs2]; · iexact Hs2
      iintro ⟨H1, Hs0, Hs1, Hs2⟩
      isplitl [Hs0 Hs1 Hs2]
      · iexists _, _, _
        isplitr
        · ipureintro; intro _; rw [hsv, scr_succ_next m c t h0]; exact ⟨rfl, rfl, rfl⟩
        isplitl [Hs0]; · iexact Hs0
        isplitl [Hs1]; · iexact Hs1
        iexact Hs2
      isplitl [Ho]; · iexact Ho
      isplitl [H0]; · iexact H0
      isplitl [H1]; · iexact H1
      isplitl [H2]; · iexact H2
      isplitl [H3]; · iexact H3
      iexists d4; iexact H4

end Cert.Kernel.Hand

end
-- ==== Proof.K.Run.lean ====
/-
  THE LAUNCH: the run of @main from the body obligation, for every float instance.

  @main is three reshapes, the pipelined region, and a tail of two host operations: the constant zero and the sum of
  the region's result array over both axes. Two of the region's windows read ONE array (the reshaped samples), so that
  array's full share is split between them at entry, half and half; the result array is held whole. The buffers no
  window routes — the three arguments, the constant's and the sum's — bypass the region; the three scratch buffers,
  whole at some contents, are the invariant before the first point (which says nothing of what they hold there, a
  row tile's first point rewriting all three) and come back from it after the last.

  The tail runs from the region's exit holding three buffers: the result array as the region left it (read), the
  constant's and the sum's (written). So the program's result is the sum, from zero, of the result array's final
  contents, and no operation anywhere writes an argument.
-/
import proofs.«414660_j40200893890726_2_alg».proof.Proof.K.Data
import Idealize.ShloMosaic.Lib.Pipeline.Launch
import Idealize.ShloMosaic.Lib.Pipeline.Kit
import Idealize.ShloMosaic.Lib.Pipeline.Frame
import Idealize.ShloMosaic.Lib.Pipeline.FrameSuffix
import Idealize.ShloMosaic.Lib.StableHlo.Run

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

variable (m : (ℓ : Loc nD τ sig) → Buf (Elt F) ℓ)

/-- The program's result: the host tail's sum of the result array as the region leaves it. -/
def lossOf (c : Dev nD) : Buf (Elt F) ((c.tc : Thread nD τ).loc main_v4) :=
  Host.reduceAdd ((dats m 0 c).arrAt 4 cfg0.N) (constant S_ .f32 0x00000000#32) reducesTo_S16384x1_S_d0_1 h_S_

/-! The pieces of the launch; the launch itself is `run_main_of` at the end. -/
namespace Launch

/-! ## The windows' arrays, one by one -/

/-- The pipeline's arrays at contents `G`: the sample array held half and half by the two windows that read it, the two
    index arrays and the result array whole. -/
theorem arrays_eq5 (c : Dev nD) (G : (w : Fin cfg0.W) → Buf (Elt F) ((cfg0.win w).arr.view.loc (c.tc : Thread nD τ))) :
    ((dats m 0 c).arrays G : sProp 𝕄) = iprop(
      (((c.tc : Thread nD τ).loc main_v0) ↦{fullShare.left} G 0) ∗ (((c.tc : Thread nD τ).loc main_v0) ↦{fullShare.right} G 1)
        ∗ (((c.tc : Thread nD τ).loc main_v1) ↦{fullShare} G 2) ∗ (((c.tc : Thread nD τ).loc main_v2) ↦{fullShare} G 3)
        ∗ (((c.tc : Thread nD τ).loc main_v3) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-! ## The host tail's values -/

/-- The tail does not write the result array; -/
theorem after_tail_v3 (W : Valuation τ sig (Elt F)) :
    StableHlo.after hostOps1 W (Proc.devRef .tc main_v3) = W (Proc.devRef .tc main_v3) := by
  after_results_simp

/-- it leaves the zero constant in its buffer -/
theorem after_tail_cst (W : Valuation τ sig (Elt F)) :
    StableHlo.after hostOps1 W (Proc.devRef .tc main_cst) = constant S_ .f32 0x00000000#32 := by
  after_results_simp

/-- and the sum of the result array, from zero, in the program's result. -/
theorem after_tail_v4 (W : Valuation τ sig (Elt F)) :
    StableHlo.after hostOps1 W (Proc.devRef .tc main_v4)
      = Host.reduceAdd (W (Proc.devRef .tc main_v3)) (constant S_ .f32 0x00000000#32) reducesTo_S16384x1_S_d0_1 h_S_ := by
  after_results_simp

/-! ## @main around the region -/

theorem hostOps0_fresh : (hostOps0 : List (HloOp τ sig (Elt F))).Forall fun op => op.fresh = ∅ := by
  simp only [List.Forall]; repeat' constructor

/-- @main is the three reshapes, the region, and the two operations of the tail. -/
theorem hmain_k : Pipeline.HMainK (Ix := Unit) (Name := ℕ) (U := UR sig nD τ) (Lvl := ℕ) cfgs 0 defs₀ Variants.none m (main (F := F)) (V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- No reshape writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.Forall, StableHlo.reshape_writes, Finset.mem_singleton]
    repeat' apply And.intro
    all_goals exact StableHlo.devRef_ne_of_ne (by decide)))

/-! ## The region's side conditions -/

/-- The distinct buffers behind the windows' arrays, one by one. -/
theorem arrBufs_eq4 (c : Dev nD) (V : (b : Ref sig .tc) → Buf (Elt F) ((c.tc : Thread nD τ).loc b)) :
    (Pipeline.arrBufs spec0 c V : sProp 𝕄)
      = iprop((((c.tc : Thread nD τ).loc main_v0) ↦{fullShare} V main_v0) ∗ (((c.tc : Thread nD τ).loc main_v1) ↦{fullShare} V main_v1)
          ∗ (((c.tc : Thread nD τ).loc main_v2) ↦{fullShare} V main_v2) ∗ (((c.tc : Thread nD τ).loc main_v3) ↦{fullShare} V main_v3)) :=
  bigSep_eq_bigSepL_of_eq [main_v0, main_v1, main_v2, main_v3] (by decide) (by decide) _

/-- The buffers behind the arrays, whole, make the pipeline's arrays at entry: the sample array's full share is the
    two halves its two windows hold. -/
theorem hsplit (c : Dev nD) :
    (Pipeline.arrBufs spec0 c (V m c) : sProp 𝕄) ⊢ (dats m 0 c).arrays ((dats m 0 c).arrAt · 0) := by
  rw [arrays_eq5, arrBufs_eq4]
  iintro ⟨H0, H1, H2, H3⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  iexact H3

/-- The scratch buffers, whole at some contents, are the invariant before the first point: it says nothing of
    what they hold there. -/
theorem phi0_intro (c : Dev nD) :
    iprop(emp ∗ Pipeline.prefHeld (Pipeline.Prefetch.none (sig := sig)) c (fun _ => fullShare.right) (fun k => k.elim0) ∗ Pipeline.scopedRest spec0 c) ⊢ (dats m 0 c).Φ 0 := by
  rw [scopedRest0_eq]
  show _ ⊢ Phi m c 0
  unfold Phi
  simp only [owns_whole]
  iintro ⟨-, -, ⟨%f0, H0⟩, ⟨%f1, H1⟩, ⟨%f2, H2⟩⟩
  iexists f0, f1, f2
  isplitr; · ipureintro; intro h; exact absurd rfl h
  isplitl [H0]; · iexact H0
  isplitl [H1]; · iexact H1
  iexact H2

/-- After the last point the invariant gives them back. -/
theorem phiN_exit (c : Dev nD) :
    (dats m 0 c).Φ (Fin.last cfg0.N) ⊢ iprop(emp ∗ Pipeline.scopedRest spec0 c) := by
  rw [scopedRest0_eq]
  show Phi m c (Fin.last cfg0.N) ⊢ _
  unfold Phi
  simp only [owns_whole]
  iintro ⟨%s0, %s1, %s2, -, H0, H1, H2⟩
  isplitr; · iempintro
  isplitl [H0]; · iexists s0; iexact H0
  isplitl [H1]; · iexists s1; iexact H1
  iexists s2; iexact H2

/-! ## The host tail -/

/-- The three buffers the tail touches: the result array, the zero constant and the program's result. -/
def tailS : Finset (DevRef τ sig) := {Proc.devRef .tc main_v3, Proc.devRef .tc main_cst, Proc.devRef .tc main_v4}

theorem held_tailS (c : Dev nD) (W : Valuation τ sig (Elt F)) :
    (StableHlo.held (c.tc : Thread nD τ) tailS W : sProp 𝕄)
      = iprop((((c.tc : Thread nD τ).loc main_v3) ↦{fullShare} W (Proc.devRef .tc main_v3))
          ∗ (((c.tc : Thread nD τ).loc main_cst) ↦{fullShare} W (Proc.devRef .tc main_cst))
          ∗ (((c.tc : Thread nD τ).loc main_v4) ↦{fullShare} W (Proc.devRef .tc main_v4))) := by
  unfold StableHlo.held tailS
  rw [bigSep_insert (by
        rw [Finset.mem_insert, Finset.mem_singleton]
        rintro (h | h)
        · exact StableHlo.devRef_ne_of_ne (by decide) h
        · exact StableHlo.devRef_ne_of_ne (by decide) h),
    bigSep_insert (by rw [Finset.mem_singleton]; exact StableHlo.devRef_ne_of_ne (by decide)), bigSep_singleton]
  rfl

theorem hostOps1_sub_tailS : ∀ op ∈ (hostOps1 : List (HloOp τ sig (Elt F))), op.bufs ⊆ tailS := by
  intro op hop
  simp only [hostOps1, List.mem_cons, List.mem_nil_iff, or_false] at hop
  rcases hop with rfl | rfl
  · rw [StableHlo.nullary_bufs]
    exact Finset.singleton_subset_iff.mpr (Finset.mem_insert_of_mem (Finset.mem_insert_self _ _))
  · rw [StableHlo.binary_bufs]
    exact Finset.Subset.refl _

theorem hostOps1_fresh : ∀ op ∈ (hostOps1 : List (HloOp τ sig (Elt F))), op.fresh = ∅ := by
  intro op hop
  simp only [hostOps1, List.mem_cons, List.mem_nil_iff, or_false] at hop
  rcases hop with rfl | rfl <;> rfl

/-- What bypasses the region, after the tail: the arguments as launched, the zero constant, and the sum of the
    result array. -/
def tailPts (c : Dev nD) : sProp 𝕄 :=
  iprop((((c.tc : Thread nD τ).loc main_arg0) ↦{fullShare} m ((c.tc : Thread nD τ).loc main_arg0))
    ∗ (((c.tc : Thread nD τ).loc main_arg1) ↦{fullShare} m ((c.tc : Thread nD τ).loc main_arg1))
    ∗ (((c.tc : Thread nD τ).loc main_arg2) ↦{fullShare} m ((c.tc : Thread nD τ).loc main_arg2))
    ∗ (((c.tc : Thread nD τ).loc main_cst) ↦{fullShare} (constant (F := F) S_ .f32 0x00000000#32 : Buf (Elt F) ((c.tc : Thread nD τ).loc main_cst)))
    ∗ (((c.tc : Thread nD τ).loc main_v4) ↦{fullShare} lossOf m c))

/-- The core's buffer contents when the tail starts: the result array as the region leaves it, every other buffer as
    the region found it. -/
def tailW (c : Dev nD) : Valuation τ sig (Elt F) :=
  Function.update (StableHlo.after (List.flatten [hostOps0]) (fun b => m (c, b))) (Proc.devRef .tc main_v3) ((dats m 0 c).arrAt 4 cfg0.N)

theorem tailW_v3 (c : Dev nD) : tailW m c (Proc.devRef .tc main_v3) = (dats m 0 c).arrAt 4 cfg0.N :=
  Function.update_self ..
theorem tailW_cst (c : Dev nD) : tailW m c (Proc.devRef .tc main_cst) = V m c main_cst :=
  Function.update_of_ne (StableHlo.devRef_ne_of_ne (by decide)) ..
theorem tailW_v4 (c : Dev nD) : tailW m c (Proc.devRef .tc main_v4) = V m c main_v4 :=
  Function.update_of_ne (StableHlo.devRef_ne_of_ne (by decide)) ..

/-- The three buffers as the region leaves them are the tail's set at its starting contents; -/
theorem tail_enter (c : Dev nD) :
    iprop((((c.tc : Thread nD τ).loc main_v3) ↦{fullShare} (dats m 0 c).arrAt 4 cfg0.N)
        ∗ (((c.tc : Thread nD τ).loc main_cst) ↦{fullShare} V m c main_cst)
        ∗ (((c.tc : Thread nD τ).loc main_v4) ↦{fullShare} V m c main_v4))
      ⊢ (StableHlo.held (c.tc : Thread nD τ) tailS (tailW m c) : sProp 𝕄) := by
  rw [held_tailS, tailW_v3, tailW_cst, tailW_v4]

/-- and the set after the tail is the result array untouched, the zero constant and the sum. -/
theorem tail_exit (c : Dev nD) :
    (StableHlo.held (c.tc : Thread nD τ) tailS (StableHlo.after hostOps1 (tailW m c)) : sProp 𝕄)
      ⊢ iprop((((c.tc : Thread nD τ).loc main_v3) ↦{fullShare} (dats m 0 c).arrAt 4 cfg0.N)
        ∗ (((c.tc : Thread nD τ).loc main_cst) ↦{fullShare} (constant (F := F) S_ .f32 0x00000000#32 : Buf (Elt F) ((c.tc : Thread nD τ).loc main_cst)))
        ∗ (((c.tc : Thread nD τ).loc main_v4) ↦{fullShare} lossOf m c)) := by
  rw [held_tailS, after_tail_v3, after_tail_cst, after_tail_v4, tailW_v3]
  exact .rfl

set_option backward.isDefEq.respectTransparency.types false in
/-- The tail, from the region's exit: it reads the result array and writes the constant and the sum. -/
theorem htail (c : Dev nD) (Q' : PUnit → sProp 𝕄) :
    iprop((iprop((dats m 0 c).arrays ((dats m 0 c).arrAt · cfg0.N) ∗ tailPts m c) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun p => (cfgs p).toPCfg) (defs₀ (F := F))) (Variants.lift Variants.none) (c.tc : Thread nD τ) none) Set.univ
          (Pipeline.chain ([hostOps1].map StableHlo.seq)) Q' := by
  rw [arrays_eq5, unscopedRest0_eq, V_main_arg0, V_main_arg1, V_main_arg2, List.map_cons, List.map_nil, Pipeline.chain_cons]
  iintro ⟨Hk, Hb, ⟨A0, A1, A2, A3, A4⟩, ⟨Z0, Z1, Z2, Zc, Z4⟩⟩
  iapply (StableHlo.wp_seq (Variants.lift Variants.none) none Set.univ c tailS _ hostOps1 hostOps1_sub_tailS hostOps1_fresh (tailW m c)) $$ [Hb A4 Zc Z4]
  · isplitl [Hb]; · iexact Hb
    iapply (tail_enter m c)
    isplitl [A4]; · iexact A4
    isplitl [Zc]; · iexact Zc
    iexact Z4
  iintro ⟨Hb, H⟩
  rw [Pipeline.chain_nil, wp_pure]
  ihave H' := (tail_exit m c) $$ H
  icases H' with ⟨A4, Zc, Z4⟩
  imodintro
  iapply Hk
  unfold tailPts
  isplitl [A0 A1 A2 A3 A4]
  · isplitl [A0]; · iexact A0
    isplitl [A1]; · iexact A1
    isplitl [A2]; · iexact A2
    isplitl [A3]; · iexact A3
    iexact A4
  isplitl [Z0]; · iexact Z0
  isplitl [Z1]; · iexact Z1
  isplitl [Z2]; · iexact Z2
  isplitl [Zc]; · iexact Zc
  iexact Z4

/-! ## Reading the final memory -/

/-- A whole buffer's points-to against the state interpretation: the memory holds its contents. -/
theorem pt_read (ℓ : Loc nD τ sig) (G : Buf (Elt F) ℓ) (s' : Phys nD τ sig (Elt F)) :
    iprop((ℓ ↦{fullShare} G : sProp 𝕄) ∗ SI s') ⊢ iprop(⌜s'.mem.mem ℓ = G⌝ ∗ SI s') := by
  have h := pointsTo_read_all (Ix := Unit) (Name := ℕ) (U := UR sig nD τ) (Lvl := ℕ) ({()} : Finset Unit) (fun _ => ℓ) (fun _ => G) s'
  rw [bigSep_singleton] at h
  refine h.trans ?_
  iintro ⟨%h, H⟩
  isplitr; · ipureintro; exact h () (Finset.mem_singleton_self _)
  iexact H

/-- The final memory holds the loss and the arguments as launched. -/
theorem hY (c : Dev nD) (s' : Phys nD τ sig (Elt F)) :
    iprop(emp ∗ tailPts m c ∗ SI s') ⊢ |={Set.univ}=>
      iprop(⌜s'.mem.mem ((c.tc : Thread nD τ).loc main_v4) = lossOf m c
          ∧ s'.mem.mem ((c.tc : Thread nD τ).loc main_arg0) = m ((c.tc : Thread nD τ).loc main_arg0)
          ∧ s'.mem.mem ((c.tc : Thread nD τ).loc main_arg1) = m ((c.tc : Thread nD τ).loc main_arg1)
          ∧ s'.mem.mem ((c.tc : Thread nD τ).loc main_arg2) = m ((c.tc : Thread nD τ).loc main_arg2)⌝ ∗ SI s') := by
  unfold tailPts
  iintro ⟨-, ⟨Z0, Z1, Z2, -, Z4⟩, HSI⟩
  ihave H := (pt_read _ _ s') $$ [Z0 HSI]
  · isplitl [Z0]; · iexact Z0
    iexact HSI
  icases H with ⟨%h0, HSI⟩
  ihave H := (pt_read _ _ s') $$ [Z1 HSI]
  · isplitl [Z1]; · iexact Z1
    iexact HSI
  icases H with ⟨%h1, HSI⟩
  ihave H := (pt_read _ _ s') $$ [Z2 HSI]
  · isplitl [Z2]; · iexact Z2
    iexact HSI
  icases H with ⟨%h2, HSI⟩
  ihave H := (pt_read _ _ s') $$ [Z4 HSI]
  · isplitl [Z4]; · iexact Z4
    iexact HSI
  icases H with ⟨%h4, HSI⟩
  imodintro
  isplitr; · ipureintro; exact ⟨h4, h0, h1, h2⟩
  iexact HSI

end Launch

/-! ## The launch -/

set_option backward.isDefEq.respectTransparency.types false in
/-- From any memory with zero counters, given the body obligation at every point: every weakly fair execution of
    @main on the TensorCores terminates, and every final state holds the sum of the region's result array in the
    program's result and the three arguments as launched. -/
theorem run_main_of (hbody : ∀ c, Pipeline.BodyObligationLoose (dats m 0 c) (defs₀ (F := F)) Variants.none () Set.univ) (ρ : Dev nD → PrngReg) :
    θ_run defs (onTc (τ := τ) (main (F := F))) ⟨m, fun _ => 0, ρ⟩ (fun r => ∀ c : Dev nD,
      r.2.mem ((c.tc : Thread nD τ).loc main_v4) = lossOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_region_noSem_pf_tail (fun p => (cfgs p).toPCfg) (fun p => (cfgs p).toPCfg_adm) (dats m) () cellOf_inj (0 : Fin 1)
    winFacts₀0 (Pipeline.PreFacts.none _) EP defs₀ Variants.none m ρ main
    (fun _ => Pipeline.chain ([hostOps1].map StableHlo.seq))
    (hbody := hbody) (hne := block_pos0) (harr := arr_whole0) (hstage := stage_whole0) (howed := fun _ _ => rfl)
    (u₀ := u₀) (hu₀ := BI.Entails.refl _)
    (V := V m)
    (hmain := Launch.hmain_k m)
    (hsplit := Launch.hsplit m)
    (hpf := fun _ k => k.elim0)
    (X := fun _ => iprop(emp)) (Y := fun _ => iprop(emp))
    (Z := fun c => Pipeline.unscopedRest spec0 c (V m c)) (Z' := Launch.tailPts m)
    (hX := fun c => by
      refine (Entails.of_eq (Pipeline.unscopedRestP_none spec0 c (V m c))).trans ?_
      iintro H; isplitr; · iempintro
      iexact H)
    (hin := Launch.phi0_intro m) (hout := Launch.phiN_exit m) (htail := Launch.htail m)
    (QY := fun c s => s.mem ((c.tc : Thread nD τ).loc main_v4) = lossOf m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hY := Launch.hY m)
    (hQ := fun _ h c => (h c).2.2)

end Cert.Kernel.Hand

end
-- ==== Proof.KI.Data.lean ====
/-
  The proof data of the one pipelined region, for every float instance.

  The region walks a grid of 8 row tiles (2048 classes each) by 32 column tiles (512 classes each), point
  `t = 32·i + j`. Three scratch buffers live across the points of one row tile: the anchors of the tile's 2048
  classes, their products with the positives, and the running row sums. At the first column tile (`j = 0`) all
  three are written afresh from the row tile's sample block and its two index blocks; at every column tile the
  running sums grow by that tile's masked exponentials; at the last (`j = 31`) their `log(1 + ·)` goes out.

  So the scratch contents after `n` points are a function of the argument arrays alone (`scr`), by recursion on
  `n`: what the buffers held before a row tile's first point is never read, and the invariant says nothing of them
  there.
-/
import proofs.«414660_j40200893890726_2_alg».proof.Proof.Gen.KernelIdeal.Launch
import proofs.«414660_j40200893890726_2_alg».proof.Proof.Gen.KernelIdeal.Points
import proofs.«414660_j40200893890726_2_alg».proof.Proof.Gen.KernelIdeal.Skeleton
import Idealize.ShloMosaic.Lib.Pipeline.Kit
import Idealize.ShloMosaic.Lib.Pipeline.Frame
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- What core `c`'s buffers hold when the region is entered: the launch contents after the three reshapes. -/
abbrev V (c : Dev nD) (b : Ref sig .tc) : Buf (Elt F) ((c : Thread nD τ).loc b) :=
  StableHlo.after (List.flatten [hostOps0]) (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile's samples: 2048 classes, both samples side by side (256 columns). -/
abbrev xblk (c : Dev nD) (t : Fin cfg0.N) : Vec F S2048x256 .f32 := iblk m c 0 t
/-- The column tile's negatives: 512 classes, sample 1 (128 columns). -/
abbrev nblk (c : Dev nD) (t : Fin cfg0.N) : Vec F S512x128 .f32 := iblk m c 1 t
/-- The row tile's anchor index words. -/
abbrev ablk (c : Dev nD) (t : Fin cfg0.N) : Vec F S2048x1 .i32 := iblk m c 2 t
/-- The row tile's positive index words. -/
abbrev pblk (c : Dev nD) (t : Fin cfg0.N) : Vec F S2048x1 .i32 := iblk m c 3 t

/-- The scratch buffers — running row sums, anchors, anchor·positive — after the first `n` points. At a row tile's
    first point all three are recomputed from the tile's blocks; otherwise the sums grow and the other two stay. -/
def scr (c : Dev nD) : ℕ → Vec F S2048x1 .f32 × Vec F S2048x128 .f32 × Vec F S2048x1 .f32
  | 0 => (fun _ => Scalar.ofBits .f32 0#32, fun _ => Scalar.ofBits .f32 0#32, fun _ => Scalar.ofBits .f32 0#32)
  | n + 1 =>
    if h : n < cfg0.N then
      if n % 32 = 0 then
        (k0_pay8 (grid0.coords ⟨n, h⟩) (k0_pay6 (xblk m c ⟨n, h⟩) (ablk m c ⟨n, h⟩))
            (k0_pay7 (xblk m c ⟨n, h⟩) (ablk m c ⟨n, h⟩) (pblk m c ⟨n, h⟩)) (nblk m c ⟨n, h⟩) (k0_pay1 (F := F)),
          k0_pay6 (xblk m c ⟨n, h⟩) (ablk m c ⟨n, h⟩),
          k0_pay7 (xblk m c ⟨n, h⟩) (ablk m c ⟨n, h⟩) (pblk m c ⟨n, h⟩))
      else
        (k0_pay8 (grid0.coords ⟨n, h⟩) (scr c n).2.1 (scr c n).2.2 (nblk m c ⟨n, h⟩) (scr c n).1, (scr c n).2.1, (scr c n).2.2)
    else scr c n

/-- What the result's staging buffer holds after the body at a point that writes it back. -/
def outAt (c : Dev nD) (t : Fin cfg0.N) : Vec F S2048x1 .f32 := k0_pay9 (scr m c (t.val + 1)).1

/-- The invariant between points: the three scratch buffers, at `scr` once a row tile is under way and at anything
    before its first point. -/
def Phi (c : Dev nD) (t : Fin (cfg0.N + 1)) : sProp 𝕄 :=
  iprop(∃ (s0 : Vec F S2048x1 .f32) (s1 : Vec F S2048x128 .f32) (s2 : Vec F S2048x1 .f32),
    ⌜t.val % 32 ≠ 0 → s0 = (scr m c t.val).1 ∧ s1 = (scr m c t.val).2.1 ∧ s2 = (scr m c t.val).2.2⌝
      ∗ owns (c : Thread nD τ) (Memref.whole cc0_scratch0) fullShare s0
      ∗ owns (c : Thread nD τ) (Memref.whole cc0_scratch1) fullShare s1
      ∗ owns (c : Thread nD τ) (Memref.whole cc0_scratch2) fullShare s2)

/-- The proof data on core `c`: the arrays as the region finds them; every input's staging buffer left at its block;
    the result's at `outAt`; the sample array, read through two windows, held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Phi m c t
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

end Cert.KernelIdeal.Hand

end
-- ==== Proof.KI.Body.lean ====
/-
  The run of the kernel body in the program logic, for any float values, by the column tile (the second
  grid coordinate, 0 ‥ 31) the body is called at.

  The body keeps three scratch blocks across the 32 column tiles of one row tile: an accumulator of 2048 row
  sums, the 2048 selected anchor rows, and their 2048 row products with the selected positives.
    * On the FIRST column tile it resets the accumulator to zero and computes and stores the anchors and the
      row products from the row tile's samples and its two index columns.
    * On EVERY column tile it reads the anchors, the row products, the tile's 512 negatives and the
      accumulator, and stores back the accumulator plus the tile's masked exponential row sums.
    * On the LAST column tile it then reads the accumulator just stored and stores log(1 + ·) of it to the
      result block.
  Every load and store is of a whole block (the full rectangle at zero offsets), so a load reads what the block
  is held at, or what the same run stored there last, and a store leaves exactly its value. The three theorems
  state this over abstract whole blocks: given the blocks a case reads at named contents (and the blocks it only
  overwrites at any contents), the body runs to a continuation that holds the read blocks unchanged and each
  written block at the generated payload of the values read. Blocks a case does not touch are not mentioned.
-/
import proofs.«414660_j40200893890726_2_alg».proof.Proof.Gen.KernelIdeal.Skeleton
import proofs.«414660_j40200893890726_2_alg».proof.Proof.Gen.KernelIdeal.Launch
import proofs.«414660_j40200893890726_2_alg».proof.Proof.Gen.KernelIdeal.Points
import Idealize.ShloMosaic.Lib.Pipeline.Kit
import Idealize.ShloMosaic.Lib.Tactic
import Idealize.ShloMosaic.Lib.Pipeline.FrameBody
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none

/-- The two-axis zero offsets, as the constant function. -/
theorem hz : (![0, 0] : Fin 2 → Nat) = fun _ => 0 := funext fun a => by fin_cases a <;> rfl

/-- The first branch is taken exactly on the first column tile. -/
theorem cond1_iff (i : grid0.Coords) :
    (Scalar.cmpi .ne (Scalar.extui (Scalar.cmpi .eq (BitVec.ofNat 32 (i 1).val) 0#32)) 0#32) = 1#1 ↔ (i 1).val = 0 := by
  generalize (i 1) = j
  revert j
  decide

/-- The last branch is taken exactly on the last column tile. -/
theorem cond2_iff (i : grid0.Coords) : k0_cond2 i = 1#1 ↔ (i 1).val = 31 := by
  unfold k0_cond2
  generalize (i 1) = j
  revert j
  decide

/-- A load of a whole buffer through the full rectangle at zero offsets reads the contents it is held at. -/
theorem readAt_full {S : Shape} {e : EltTy} {m : Memref sig .tc .vmem S e} (h : m.IsWhole) (X : S.Idx → Elt F e)
    {off : Fin S.rank → Nat} (ho : off = fun _ => 0) (inb : ∀ a, off a + S.size a ≤ S.size a) :
    View.readAt (Elt F) m.view (Rect.unit off S.size inb).toLoadRect (h.unread X) = X := by
  rw [View.readAt_eq_ld, h.read_unread, View.ld_unit_zero ho]

/-- After a last store through the full rectangle at zero offsets the buffer reads the stored value, whatever it
    held and whatever was stored before. -/
theorem read_store_full {S : Shape} {e : EltTy} (m : Memref sig .tc .vmem S e) (f : m.view.ty.Contents (Elt F))
    {off : Fin S.rank → Nat} (ho : off = fun _ => 0) (inb : ∀ a, off a + S.size a ≤ S.size a) (w : S.Idx → Elt F e)
    (L : List (View.Piece (Elt F) S e)) :
    m.view.read (Elt F) (m.view.writes (Elt F) f (⟨Rect.unit off S.size inb, w⟩ :: L)) = w := by
  rw [View.read_writes_eq_canon _ _ _ (fun y => ⟨_, List.Mem.head _, View.mem_set_unit_zero ho inb y⟩),
    View.canon_cons_unit_zero ho]

set_option maxHeartbeats 1000000 in
/-- A column tile strictly between the first and the last: the accumulator takes the tile's masked
    exponential row sums on top of what it held; the anchors, their row products and the negatives'
    block are read and left as they were. -/
theorem run_mid (c : Dev nD) (i : grid0.Coords) (E : Set ℕ) (K : PUnit → sProp 𝕄)
    (arg2 : Memref sig .tc .vmem S2048x256 .f32) (harg2 : arg2.IsWhole)
    (arg3 : Memref sig .tc .vmem S512x128 .f32) (harg3 : arg3.IsWhole)
    (arg4 : Memref sig .tc .vmem S2048x1 .i32) (harg4 : arg4.IsWhole)
    (arg5 : Memref sig .tc .vmem S2048x1 .i32) (harg5 : arg5.IsWhole)
    (arg6 : Memref sig .tc .vmem S2048x1 .f32) (harg6 : arg6.IsWhole)
    (arg7 : Memref sig .tc .vmem S2048x1 .f32) (harg7 : arg7.IsWhole)
    (arg8 : Memref sig .tc .vmem S2048x128 .f32) (harg8 : arg8.IsWhole)
    (arg9 : Memref sig .tc .vmem S2048x1 .f32) (harg9 : arg9.IsWhole)
    (h0 : (i 1).val ≠ 0) (h31 : (i 1).val ≠ 31)
    (x1 : Vec F S512x128 .f32) (s0 : Vec F S2048x1 .f32) (s1 : Vec F S2048x128 .f32) (s2 : Vec F S2048x1 .f32) :
    iprop(owns (c : Thread nD τ) arg3 fullShare x1 ∗ owns (c : Thread nD τ) arg7 fullShare s0
          ∗ owns (c : Thread nD τ) arg8 fullShare s1 ∗ owns (c : Thread nD τ) arg9 fullShare s2
          ∗ (iprop(owns (c : Thread nD τ) arg3 fullShare x1 ∗ owns (c : Thread nD τ) arg7 fullShare (k0_pay8 i s1 s2 x1 s0)
                ∗ owns (c : Thread nD τ) arg8 fullShare s1 ∗ owns (c : Thread nD τ) arg9 fullShare s2) -∗ K ⟨⟩))
      ⊢ wp frame (wpE (defs₀ (F := F)) 𝒱₀ c none) E
          (cc0__kernel (F := F) i arg2 harg2 arg3 harg3 arg4 harg4 arg5 harg5 arg6 harg6 arg7 harg7 arg8 harg8 arg9 harg9) K := by
  have hc1 : ¬ ((Scalar.cmpi .ne (Scalar.extui (Scalar.cmpi .eq (BitVec.ofNat 32 (i 1).val) 0#32)) 0#32) = 1#1) :=
    fun h => h0 ((cond1_iff i).mp h)
  have hc2 : ¬ (k0_cond2 i = 1#1) := fun h => h31 ((cond2_iff i).mp h)
  simp only [cc0__kernel_eq_skeleton]; unfold cc0__kernel_skel
  unfold owns
  iintro ⟨⟨%f3, %hf3, H3⟩, ⟨%f7, %hf7, H7⟩, ⟨%f8, %hf8, H8⟩, ⟨%f9, %hf9, H9⟩, Hk⟩
  obtain rfl := harg3.eq_unread hf3; obtain rfl := harg7.eq_unread hf7
  obtain rfl := harg8.eq_unread hf8; obtain rfl := harg9.eq_unread hf9
  sl_exec (disch := first | exact hc1 | exact hc2)
  sl_step
  iapply Hk
  isplitl [H3]
  · iexists _; isplitr; · ipureintro; exact harg3.read_unread _
    iexact H3
  isplitl [H7]
  · iexists _; isplitr
    swap
    · iexact H7
    · ipureintro
      rw [read_store_full arg7 _ hz, readAt_full harg8 s1 hz, readAt_full harg9 s2 hz, readAt_full harg3 x1 hz,
        readAt_full harg7 s0 hz]
  isplitl [H8]
  · iexists _; isplitr; · ipureintro; exact harg8.read_unread _
    iexact H8
  · iexists _; isplitr; · ipureintro; exact harg9.read_unread _
    iexact H9

set_option maxHeartbeats 1000000 in
/-- The last column tile: the accumulator takes the tile's sums as on any tile, and the result block
    takes log(1 + ·) of the accumulator just stored, read back after the store. -/
theorem run_last (c : Dev nD) (i : grid0.Coords) (E : Set ℕ) (K : PUnit → sProp 𝕄)
    (arg2 : Memref sig .tc .vmem S2048x256 .f32) (harg2 : arg2.IsWhole)
    (arg3 : Memref sig .tc .vmem S512x128 .f32) (harg3 : arg3.IsWhole)
    (arg4 : Memref sig .tc .vmem S2048x1 .i32) (harg4 : arg4.IsWhole)
    (arg5 : Memref sig .tc .vmem S2048x1 .i32) (harg5 : arg5.IsWhole)
    (arg6 : Memref sig .tc .vmem S2048x1 .f32) (harg6 : arg6.IsWhole)
    (arg7 : Memref sig .tc .vmem S2048x1 .f32) (harg7 : arg7.IsWhole)
    (arg8 : Memref sig .tc .vmem S2048x128 .f32) (harg8 : arg8.IsWhole)
    (arg9 : Memref sig .tc .vmem S2048x1 .f32) (harg9 : arg9.IsWhole)
    (h31 : (i 1).val = 31)
    (x1 : Vec F S512x128 .f32) (s0 : Vec F S2048x1 .f32) (s1 : Vec F S2048x128 .f32) (s2 : Vec F S2048x1 .f32) :
    iprop(owns (c : Thread nD τ) arg3 fullShare x1 ∗ (∃ d, owns (c : Thread nD τ) arg6 fullShare d)
          ∗ owns (c : Thread nD τ) arg7 fullShare s0
          ∗ owns (c : Thread nD τ) arg8 fullShare s1 ∗ owns (c : Thread nD τ) arg9 fullShare s2
          ∗ (iprop(owns (c : Thread nD τ) arg3 fullShare x1
                ∗ owns (c : Thread nD τ) arg6 fullShare (k0_pay9 (k0_pay8 i s1 s2 x1 s0))
                ∗ owns (c : Thread nD τ) arg7 fullShare (k0_pay8 i s1 s2 x1 s0)
                ∗ owns (c : Thread nD τ) arg8 fullShare s1 ∗ owns (c : Thread nD τ) arg9 fullShare s2) -∗ K ⟨⟩))
      ⊢ wp frame (wpE (defs₀ (F := F)) 𝒱₀ c none) E
          (cc0__kernel (F := F) i arg2 harg2 arg3 harg3 arg4 harg4 arg5 harg5 arg6 harg6 arg7 harg7 arg8 harg8 arg9 harg9) K := by
  have hc1 : ¬ ((Scalar.cmpi .ne (Scalar.extui (Scalar.cmpi .eq (BitVec.ofNat 32 (i 1).val) 0#32)) 0#32) = 1#1) :=
    fun h => by have := (cond1_iff i).mp h; omega
  have hc2 : k0_cond2 i = 1#1 := (cond2_iff i).mpr h31
  simp only [cc0__kernel_eq_skeleton]; unfold cc0__kernel_skel
  unfold owns
  iintro ⟨⟨%f3, %hf3, H3⟩, ⟨%d6, %f6, -, H6⟩, ⟨%f7, %hf7, H7⟩, ⟨%f8, %hf8, H8⟩, ⟨%f9, %hf9, H9⟩, Hk⟩
  obtain rfl := harg3.eq_unread hf3; obtain rfl := harg7.eq_unread hf7
  obtain rfl := harg8.eq_unread hf8; obtain rfl := harg9.eq_unread hf9
  sl_exec (disch := first | exact hc1 | exact hc2)
  sl_step
  iapply Hk
  isplitl [H3]
  · iexists _; isplitr; · ipureintro; exact harg3.read_unread _
    iexact H3
  isplitl [H6]
  · iexists _; isplitr
    swap
    · iexact H6
    · ipureintro
      sl_unfold_words
      rw [read_store_full arg6 _ hz, View.readCov_unit_zero (S := S2048x1) arg7.view hz, readAt_full harg8 s1 hz,
        readAt_full harg9 s2 hz, readAt_full harg3 x1 hz, readAt_full harg7 s0 hz]
  isplitl [H7]
  · iexists _; isplitr
    swap
    · iexact H7
    · ipureintro
      sl_unfold_words
      rw [read_store_full arg7 _ hz, readAt_full harg8 s1 hz, readAt_full harg9 s2 hz, readAt_full harg3 x1 hz,
        readAt_full harg7 s0 hz]
  isplitl [H8]
  · iexists _; isplitr; · ipureintro; exact harg8.read_unread _
    iexact H8
  · iexists _; isplitr; · ipureintro; exact harg9.read_unread _
    iexact H9

set_option maxHeartbeats 1000000 in
/-- The first column tile: the accumulator is reset to zero, the anchors selected by the anchor words and
    their row products with the selected positives are stored, and then the tile's sums are added to the
    zero accumulator, every value read back after its store. The last branch is not taken (0 ≠ 31). -/
theorem run_first (c : Dev nD) (i : grid0.Coords) (E : Set ℕ) (K : PUnit → sProp 𝕄)
    (arg2 : Memref sig .tc .vmem S2048x256 .f32) (harg2 : arg2.IsWhole)
    (arg3 : Memref sig .tc .vmem S512x128 .f32) (harg3 : arg3.IsWhole)
    (arg4 : Memref sig .tc .vmem S2048x1 .i32) (harg4 : arg4.IsWhole)
    (arg5 : Memref sig .tc .vmem S2048x1 .i32) (harg5 : arg5.IsWhole)
    (arg6 : Memref sig .tc .vmem S2048x1 .f32) (harg6 : arg6.IsWhole)
    (arg7 : Memref sig .tc .vmem S2048x1 .f32) (harg7 : arg7.IsWhole)
    (arg8 : Memref sig .tc .vmem S2048x128 .f32) (harg8 : arg8.IsWhole)
    (arg9 : Memref sig .tc .vmem S2048x1 .f32) (harg9 : arg9.IsWhole)
    (h0 : (i 1).val = 0)
    (x0 : Vec F S2048x256 .f32) (x1 : Vec F S512x128 .f32) (a0 p0 : Vec F S2048x1 .i32) :
    iprop(owns (c : Thread nD τ) arg2 fullShare x0 ∗ owns (c : Thread nD τ) arg3 fullShare x1
          ∗ owns (c : Thread nD τ) arg4 fullShare a0 ∗ owns (c : Thread nD τ) arg5 fullShare p0
          ∗ (∃ d, owns (c : Thread nD τ) arg7 fullShare d) ∗ (∃ d, owns (c : Thread nD τ) arg8 fullShare d)
          ∗ (∃ d, owns (c : Thread nD τ) arg9 fullShare d)
          ∗ (iprop(owns (c : Thread nD τ) arg2 fullShare x0 ∗ owns (c : Thread nD τ) arg3 fullShare x1
                ∗ owns (c : Thread nD τ) arg4 fullShare a0 ∗ owns (c : Thread nD τ) arg5 fullShare p0
                ∗ owns (c : Thread nD τ) arg7 fullShare (k0_pay8 i (k0_pay6 x0 a0) (k0_pay7 x0 a0 p0) x1 (k0_pay1 (F := F)))
                ∗ owns (c : Thread nD τ) arg8 fullShare (k0_pay6 x0 a0)
                ∗ owns (c : Thread nD τ) arg9 fullShare (k0_pay7 x0 a0 p0)) -∗ K ⟨⟩))
      ⊢ wp frame (wpE (defs₀ (F := F)) 𝒱₀ c none) E
          (cc0__kernel (F := F) i arg2 harg2 arg3 harg3 arg4 harg4 arg5 harg5 arg6 harg6 arg7 harg7 arg8 harg8 arg9 harg9) K := by
  have hc1 : (Scalar.cmpi .ne (Scalar.extui (Scalar.cmpi .eq (BitVec.ofNat 32 (i 1).val) 0#32)) 0#32) = 1#1 :=
    (cond1_iff i).mpr h0
  have hc2 : ¬ (k0_cond2 i = 1#1) := fun h => by have := (cond2_iff i).mp h; omega
  simp only [cc0__kernel_eq_skeleton]; unfold cc0__kernel_skel
  unfold owns
  iintro ⟨⟨%f2, %hf2, H2⟩, ⟨%f3, %hf3, H3⟩, ⟨%f4, %hf4, H4⟩, ⟨%f5, %hf5, H5⟩, ⟨%d7, %f7, -, H7⟩, ⟨%d8, %f8, -, H8⟩,
    ⟨%d9, %f9, -, H9⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr
    swap
    · iexact H7
    · ipureintro
      sl_unfold_words
      rw [read_store_full arg7 _ hz, View.readCov_unit_zero (S := S2048x128) arg8.view hz,
        View.readCov_unit_zero (S := S2048x1) arg9.view hz, View.readCov_unit_zero (S := S2048x1) arg7.view hz,
        readAt_full harg2 x0 hz, readAt_full harg4 a0 hz, readAt_full harg5 p0 hz, readAt_full harg3 x1 hz]
  isplitl [H8]
  · iexists _; isplitr
    swap
    · iexact H8
    · ipureintro
      sl_unfold_words
      rw [read_store_full arg8 _ hz, readAt_full harg2 x0 hz, readAt_full harg4 a0 hz]
  · iexists _; isplitr
    swap
    · iexact H9
    · ipureintro
      sl_unfold_words
      rw [read_store_full arg9 _ hz, readAt_full harg2 x0 hz, readAt_full harg4 a0 hz, readAt_full harg5 p0 hz]

end Cert.KernelIdeal.Hand

end
-- ==== Proof.KI.Obligation.lean ====
/-
  The body obligation of the pipelined region: at each of the 256 grid points the kernel body, run on the windows'
  current staging buffers and the three scratch buffers, takes the invariant before the point to the invariant after it.

  The point's column tile decides the case. At the first tile of a row tile the body writes all three scratch buffers
  afresh, so nothing is asked of what they held; strictly inside, and at the last tile, it reads the anchors and their
  products with the positives as the first tile left them and adds the tile's share to the running sums; at the last
  tile the sums' log(1 + ·) is stored to the result's staging buffer, which at every other point is handed back as found.
  An input window's buffer holds its block whether or not the point fetched it: where it did not, the block index has
  not moved since the fetch.
-/
import proofs.«414660_j40200893890726_2_alg».proof.Proof.KI.Data
import proofs.«414660_j40200893890726_2_alg».proof.Proof.KI.Body
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The grid point's coordinates and the result window's schedule, decided over the 256 points -/

/-- Point `t` is column tile `t mod 32` -/
theorem coords_col : ∀ t : Fin cfg0.N, ((grid0.coords t) 1).val = t.val % 32 :=
  (by decide +kernel : ∀ t : Fin grid0.N, ((grid0.coords t) 1).val = t.val % 32)
/-- of row tile `t / 32`. -/
theorem coords_row : ∀ t : Fin cfg0.N, ((grid0.coords t) 0).val = t.val / 32 :=
  (by decide +kernel : ∀ t : Fin grid0.N, ((grid0.coords t) 0).val = t.val / 32)
/-- The body stores nothing into the result's staging buffer except at the last column tile. -/
theorem idle4_iff : ∀ t : Fin cfg0.N, idle0 4 (grid0.coords t) = true ↔ t.val % 32 ≠ 31 :=
  (by decide +kernel : ∀ t : Fin grid0.N, idle0 4 (grid0.coords t) = true ↔ t.val % 32 ≠ 31)

/-! ## What the body finds in the input windows' staging buffers: the block, fetched at this point or not -/

theorem before_in0 (c : Dev nD) (t : Fin cfg0.N) (d) : (dats m 0 c).before 0 t d = iblk m c 0 t :=
  ((dats m 0 c).before_in_eq_fetched 0 rfl (fun _ => rfl) (fun _ _ _ => rfl)
    (fun t => by dsimp only [dats]; unfold Dat.blockOf iblk; rfl) t d).trans
    (by unfold Dat.fetched Dat.blockOf iblk; dsimp only [dats]; try rfl)
theorem before_in1 (c : Dev nD) (t : Fin cfg0.N) (d) : (dats m 0 c).before 1 t d = iblk m c 1 t :=
  ((dats m 0 c).before_in_eq_fetched 1 rfl (fun _ => rfl) (fun _ _ _ => rfl)
    (fun t => by dsimp only [dats]; unfold Dat.blockOf iblk; rfl) t d).trans
    (by unfold Dat.fetched Dat.blockOf iblk; dsimp only [dats]; try rfl)
theorem before_in2 (c : Dev nD) (t : Fin cfg0.N) (d) : (dats m 0 c).before 2 t d = iblk m c 2 t :=
  ((dats m 0 c).before_in_eq_fetched 2 rfl (fun _ => rfl) (fun _ _ _ => rfl)
    (fun t => by dsimp only [dats]; unfold Dat.blockOf iblk; rfl) t d).trans
    (by unfold Dat.fetched Dat.blockOf iblk; dsimp only [dats]; try rfl)
theorem before_in3 (c : Dev nD) (t : Fin cfg0.N) (d) : (dats m 0 c).before 3 t d = iblk m c 3 t :=
  ((dats m 0 c).before_in_eq_fetched 3 rfl (fun _ => rfl) (fun _ _ _ => rfl)
    (fun t => by dsimp only [dats]; unfold Dat.blockOf iblk; rfl) t d).trans
    (by unfold Dat.fetched Dat.blockOf iblk; dsimp only [dats]; try rfl)

/-! ## One step of the scratch recursion -/

/-- At a row tile's first point the three buffers are recomputed from the tile's blocks. -/
theorem scr_succ_first (c : Dev nD) (t : Fin cfg0.N) (h0 : t.val % 32 = 0) :
    scr m c (t.val + 1)
      = (k0_pay8 (grid0.coords t) (k0_pay6 (xblk m c t) (ablk m c t)) (k0_pay7 (xblk m c t) (ablk m c t) (pblk m c t)) (nblk m c t) (k0_pay1 (F := F)),
          k0_pay6 (xblk m c t) (ablk m c t), k0_pay7 (xblk m c t) (ablk m c t) (pblk m c t)) := by
  rw [scr, dif_pos t.isLt, if_pos h0]
/-- At every other point the running sums grow by the column tile's share and the other two stay. -/
theorem scr_succ_next (c : Dev nD) (t : Fin cfg0.N) (h0 : t.val % 32 ≠ 0) :
    scr m c (t.val + 1)
      = (k0_pay8 (grid0.coords t) (scr m c t.val).2.1 (scr m c t.val).2.2 (nblk m c t) (scr m c t.val).1, (scr m c t.val).2.1, (scr m c t.val).2.2) := by
  rw [scr, dif_pos t.isLt, if_neg h0]

/-! ## The body obligation -/

/-- At every point the body takes the invariant and the windows' buffers to the invariant at the next point and the
    buffers at what the proof data say: by the column tile — first, strictly inside, last. -/
theorem body_obligation (c : Dev nD) : BodyObligationLoose (dats m 0 c) (defs₀ (F := F)) 𝒱₀ () Set.univ := fun t => by
  rw [bigSep_W0, bigSep_W0]
  simp only
  rw [show (dats m 0 c).owesAt () t.succ = (dats m 0 c).owesAt () t.castSucc from rfl,
    show (dats m 0 c).Φ t.castSucc = Phi m c t.castSucc from rfl, show (dats m 0 c).Φ t.succ = Phi m c t.succ from rfl,
    show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = outAt m c t from rfl]
  unfold Phi
  iintro ⟨⟨%s0, %s1, %s2, %hs, Hs0, Hs1, Hs2⟩, Ho, ⟨%d0, H0⟩, ⟨%d1, H1⟩, ⟨%d2, H2⟩, ⟨%d3, H3⟩, ⟨%d4, H4⟩⟩
  rw [before_in0 m c t d0, before_in1 m c t d1, before_in2 m c t d2, before_in3 m c t d3]
  have hcol := coords_col t
  have hsv : (t.succ : Fin (cfg0.N + 1)).val = t.val + 1 := rfl
  have hcv : (t.castSucc : Fin (cfg0.N + 1)).val = t.val := rfl
  by_cases h0 : t.val % 32 = 0
  · -- the row tile's first point
    have hidle : idle0 4 (grid0.coords t) = true := (idle4_iff t).mpr (by omega)
    have hfl : (win0 4).flush t = false := by
      rw [Bool.eq_false_iff]; exact fun h => absurd ((flush0_4 t).mp h) (by omega)
    simp only [hidle, hfl]
    iapply (run_first (F := F) c (grid0.coords t) Set.univ _ _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (Memref.whole cc0_scratch0) (Memref.isWhole_whole _) (Memref.whole cc0_scratch1) (Memref.isWhole_whole _) (Memref.whole cc0_scratch2) (Memref.isWhole_whole _)
      (hcol.trans h0)
      (xblk m c t) (nblk m c t) (ablk m c t) (pblk m c t))
    isplitl [H0]; · iexact H0
    isplitl [H1]; · iexact H1
    isplitl [H2]; · iexact H2
    isplitl [H3]; · iexact H3
    isplitl [Hs0]; · iexists s0; iexact Hs0
    isplitl [Hs1]; · iexists s1; iexact Hs1
    isplitl [Hs2]; · iexists s2; iexact Hs2
    iintro ⟨H0, H1, H2, H3, Hs0, Hs1, Hs2⟩
    isplitl [Hs0 Hs1 Hs2]
    · iexists _, _, _
      isplitr
      · ipureintro; intro _; rw [hsv, scr_succ_first m c t h0]; exact ⟨rfl, rfl, rfl⟩
      isplitl [Hs0]; · iexact Hs0
      isplitl [Hs1]; · iexact Hs1
      iexact Hs2
    isplitl [Ho]; · iexact Ho
    isplitl [H0]; · iexact H0
    isplitl [H1]; · iexact H1
    isplitl [H2]; · iexact H2
    isplitl [H3]; · iexact H3
    iexists d4; iexact H4
  · obtain ⟨hs0, hs1, hs2⟩ := hs (by rw [hcv]; exact h0)
    subst hs0 hs1 hs2
    by_cases h31 : t.val % 32 = 31
    · -- the row tile's last point: the sums go out
      have hidle : idle0 4 (grid0.coords t) = false := by
        rw [Bool.eq_false_iff]; exact fun h => absurd ((idle4_iff t).mp h) (by omega)
      simp only [hidle]
      iapply (run_last (F := F) c (grid0.coords t) Set.univ _ _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (Memref.whole cc0_scratch0) (Memref.isWhole_whole _) (Memref.whole cc0_scratch1) (Memref.isWhole_whole _) (Memref.whole cc0_scratch2) (Memref.isWhole_whole _)
      (hcol.trans h31)
        (nblk m c t) (scr m c t.val).1 (scr m c t.val).2.1 (scr m c t.val).2.2)
      isplitl [H1]; · iexact H1
      isplitl [H4]; · iexists _; iexact H4
      isplitl [Hs0]; · iexact Hs0
      isplitl [Hs1]; · iexact Hs1
      isplitl [Hs2]; · iexact Hs2
      iintro ⟨H1, H4, Hs0, Hs1, Hs2⟩
      isplitl [Hs0 Hs1 Hs2]
      · iexists _, _, _
        isplitr
        · ipureintro; intro _; rw [hsv, scr_succ_next m c t h0]; exact ⟨rfl, rfl, rfl⟩
        isplitl [Hs0]; · iexact Hs0
        isplitl [Hs1]; · iexact Hs1
        iexact Hs2
      isplitl [Ho]; · iexact Ho
      isplitl [H0]; · iexact H0
      isplitl [H1]; · iexact H1
      isplitl [H2]; · iexact H2
      isplitl [H3]; · iexact H3
      unfold outAt; rw [scr_succ_next m c t h0]
      iexact H4
    · -- strictly inside the row tile
      have hidle : idle0 4 (grid0.coords t) = true := (idle4_iff t).mpr h31
      have hfl : (win0 4).flush t = false := by
        rw [Bool.eq_false_iff]; exact fun h => absurd ((flush0_4 t).mp h) h31
      simp only [hidle, hfl]
      iapply (run_mid (F := F) c (grid0.coords t) Set.univ _ _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (Memref.whole cc0_scratch0) (Memref.isWhole_whole _) (Memref.whole cc0_scratch1) (Memref.isWhole_whole _) (Memref.whole cc0_scratch2) (Memref.isWhole_whole _)
      (by rw [hcol]; exact h0) (by rw [hcol]; exact h31)
        (nblk m c t) (scr m c t.val).1 (scr m c t.val).2.1 (scr m c t.val).2.2)
      isplitl [H1]; · iexact H1
      isplitl [Hs0]; · iexact Hs0
      isplitl [Hs1]; · iexact Hs1
      isplitl [Hs2]; · iexact Hs2
      iintro ⟨H1, Hs0, Hs1, Hs2⟩
      isplitl [Hs0 Hs1 Hs2]
      · iexists _, _, _
        isplitr
        · ipureintro; intro _; rw [hsv, scr_succ_next m c t h0]; exact ⟨rfl, rfl, rfl⟩
        isplitl [Hs0]; · iexact Hs0
        isplitl [Hs1]; · iexact Hs1
        iexact Hs2
      isplitl [Ho]; · iexact Ho
      isplitl [H0]; · iexact H0
      isplitl [H1]; · iexact H1
      isplitl [H2]; · iexact H2
      isplitl [H3]; · iexact H3
      iexists d4; iexact H4

end Cert.KernelIdeal.Hand

end
-- ==== Proof.KI.Run.lean ====
/-
  THE LAUNCH: the run of @main from the body obligation, for every float instance.

  @main is three reshapes, the pipelined region, and a tail of two host operations: the constant zero and the sum of
  the region's result array over both axes. Two of the region's windows read ONE array (the reshaped samples), so that
  array's full share is split between them at entry, half and half; the result array is held whole. The buffers no
  window routes — the three arguments, the constant's and the sum's — bypass the region; the three scratch buffers,
  whole at some contents, are the invariant before the first point (which says nothing of what they hold there, a
  row tile's first point rewriting all three) and come back from it after the last.

  The tail runs from the region's exit holding three buffers: the result array as the region left it (read), the
  constant's and the sum's (written). So the program's result is the sum, from zero, of the result array's final
  contents, and no operation anywhere writes an argument.
-/
import proofs.«414660_j40200893890726_2_alg».proof.Proof.KI.Data
import Idealize.ShloMosaic.Lib.Pipeline.Launch
import Idealize.ShloMosaic.Lib.Pipeline.Kit
import Idealize.ShloMosaic.Lib.Pipeline.Frame
import Idealize.ShloMosaic.Lib.Pipeline.FrameSuffix
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

variable (m : (ℓ : Loc nD τ sig) → Buf (Elt F) ℓ)

/-- The program's result: the host tail's sum of the result array as the region leaves it. -/
def lossOf (c : Dev nD) : Buf (Elt F) ((c.tc : Thread nD τ).loc main_v4) :=
  Host.reduceAdd ((dats m 0 c).arrAt 4 cfg0.N) (constant S_ .f32 0x00000000#32) reducesTo_S16384x1_S_d0_1 h_S_

/-! The pieces of the launch; the launch itself is `run_main_of` at the end. -/
namespace Launch

/-! ## The windows' arrays, one by one -/

/-- The pipeline's arrays at contents `G`: the sample array held half and half by the two windows that read it, the two
    index arrays and the result array whole. -/
theorem arrays_eq5 (c : Dev nD) (G : (w : Fin cfg0.W) → Buf (Elt F) ((cfg0.win w).arr.view.loc (c.tc : Thread nD τ))) :
    ((dats m 0 c).arrays G : sProp 𝕄) = iprop(
      (((c.tc : Thread nD τ).loc main_v0) ↦{fullShare.left} G 0) ∗ (((c.tc : Thread nD τ).loc main_v0) ↦{fullShare.right} G 1)
        ∗ (((c.tc : Thread nD τ).loc main_v1) ↦{fullShare} G 2) ∗ (((c.tc : Thread nD τ).loc main_v2) ↦{fullShare} G 3)
        ∗ (((c.tc : Thread nD τ).loc main_v3) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-! ## The host tail's values -/

/-- The tail does not write the result array; -/
theorem after_tail_v3 (W : Valuation τ sig (Elt F)) :
    StableHlo.after hostOps1 W (Proc.devRef .tc main_v3) = W (Proc.devRef .tc main_v3) := by
  after_results_simp

/-- it leaves the zero constant in its buffer -/
theorem after_tail_cst (W : Valuation τ sig (Elt F)) :
    StableHlo.after hostOps1 W (Proc.devRef .tc main_cst) = constant S_ .f32 0x00000000#32 := by
  after_results_simp

/-- and the sum of the result array, from zero, in the program's result. -/
theorem after_tail_v4 (W : Valuation τ sig (Elt F)) :
    StableHlo.after hostOps1 W (Proc.devRef .tc main_v4)
      = Host.reduceAdd (W (Proc.devRef .tc main_v3)) (constant S_ .f32 0x00000000#32) reducesTo_S16384x1_S_d0_1 h_S_ := by
  after_results_simp

/-! ## @main around the region -/

theorem hostOps0_fresh : (hostOps0 : List (HloOp τ sig (Elt F))).Forall fun op => op.fresh = ∅ := by
  simp only [List.Forall]; repeat' constructor

/-- @main is the three reshapes, the region, and the two operations of the tail. -/
theorem hmain_k : Pipeline.HMainK (Ix := Unit) (Name := ℕ) (U := UR sig nD τ) (Lvl := ℕ) cfgs 0 defs₀ Variants.none m (main (F := F)) (V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- No reshape writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.Forall, StableHlo.reshape_writes, Finset.mem_singleton]
    repeat' apply And.intro
    all_goals exact StableHlo.devRef_ne_of_ne (by decide)))

/-! ## The region's side conditions -/

/-- The distinct buffers behind the windows' arrays, one by one. -/
theorem arrBufs_eq4 (c : Dev nD) (V : (b : Ref sig .tc) → Buf (Elt F) ((c.tc : Thread nD τ).loc b)) :
    (Pipeline.arrBufs spec0 c V : sProp 𝕄)
      = iprop((((c.tc : Thread nD τ).loc main_v0) ↦{fullShare} V main_v0) ∗ (((c.tc : Thread nD τ).loc main_v1) ↦{fullShare} V main_v1)
          ∗ (((c.tc : Thread nD τ).loc main_v2) ↦{fullShare} V main_v2) ∗ (((c.tc : Thread nD τ).loc main_v3) ↦{fullShare} V main_v3)) :=
  bigSep_eq_bigSepL_of_eq [main_v0, main_v1, main_v2, main_v3] (by decide) (by decide) _

/-- The buffers behind the arrays, whole, make the pipeline's arrays at entry: the sample array's full share is the
    two halves its two windows hold. -/
theorem hsplit (c : Dev nD) :
    (Pipeline.arrBufs spec0 c (V m c) : sProp 𝕄) ⊢ (dats m 0 c).arrays ((dats m 0 c).arrAt · 0) := by
  rw [arrays_eq5, arrBufs_eq4]
  iintro ⟨H0, H1, H2, H3⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  iexact H3

/-- The scratch buffers, whole at some contents, are the invariant before the first point: it says nothing of
    what they hold there. -/
theorem phi0_intro (c : Dev nD) :
    iprop(emp ∗ Pipeline.prefHeld (Pipeline.Prefetch.none (sig := sig)) c (fun _ => fullShare.right) (fun k => k.elim0) ∗ Pipeline.scopedRest spec0 c) ⊢ (dats m 0 c).Φ 0 := by
  rw [scopedRest0_eq]
  show _ ⊢ Phi m c 0
  unfold Phi
  simp only [owns_whole]
  iintro ⟨-, -, ⟨%f0, H0⟩, ⟨%f1, H1⟩, ⟨%f2, H2⟩⟩
  iexists f0, f1, f2
  isplitr; · ipureintro; intro h; exact absurd rfl h
  isplitl [H0]; · iexact H0
  isplitl [H1]; · iexact H1
  iexact H2

/-- After the last point the invariant gives them back. -/
theorem phiN_exit (c : Dev nD) :
    (dats m 0 c).Φ (Fin.last cfg0.N) ⊢ iprop(emp ∗ Pipeline.scopedRest spec0 c) := by
  rw [scopedRest0_eq]
  show Phi m c (Fin.last cfg0.N) ⊢ _
  unfold Phi
  simp only [owns_whole]
  iintro ⟨%s0, %s1, %s2, -, H0, H1, H2⟩
  isplitr; · iempintro
  isplitl [H0]; · iexists s0; iexact H0
  isplitl [H1]; · iexists s1; iexact H1
  iexists s2; iexact H2

/-! ## The host tail -/

/-- The three buffers the tail touches: the result array, the zero constant and the program's result. -/
def tailS : Finset (DevRef τ sig) := {Proc.devRef .tc main_v3, Proc.devRef .tc main_cst, Proc.devRef .tc main_v4}

theorem held_tailS (c : Dev nD) (W : Valuation τ sig (Elt F)) :
    (StableHlo.held (c.tc : Thread nD τ) tailS W : sProp 𝕄)
      = iprop((((c.tc : Thread nD τ).loc main_v3) ↦{fullShare} W (Proc.devRef .tc main_v3))
          ∗ (((c.tc : Thread nD τ).loc main_cst) ↦{fullShare} W (Proc.devRef .tc main_cst))
          ∗ (((c.tc : Thread nD τ).loc main_v4) ↦{fullShare} W (Proc.devRef .tc main_v4))) := by
  unfold StableHlo.held tailS
  rw [bigSep_insert (by
        rw [Finset.mem_insert, Finset.mem_singleton]
        rintro (h | h)
        · exact StableHlo.devRef_ne_of_ne (by decide) h
        · exact StableHlo.devRef_ne_of_ne (by decide) h),
    bigSep_insert (by rw [Finset.mem_singleton]; exact StableHlo.devRef_ne_of_ne (by decide)), bigSep_singleton]
  rfl

theorem hostOps1_sub_tailS : ∀ op ∈ (hostOps1 : List (HloOp τ sig (Elt F))), op.bufs ⊆ tailS := by
  intro op hop
  simp only [hostOps1, List.mem_cons, List.mem_nil_iff, or_false] at hop
  rcases hop with rfl | rfl
  · rw [StableHlo.nullary_bufs]
    exact Finset.singleton_subset_iff.mpr (Finset.mem_insert_of_mem (Finset.mem_insert_self _ _))
  · rw [StableHlo.binary_bufs]
    exact Finset.Subset.refl _

theorem hostOps1_fresh : ∀ op ∈ (hostOps1 : List (HloOp τ sig (Elt F))), op.fresh = ∅ := by
  intro op hop
  simp only [hostOps1, List.mem_cons, List.mem_nil_iff, or_false] at hop
  rcases hop with rfl | rfl <;> rfl

/-- What bypasses the region, after the tail: the arguments as launched, the zero constant, and the sum of the
    result array. -/
def tailPts (c : Dev nD) : sProp 𝕄 :=
  iprop((((c.tc : Thread nD τ).loc main_arg0) ↦{fullShare} m ((c.tc : Thread nD τ).loc main_arg0))
    ∗ (((c.tc : Thread nD τ).loc main_arg1) ↦{fullShare} m ((c.tc : Thread nD τ).loc main_arg1))
    ∗ (((c.tc : Thread nD τ).loc main_arg2) ↦{fullShare} m ((c.tc : Thread nD τ).loc main_arg2))
    ∗ (((c.tc : Thread nD τ).loc main_cst) ↦{fullShare} (constant (F := F) S_ .f32 0x00000000#32 : Buf (Elt F) ((c.tc : Thread nD τ).loc main_cst)))
    ∗ (((c.tc : Thread nD τ).loc main_v4) ↦{fullShare} lossOf m c))

/-- The core's buffer contents when the tail starts: the result array as the region leaves it, every other buffer as
    the region found it. -/
def tailW (c : Dev nD) : Valuation τ sig (Elt F) :=
  Function.update (StableHlo.after (List.flatten [hostOps0]) (fun b => m (c, b))) (Proc.devRef .tc main_v3) ((dats m 0 c).arrAt 4 cfg0.N)

theorem tailW_v3 (c : Dev nD) : tailW m c (Proc.devRef .tc main_v3) = (dats m 0 c).arrAt 4 cfg0.N :=
  Function.update_self ..
theorem tailW_cst (c : Dev nD) : tailW m c (Proc.devRef .tc main_cst) = V m c main_cst :=
  Function.update_of_ne (StableHlo.devRef_ne_of_ne (by decide)) ..
theorem tailW_v4 (c : Dev nD) : tailW m c (Proc.devRef .tc main_v4) = V m c main_v4 :=
  Function.update_of_ne (StableHlo.devRef_ne_of_ne (by decide)) ..

/-- The three buffers as the region leaves them are the tail's set at its starting contents; -/
theorem tail_enter (c : Dev nD) :
    iprop((((c.tc : Thread nD τ).loc main_v3) ↦{fullShare} (dats m 0 c).arrAt 4 cfg0.N)
        ∗ (((c.tc : Thread nD τ).loc main_cst) ↦{fullShare} V m c main_cst)
        ∗ (((c.tc : Thread nD τ).loc main_v4) ↦{fullShare} V m c main_v4))
      ⊢ (StableHlo.held (c.tc : Thread nD τ) tailS (tailW m c) : sProp 𝕄) := by
  rw [held_tailS, tailW_v3, tailW_cst, tailW_v4]

/-- and the set after the tail is the result array untouched, the zero constant and the sum. -/
theorem tail_exit (c : Dev nD) :
    (StableHlo.held (c.tc : Thread nD τ) tailS (StableHlo.after hostOps1 (tailW m c)) : sProp 𝕄)
      ⊢ iprop((((c.tc : Thread nD τ).loc main_v3) ↦{fullShare} (dats m 0 c).arrAt 4 cfg0.N)
        ∗ (((c.tc : Thread nD τ).loc main_cst) ↦{fullShare} (constant (F := F) S_ .f32 0x00000000#32 : Buf (Elt F) ((c.tc : Thread nD τ).loc main_cst)))
        ∗ (((c.tc : Thread nD τ).loc main_v4) ↦{fullShare} lossOf m c)) := by
  rw [held_tailS, after_tail_v3, after_tail_cst, after_tail_v4, tailW_v3]
  exact .rfl

set_option backward.isDefEq.respectTransparency.types false in
/-- The tail, from the region's exit: it reads the result array and writes the constant and the sum. -/
theorem htail (c : Dev nD) (Q' : PUnit → sProp 𝕄) :
    iprop((iprop((dats m 0 c).arrays ((dats m 0 c).arrAt · cfg0.N) ∗ tailPts m c) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun p => (cfgs p).toPCfg) (defs₀ (F := F))) (Variants.lift Variants.none) (c.tc : Thread nD τ) none) Set.univ
          (Pipeline.chain ([hostOps1].map StableHlo.seq)) Q' := by
  rw [arrays_eq5, unscopedRest0_eq, V_main_arg0, V_main_arg1, V_main_arg2, List.map_cons, List.map_nil, Pipeline.chain_cons]
  iintro ⟨Hk, Hb, ⟨A0, A1, A2, A3, A4⟩, ⟨Z0, Z1, Z2, Zc, Z4⟩⟩
  iapply (StableHlo.wp_seq (Variants.lift Variants.none) none Set.univ c tailS _ hostOps1 hostOps1_sub_tailS hostOps1_fresh (tailW m c)) $$ [Hb A4 Zc Z4]
  · isplitl [Hb]; · iexact Hb
    iapply (tail_enter m c)
    isplitl [A4]; · iexact A4
    isplitl [Zc]; · iexact Zc
    iexact Z4
  iintro ⟨Hb, H⟩
  rw [Pipeline.chain_nil, wp_pure]
  ihave H' := (tail_exit m c) $$ H
  icases H' with ⟨A4, Zc, Z4⟩
  imodintro
  iapply Hk
  unfold tailPts
  isplitl [A0 A1 A2 A3 A4]
  · isplitl [A0]; · iexact A0
    isplitl [A1]; · iexact A1
    isplitl [A2]; · iexact A2
    isplitl [A3]; · iexact A3
    iexact A4
  isplitl [Z0]; · iexact Z0
  isplitl [Z1]; · iexact Z1
  isplitl [Z2]; · iexact Z2
  isplitl [Zc]; · iexact Zc
  iexact Z4

/-! ## Reading the final memory -/

/-- A whole buffer's points-to against the state interpretation: the memory holds its contents. -/
theorem pt_read (ℓ : Loc nD τ sig) (G : Buf (Elt F) ℓ) (s' : Phys nD τ sig (Elt F)) :
    iprop((ℓ ↦{fullShare} G : sProp 𝕄) ∗ SI s') ⊢ iprop(⌜s'.mem.mem ℓ = G⌝ ∗ SI s') := by
  have h := pointsTo_read_all (Ix := Unit) (Name := ℕ) (U := UR sig nD τ) (Lvl := ℕ) ({()} : Finset Unit) (fun _ => ℓ) (fun _ => G) s'
  rw [bigSep_singleton] at h
  refine h.trans ?_
  iintro ⟨%h, H⟩
  isplitr; · ipureintro; exact h () (Finset.mem_singleton_self _)
  iexact H

/-- The final memory holds the loss and the arguments as launched. -/
theorem hY (c : Dev nD) (s' : Phys nD τ sig (Elt F)) :
    iprop(emp ∗ tailPts m c ∗ SI s') ⊢ |={Set.univ}=>
      iprop(⌜s'.mem.mem ((c.tc : Thread nD τ).loc main_v4) = lossOf m c
          ∧ s'.mem.mem ((c.tc : Thread nD τ).loc main_arg0) = m ((c.tc : Thread nD τ).loc main_arg0)
          ∧ s'.mem.mem ((c.tc : Thread nD τ).loc main_arg1) = m ((c.tc : Thread nD τ).loc main_arg1)
          ∧ s'.mem.mem ((c.tc : Thread nD τ).loc main_arg2) = m ((c.tc : Thread nD τ).loc main_arg2)⌝ ∗ SI s') := by
  unfold tailPts
  iintro ⟨-, ⟨Z0, Z1, Z2, -, Z4⟩, HSI⟩
  ihave H := (pt_read _ _ s') $$ [Z0 HSI]
  · isplitl [Z0]; · iexact Z0
    iexact HSI
  icases H with ⟨%h0, HSI⟩
  ihave H := (pt_read _ _ s') $$ [Z1 HSI]
  · isplitl [Z1]; · iexact Z1
    iexact HSI
  icases H with ⟨%h1, HSI⟩
  ihave H := (pt_read _ _ s') $$ [Z2 HSI]
  · isplitl [Z2]; · iexact Z2
    iexact HSI
  icases H with ⟨%h2, HSI⟩
  ihave H := (pt_read _ _ s') $$ [Z4 HSI]
  · isplitl [Z4]; · iexact Z4
    iexact HSI
  icases H with ⟨%h4, HSI⟩
  imodintro
  isplitr; · ipureintro; exact ⟨h4, h0, h1, h2⟩
  iexact HSI

end Launch

/-! ## The launch -/

set_option backward.isDefEq.respectTransparency.types false in
/-- From any memory with zero counters, given the body obligation at every point: every weakly fair execution of
    @main on the TensorCores terminates, and every final state holds the sum of the region's result array in the
    program's result and the three arguments as launched. -/
theorem run_main_of (hbody : ∀ c, Pipeline.BodyObligationLoose (dats m 0 c) (defs₀ (F := F)) Variants.none () Set.univ) (ρ : Dev nD → PrngReg) :
    θ_run defs (onTc (τ := τ) (main (F := F))) ⟨m, fun _ => 0, ρ⟩ (fun r => ∀ c : Dev nD,
      r.2.mem ((c.tc : Thread nD τ).loc main_v4) = lossOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_region_noSem_pf_tail (fun p => (cfgs p).toPCfg) (fun p => (cfgs p).toPCfg_adm) (dats m) () cellOf_inj (0 : Fin 1)
    winFacts₀0 (Pipeline.PreFacts.none _) EP defs₀ Variants.none m ρ main
    (fun _ => Pipeline.chain ([hostOps1].map StableHlo.seq))
    (hbody := hbody) (hne := block_pos0) (harr := arr_whole0) (hstage := stage_whole0) (howed := fun _ _ => rfl)
    (u₀ := u₀) (hu₀ := BI.Entails.refl _)
    (V := V m)
    (hmain := Launch.hmain_k m)
    (hsplit := Launch.hsplit m)
    (hpf := fun _ k => k.elim0)
    (X := fun _ => iprop(emp)) (Y := fun _ => iprop(emp))
    (Z := fun c => Pipeline.unscopedRest spec0 c (V m c)) (Z' := Launch.tailPts m)
    (hX := fun c => by
      refine (Entails.of_eq (Pipeline.unscopedRestP_none spec0 c (V m c))).trans ?_
      iintro H; isplitr; · iempintro
      iexact H)
    (hin := Launch.phi0_intro m) (hout := Launch.phiN_exit m) (htail := Launch.htail m)
    (QY := fun c s => s.mem ((c.tc : Thread nD τ).loc main_v4) = lossOf m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hY := Launch.hY m)
    (hQ := fun _ h c => (h c).2.2)

end Cert.KernelIdeal.Hand

end
-- ==== Proof.Spec.lean ====
/-
  The N-pair loss as ONE function of the three argument arrays, on the extended reals.

  `x` holds two samples of dimension 128 for each of 16384 classes: rows `2r` and `2r + 1` of `x` are class `r`'s
  samples 0 and 1. An index array picks, per class, which sample is the ANCHOR (`a`) and which the POSITIVE (`p`):
  word 0 picks sample 0 and any other word sample 1. The NEGATIVE of class `c` is always its sample 1.

  For class `r`:   ap r      = Σ_k anchor r k · positive r k
                    score r c = Σ_k anchor r k · negative c k
                    row r     = Σ_{c ≠ r} exp (score r c − ap r)        (the own class contributes 0)
  and the loss is   Σ_r log (1 + row r).

  Nothing here needs finiteness: the only law used downstream is that a sum of extended reals may be regrouped,
  which holds in any commutative additive monoid.
-/
import Idealize.ShloMosaic.PureOps.Ideal
import Idealize.ShloMosaic.Lib.ValueIdx

noncomputable section

open scoped BigOperators

namespace Cert.NPair

open Idealize.ShloMosaic Idealize.ShloMosaic.ValueIdx

/-- The sample array: 32768 rows of 128 extended reals. -/
abbrev XArr : Type := (⟨2, ![32768, 128]⟩ : Shape).Idx → EReal
/-- An index array: one 32-bit word per class. -/
abbrev IArr : Type := (⟨1, ![16384]⟩ : Shape).Idx → BitVec 32

/-- Row `2r + s` of the sample array: sample `s` of class `r`. -/
def rowOf (r : Fin 16384) (s : Fin 2) : Fin 32768 := ⟨2 * r.val + s.val, by omega⟩

/-- Sample `s` of class `r`, coordinate `k`. -/
def smp (x : XArr) (s : Fin 2) (r : Fin 16384) (k : Fin 128) : EReal := x (ix2 (rowOf r s) k)

/-- The sample an index word picks: sample 0 for the word 0, sample 1 for every other word. -/
def pick (x : XArr) (a : IArr) (r : Fin 16384) (k : Fin 128) : EReal :=
  if a (ix1 r) = 0#32 then smp x 0 r k else smp x 1 r k

/-- Anchor · positive of class `r`. -/
def ap (x : XArr) (a p : IArr) (r : Fin 16384) : EReal := ∑ k : Fin 128, pick x a r k * pick x p r k

/-- Anchor of class `r` · negative of class `c`. -/
def score (x : XArr) (a : IArr) (r c : Fin 16384) : EReal := ∑ k : Fin 128, pick x a r k * smp x 1 c k

/-- One entry of the masked exponential: zero on the diagonal. -/
def term (x : XArr) (a p : IArr) (r c : Fin 16384) : EReal :=
  if r.val ≠ c.val then Ideal.exp (score x a r c - ap x a p r) else 0

/-- The row sum over all classes. -/
def rowSum (x : XArr) (a p : IArr) (r : Fin 16384) : EReal := ∑ c : Fin 16384, term x a p r c

/-- The loss. -/
def loss (x : XArr) (a p : IArr) : EReal := ∑ r : Fin 16384, Ideal.log1p (rowSum x a p r)

/-- An index array whose every word is 0 or 1: what the range `0 ≤ idx < 2` says of signed 32-bit words. -/
def Binary (a : IArr) : Prop := ∀ r : Fin 16384, a (ix1 r) = 0#32 ∨ a (ix1 r) = 1#32

/-! ## Regrouping a row sum by column tiles

The kernel walks the 16384 columns in 32 tiles of 512 and adds each tile's sum to a running total that starts at 0. -/

/-- Column `512 j + q`. -/
def colOf (j : Fin 32) (q : Fin 512) : Fin 16384 := ⟨512 * j.val + q.val, by omega⟩

/-- The sum of one tile of a row. -/
def tileSum (f : Fin 16384 → EReal) (j : Fin 32) : EReal := ∑ q : Fin 512, f (colOf j q)

/-- The running total after the first `n` tiles, added in order from 0. -/
def runTotal (f : Fin 16384 → EReal) : ℕ → EReal
  | 0 => 0
  | n + 1 => runTotal f n + (if h : n < 32 then tileSum f ⟨n, h⟩ else 0)

end Cert.NPair

end
-- ==== Proof.Tiles.lean ====
/-
  Regrouping a sum over 16384 columns into 32 consecutive tiles of 512.

  The running total after n tiles is the sum of the first n tile sums (induction on n), so after all 32 tiles it is
  the double sum  Σ_j Σ_q f (512 j + q).  The map (j, q) ↦ 512 j + q is a bijection of Fin 32 × Fin 512 onto
  Fin 16384 (division with remainder by 512), and a sum in a commutative additive monoid may be re-indexed along
  a bijection.  Nothing about the summands is used.
-/
import proofs.«414660_j40200893890726_2_alg».proof.Proof.Spec
import Mathlib.Data.Fintype.BigOperators
import Mathlib.Algebra.BigOperators.Fin
import Mathlib.Logic.Equiv.Fin.Basic

noncomputable section

open scoped BigOperators

namespace Cert.NPair

/-- The running total after `n` tiles is the sum of the first `n` tile sums (tiles past the 32nd count as 0). -/
theorem runTotal_eq_range (f : Fin 16384 → EReal) (n : ℕ) :
    runTotal f n = ∑ j ∈ Finset.range n, (if h : j < 32 then tileSum f ⟨j, h⟩ else 0) := by
  induction n with
  | zero => simp [runTotal]
  | succ n ih => rw [runTotal, ih, Finset.sum_range_succ]

/-- Column `512 j + q` is the image of `(j, q)` under division-with-remainder by 512. -/
theorem colOf_eq_equiv (x : Fin 32 × Fin 512) :
    colOf x.1 x.2 = (finProdFinEquiv : Fin 32 × Fin 512 ≃ Fin (32 * 512)) x := by
  apply Fin.ext
  simp only [colOf, finProdFinEquiv_apply_val]
  omega

/-- The total of all 32 tile sums, added in order from 0, is the sum over all 16384 columns. -/
theorem runTotal_all (f : Fin 16384 → EReal) : runTotal f 32 = ∑ c : Fin 16384, f c := by
  rw [runTotal_eq_range,
    ← Fin.sum_univ_eq_sum_range (fun j => if h : j < 32 then tileSum f ⟨j, h⟩ else 0) 32]
  have htile : ∀ i : Fin 32, (if h : i.val < 32 then tileSum f ⟨i.val, h⟩ else 0) = tileSum f i :=
    fun i => dif_pos i.isLt
  simp only [htile]
  unfold tileSum
  rw [← Fintype.sum_prod_type' (fun j q => f (colOf j q))]
  exact Fintype.sum_equiv (finProdFinEquiv : Fin 32 × Fin 512 ≃ Fin (32 * 512))
    (fun x => f (colOf x.1 x.2)) (fun c => f c) (fun x => by rw [colOf_eq_equiv])

end Cert.NPair

end
-- ==== Proof.KI.PayIdx.lean ====
/-
  The kernel body's payloads READ AT AN INDEX, on the extended reals.

  The body handles a tile of 2048 rows. Each row `p` carries a block of 256 numbers, two samples of 128 side by side, and
  two index words. The first stretch of the body (run at the first column tile only) picks, per row, the left half of the
  block where the index word is 0 and the right half otherwise, and forms the row's product sum of two such picks:

      pick w p k   = if w p = 0 then x p k else x p (128 + k)                      (`pay6_apply`)
      ap p         = Σ_k pick a p k · pick b p k                                   (`pay7_apply`)

  and clears the running total (`pay1_apply`). Every column tile of 512 columns then adds to the running total of row `p`
  the sum over the tile's columns `q` of the masked exponential

      if 2048·i₀ + p ≠ 512·i₁ + q then exp ((Σ_k an p k · ng q k) − ap p) else 0     (`pay8_apply`)

  where `2048·i₀ + p` is the row's number in the whole array and `512·i₁ + q` the column's: the own class contributes 0.
  The comparison is made on 32-bit words; the numbers stay below `2 ^ 31`, so nothing wraps and the words differ exactly
  when the natural numbers do (`offset_words_eq_iff`). The last column tile stores `log (1 + total)` (`pay9_apply`).

  Besides the pointwise operations, which read through an index by definition, three kinds of operation occur: layout
  (a column `[a, 1]` broadcast along the rows, a vector `[a]` cast to a column `[a, 1]`, a slice of columns), the sum over
  the columns of a row (`laneSum_apply`), and the product of two blocks contracted along their second axes
  (`matmul_rows_apply`), re-indexed from the contraction's own index set to `Fin 128`.
-/
import proofs.«414660_j40200893890726_2_alg».proof.Proof.Gen.KernelIdeal.Skeleton
import proofs.«414660_j40200893890726_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayIdx

open Cert.KernelIdeal Cert.KernelIdeal.Gen Idealize.ShloMosaic Idealize.ShloMosaic.ValueIdx

/-! ## Words: a comparison's bit as the proposition it encodes -/

/-- The bit of a word equality is set exactly when the words are equal. -/
theorem ofBool_beq_eq_one (x y : BitVec 32) : BitVec.ofBool (x == y) = 1#1 ↔ x = y := by
  by_cases h : x = y
  · subst h; simp
  · have hb : (x == y) = false := beq_eq_false_iff_ne.mpr h
    rw [hb]; simp [h]

/-- The bit of a word inequality is set exactly when the words differ. -/
theorem ofBool_bne_eq_one (x y : BitVec 32) : BitVec.ofBool (x != y) = 1#1 ↔ x ≠ y := by
  by_cases h : x = y
  · subst h; simp
  · have hb : (x != y) = true := bne_iff_ne.mpr h
    rw [hb]; simp [h]

/-- A select on the bit of a word equality is the `if` on that equality. -/
theorem select_cmpi_eq {α : Type} (x y : BitVec 32) (A B : α) :
    Scalar.select (IntOp.cmpi .eq x y) A B = if x = y then A else B :=
  if_congr (ofBool_beq_eq_one x y) rfl rfl

/-- A select on the bit of a word inequality is the `if` on that inequality. -/
theorem select_cmpi_ne {α : Type} (x y : BitVec 32) (A B : α) :
    Scalar.select (IntOp.cmpi .ne x y) A B = if x ≠ y then A else B :=
  if_congr (ofBool_bne_eq_one x y) rfl rfl

/-- An integer comparison of vectors at an index compares the elements. -/
theorem cmpi_apply {s : Shape} {w : ℕ} (c : CmpIPredicate) (x y : IVec s w) (i : s.Idx) :
    cmpi c x y i = IntOp.cmpi c (x i) (y i) := rfl

/-- An integer sum of vectors at an index adds the elements. -/
theorem addi_apply {s : Shape} {w : ℕ} (x y : IVec s w) (i : s.Idx) : addi x y i = IntOp.addi (x i) (y i) := rfl

/-- Row offset `2048 a` plus row `p` against column offset `512 b` plus column `q`, computed on 32-bit words: below
    `2 ^ 32` nothing wraps, so the words are equal exactly when the natural numbers are. -/
theorem offset_words_eq_iff (a b p q : ℕ) (ha : a < 8) (hb : b < 32) (hp : p < 2048) (hq : q < 512) :
    IntOp.addi (Scalar.muli (BitVec.ofNat 32 a) 2048#32) (BitVec.ofNat 32 p)
        = IntOp.addi (Scalar.muli (BitVec.ofNat 32 b) 512#32) (BitVec.ofNat 32 q)
      ↔ 2048 * a + p = 512 * b + q := by
  unfold IntOp.addi Scalar.muli IntOp.muli
  rw [← BitVec.toNat_inj]
  simp only [BitVec.toNat_add, BitVec.toNat_mul, BitVec.toNat_ofNat]
  omega

/-! ## Layout: a column broadcast along the rows, and a vector cast to a column -/

/-- A column `[a, 1]` broadcast along the rows to `[a, b]` reads, at `(p, c)`, the column at `p`. -/
theorem broadcastTo_a1_ab_apply {α : Type} {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-- A vector `[a]` cast to a column `[a, 1]` reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The lane sums: a sum over the columns of a row -/

/-- The sum over axis 1 of a `[2048, n]` vector, from the zero word, read at row `p`: the sum over the row's columns. -/
theorem laneSum_apply {n : ℕ} (src : FVec Ideal ⟨2, ![2048, n]⟩ .f32) (h : (⟨2, ![2048, n]⟩ : Shape).Reduces [1] S2048)
    (hφ : FKind.Formats .f32) (hacc : (0x00000000#32 : BitVec 32) = FKind.add.neutral .f32 hφ) (p : Fin 2048) :
    multiReduction (F := Ideal) .add [1] S2048 src 0x00000000#32 h hφ hacc (ix1 p) = ∑ k : Fin n, src (ix2 p k) := by
  refine (Ideal.multiReduction_add_single src 0x00000000#32 h hφ hacc (ix1 p)).trans ?_
  refine Finset.sum_congr rfl fun k _ => congrArg src ?_
  funext a
  refine Fin.ext ?_
  match a with
  | ⟨0, _⟩ => rfl
  | ⟨1, _⟩ => rfl

/-! ## The block product at an index -/

theorem lhs_mm_0 (j : S2048x512.Idx) (q : dot_S2048x128_S512x128_S2048x512_1_1_0_0_n_n.contr.Idx) :
    (dot_S2048x128_S512x128_S2048x512_1_1_0_0_n_n.lhsIdx j q 0).val = (j 0).val := by
  unfold DotDims.lhsIdx
  rw [dif_neg (show ¬(0 : Fin S2048x128.rank) ∈ dot_S2048x128_S512x128_S2048x512_1_1_0_0_n_n.lhsBatch by decide), dif_pos (show (0 : Fin S2048x128.rank) ∈ dot_S2048x128_S512x128_S2048x512_1_1_0_0_n_n.lhsNonContracting by decide)]
  rfl
theorem lhs_mm_1 (j : S2048x512.Idx) (q : dot_S2048x128_S512x128_S2048x512_1_1_0_0_n_n.contr.Idx) :
    (dot_S2048x128_S512x128_S2048x512_1_1_0_0_n_n.lhsIdx j q 1).val = (q ⟨0, by decide⟩).val :=
  dot_S2048x128_S512x128_S2048x512_1_1_0_0_n_n.lhsIdx_val_of_single rfl j q
theorem rhs_mm_0 (j : S2048x512.Idx) (q : dot_S2048x128_S512x128_S2048x512_1_1_0_0_n_n.contr.Idx) :
    (dot_S2048x128_S512x128_S2048x512_1_1_0_0_n_n.rhsIdx j q 0).val = (j 1).val := by
  unfold DotDims.rhsIdx
  rw [dif_neg (show ¬(0 : Fin S512x128.rank) ∈ dot_S2048x128_S512x128_S2048x512_1_1_0_0_n_n.rhsBatch by decide), dif_pos (show (0 : Fin S512x128.rank) ∈ dot_S2048x128_S512x128_S2048x512_1_1_0_0_n_n.rhsNonContracting by decide)]
  rfl
theorem rhs_mm_1 (j : S2048x512.Idx) (q : dot_S2048x128_S512x128_S2048x512_1_1_0_0_n_n.contr.Idx) :
    (dot_S2048x128_S512x128_S2048x512_1_1_0_0_n_n.rhsIdx j q 1).val = (q ⟨0, by decide⟩).val :=
  dot_S2048x128_S512x128_S2048x512_1_1_0_0_n_n.rhsIdx_val_of_single rfl j q

/-- The product of a `[2048, 128]` block with a `[512, 128]` block, both contracted along their second axis, into the
    zero accumulator: at `(p, q)` the sum over `k` of row `p` of the first times row `q` of the second. -/
theorem matmul_rows_apply (an : FVec Ideal S2048x128 .f32) (ng : FVec Ideal S512x128 .f32) (p : Fin 2048) (q : Fin 512) :
    matmul dot_S2048x128_S512x128_S2048x512_1_1_0_0_n_n none an ng (constant (F := Ideal) S2048x512 .f32 0x00000000#32) (ix2 p q)
      = ∑ k : Fin 128, an (ix2 p k) * ng (ix2 q k) := by
  simp only [matmul]
  rw [Ideal.matmul_constant_zero_apply, ← Equiv.sum_comp (contrEquiv1 dot_S2048x128_S512x128_S2048x512_1_1_0_0_n_n 128 rfl rfl).symm]
  refine Finset.sum_congr rfl fun k _ => ?_
  have hk := contrEquiv1_symm_val dot_S2048x128_S512x128_S2048x512_1_1_0_0_n_n 128 rfl rfl k
  have el : dot_S2048x128_S512x128_S2048x512_1_1_0_0_n_n.lhsIdx (ix2 p q) ((contrEquiv1 dot_S2048x128_S512x128_S2048x512_1_1_0_0_n_n 128 rfl rfl).symm k) = ix2 p k := funext fun a => Fin.ext (by
    match a with
    | ⟨0, _⟩ => exact lhs_mm_0 _ _
    | ⟨1, _⟩ => exact (lhs_mm_1 _ _).trans hk)
  have er : dot_S2048x128_S512x128_S2048x512_1_1_0_0_n_n.rhsIdx (ix2 p q) ((contrEquiv1 dot_S2048x128_S512x128_S2048x512_1_1_0_0_n_n 128 rfl rfl).symm k) = ix2 q k := funext fun a => Fin.ext (by
    match a with
    | ⟨0, _⟩ => exact rhs_mm_0 _ _
    | ⟨1, _⟩ => exact (rhs_mm_1 _ _).trans hk)
  rw [el, er]

/-- An exponential of a vector at an index is the exponential of the element. -/
theorem exp_apply {s : Shape} {φ : FTy} (x : FVec Ideal s φ) (i : s.Idx) : exp x i = Ideal.exp (x i) := rfl

theorem pay1_apply (j : S2048x1.Idx) : k0_pay1 (F := Ideal) j = 0 := by
  unfold k0_pay1
  rw [shapeCast_self]
  exact Ideal.ofBits_zero_f32

theorem pay9_apply (v : Vec Ideal S2048x1 .f32) (j : S2048x1.Idx) : k0_pay9 (F := Ideal) v j = Ideal.log1p (v j) := by
  unfold k0_pay9
  rfl

/-- The selection as one `select`, the identity casts removed. -/
theorem pay6_eq (xb : Vec Ideal S2048x256 .f32) (w : Vec Ideal S2048x1 .i32) :
    k0_pay6 (F := Ideal) xb w = select (cmpi .eq (broadcastTo S2048x128 w broadcasts_S2048x1_S2048x128) (broadcast S2048x128 0#32))
      (extractStridedSlice S2048x128 ![0, 0] xb slices_S2048x256_o0_0_S2048x128)
      (extractStridedSlice S2048x128 ![0, 128] xb slices_S2048x256_o0_128_S2048x128) := by
  unfold k0_pay6 k0_pay5 k0_pay3 k0_pay4 k0_pay2
  dsimp only
  simp only [shapeCast_self]

theorem pay6_apply (xb : Vec Ideal S2048x256 .f32) (ab : Vec Ideal S2048x1 .i32) (p : Fin 2048) (k : Fin 128) :
    k0_pay6 (F := Ideal) xb ab (ix2 p k) = if ab (ix2 p (0 : Fin 1)) = 0#32 then xb (ix2 p ⟨k.val, by omega⟩) else xb (ix2 p ⟨128 + k.val, by omega⟩) := by
  rw [pay6_eq, select_apply, cmpi_apply, broadcast_apply, select_cmpi_eq, broadcastTo_a1_ab_apply (by decide),
    slice2_axis1_apply 0 xb _ p k ⟨k.val, by omega⟩ (Nat.zero_add _).symm,
    slice2_axis1_apply 128 xb _ p k ⟨128 + k.val, by omega⟩ rfl]

theorem pay7_apply (xb : Vec Ideal S2048x256 .f32) (ab pb : Vec Ideal S2048x1 .i32) (p : Fin 2048) :
    k0_pay7 (F := Ideal) xb ab pb (ix2 p (0 : Fin 1)) = ∑ k : Fin 128, k0_pay6 (F := Ideal) xb ab (ix2 p k) * k0_pay6 (F := Ideal) xb pb (ix2 p k) := by
  rw [pay6_eq, pay6_eq]
  unfold k0_pay7 k0_pay5 k0_pay3 k0_pay4 k0_pay2
  dsimp only
  simp only [shapeCast_self]
  refine (shapeCast_a_a1_apply _ _ p 0).trans ?_
  refine (laneSum_apply _ _ _ _ p).trans ?_
  rfl

theorem pay8_apply (i : grid0.Coords) (an : Vec Ideal S2048x128 .f32) (apv : Vec Ideal S2048x1 .f32) (ng : Vec Ideal S512x128 .f32) (acc : Vec Ideal S2048x1 .f32) (p : Fin 2048) :
    k0_pay8 (F := Ideal) i an apv ng acc (ix2 p (0 : Fin 1)) = acc (ix2 p (0 : Fin 1)) + ∑ q : Fin 512,
      (if 2048 * (i 0).val + p.val ≠ 512 * (i 1).val + q.val then Ideal.exp ((∑ k : Fin 128, an (ix2 p k) * ng (ix2 q k)) - apv (ix2 p (0 : Fin 1))) else 0) := by
  unfold k0_pay8
  rw [shapeCast_self, shapeCast_self, addf_apply]
  refine congrArg (acc (ix2 p (0 : Fin 1)) + ·) ?_
  refine (shapeCast_a_a1_apply _ _ p 0).trans ?_
  refine (laneSum_apply _ _ _ _ p).trans ?_
  refine Finset.sum_congr rfl fun q _ => ?_
  rw [select_apply, cmpi_apply, addi_apply, addi_apply, broadcast_apply, broadcast_apply, broadcast_apply,
    iota_single_apply, iota_single_apply, select_cmpi_ne, exp_apply, subf_apply, matmul_rows_apply,
    broadcastTo_a1_ab_apply (by decide)]
  exact if_congr (not_congr (offset_words_eq_iff _ _ _ _ (i 0).isLt (i 1).isLt p.isLt q.isLt)) rfl Ideal.ofBits_zero_f32

end Cert.KernelIdeal.PayIdx

end
-- ==== Proof.KI.ScrValue.lean ====
/-
  The scratch buffers and the result's staging block in closed form, at the ideal instance.

  The region finds the sample array reshaped [32768,128] → [16384,256]: row R of the reshaped array is rows 2R and
  2R + 1 of the samples side by side, so its columns 0..127 are sample 0 of class R and its columns 128..255 sample 1.
  The two index arrays are reshaped [16384] → [16384,1]. A block of a window sits in its array at block index times
  block size plus the coordinate inside the block; at grid point t = 32 i + j the row windows have block index i and
  the column window block index j. Hence every block the body loads is a slice of the specification's functions of
  the three argument arrays, and by induction along a row tile's 32 points the three scratch buffers hold, for the
  tile's class r = 2048 i + p: the picked anchor sample, its product with the picked positive, and the running total
  of the first j + 1 column tiles of the masked exponentials. At j = 31 the total is the whole row sum.
-/
import proofs.«414660_j40200893890726_2_alg».proof.Proof.KI.Data
import proofs.«414660_j40200893890726_2_alg».proof.Proof.Spec
import proofs.«414660_j40200893890726_2_alg».proof.Proof.Tiles
import proofs.«414660_j40200893890726_2_alg».proof.Proof.KI.PayIdx
import Idealize.ShloMosaic.Lib.ValueIdx
import Idealize.ShloMosaic.Lib.Pipeline.Value
import Idealize.ShloMosaic.Lib.ValueLayout
import Idealize.ShloMosaic.Lib.StableHlo.Run

noncomputable section

open scoped BigOperators

namespace Cert.KernelIdeal.HandValue

open Cert.KernelIdeal Cert.KernelIdeal.Gen Cert.KernelIdeal.Hand Cert.NPair
open Idealize.ShloMosaic Idealize.ShloMosaic.TcCoe Idealize.ShloMosaic.ValueIdx

variable (m : (ℓ : Loc nD τ sig) → Buf (Elt Ideal) ℓ) (c : Dev nD)

/-- The sample argument as launched. -/
abbrev xA : XArr := m ((c : Thread nD τ).loc main_arg0)
/-- The anchor index argument as launched. -/
abbrev aA : IArr := m ((c : Thread nD τ).loc main_arg1)
/-- The positive index argument as launched. -/
abbrev pA : IArr := m ((c : Thread nD τ).loc main_arg2)

/-! ## The arrays the region finds: the three reshapes -/

theorem V_v0 : (V m c main_v0 : S16384x256.Idx → EReal)
    = shapeCast S16384x256 (xA m c) shapeCasts_S32768x128_S16384x256 := by
  dsimp only [V]
  simp only [List.flatten_cons, List.flatten_nil, List.append_nil]
  after_results
  rfl

theorem V_v1 : (V m c main_v1 : S16384x1.Idx → BitVec 32)
    = shapeCast S16384x1 (aA m c) shapeCasts_S16384_S16384x1 := by
  dsimp only [V]
  simp only [List.flatten_cons, List.flatten_nil, List.append_nil]
  after_results
  rfl

theorem V_v2 : (V m c main_v2 : S16384x1.Idx → BitVec 32)
    = shapeCast S16384x1 (pA m c) shapeCasts_S16384_S16384x1 := by
  dsimp only [V]
  simp only [List.flatten_cons, List.flatten_nil, List.append_nil]
  after_results
  rfl

/-- The reshaped sample array at row `r`, column `128 s + k`: sample `s` of class `r`, coordinate `k`. -/
theorem v0_apply (r : Fin 16384) (s : Fin 2) (k : Fin 128) (kk : Fin 256) (hkk : kk.val = 128 * s.val + k.val) :
    (V m c main_v0 : S16384x256.Idx → EReal) (ix2 r kk) = smp (xA m c) s r k := by
  rw [V_v0]
  refine (shapeCast_apply (xA m c) shapeCasts_S32768x128_S16384x256 (ix2 r kk) (ix2 (rowOf r s) k) ?_).trans rfl
  rw [Shape.rowMajor_val_two, Shape.rowMajor_val_two]
  show (2 * r.val + s.val) * 128 + k.val = r.val * 256 + kk.val
  omega

/-- A reshaped index array at row `r`: the word of class `r`. -/
theorem v1_apply (r : Fin 16384) :
    (V m c main_v1 : S16384x1.Idx → BitVec 32) (ix2 r (0 : Fin 1)) = aA m c (ix1 r) := by
  rw [V_v1]
  refine (shapeCast_apply (aA m c) shapeCasts_S16384_S16384x1 (ix2 r (0 : Fin 1)) (ix1 r) ?_).trans rfl
  rw [Shape.rowMajor_val_one, Shape.rowMajor_val_two]
  show r.val = r.val * 1 + 0
  omega

theorem v2_apply (r : Fin 16384) :
    (V m c main_v2 : S16384x1.Idx → BitVec 32) (ix2 r (0 : Fin 1)) = pA m c (ix1 r) := by
  rw [V_v2]
  refine (shapeCast_apply (pA m c) shapeCasts_S16384_S16384x1 (ix2 r (0 : Fin 1)) (ix1 r) ?_).trans rfl
  rw [Shape.rowMajor_val_one, Shape.rowMajor_val_two]
  show r.val = r.val * 1 + 0
  omega

/-! ## Where the blocks sit: the printed index maps and the grid's coordinates, decided over the 256 points -/

theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 1
    ∧ win0_2.index t (0 : Fin 2) = t.val / 32 ∧ win0_2.index t (1 : Fin 2) = 0
    ∧ win0_3.index t (0 : Fin 2) = t.val / 32 ∧ win0_3.index t (1 : Fin 2) = 0 :=
  (by decide +kernel : ∀ t : Fin grid0.N, _)

theorem coords_facts : ∀ t : Fin cfg0.N,
    ((grid0.coords t) (0 : Fin 2)).val = t.val / 32 ∧ ((grid0.coords t) (1 : Fin 2)).val = t.val % 32 :=
  (by decide +kernel : ∀ t : Fin grid0.N, _)

/-! ## The blocks the body loads, as slices of the specification's functions

A block's element sits in its array at block index × block size + 1 × its coordinate inside the block. -/

/-- The row tile's sample block: row `p`, column `128 s + k` is sample `s` of class `2048 i + p`. -/
theorem xblk_apply (t : Fin cfg0.N) (p : Fin 2048) (s : Fin 2) (k : Fin 128) (kk : Fin 256)
    (hkk : kk.val = 128 * s.val + k.val) (r : Fin 16384) (hr : r.val = 2048 * (t.val / 32) + p.val) :
    xblk m c t (ix2 p kk) = smp (xA m c) s r k := by
  refine Eq.trans ?_ (v0_apply m c r s k kk hkk)
  show V m c main_v0 (((cfg0.win 0).blk t).view.emb (ix2 p kk)) = V m c main_v0 (ix2 r kk)
  refine congrArg _ (funext fun a => Fin.ext ?_)
  obtain ⟨e0, e1, -⟩ := idx_facts t
  match a with
  | ⟨0, _⟩ => show win0_0.index t (0 : Fin 2) * 2048 + 1 * p.val = r.val; rw [e0, hr]; omega
  | ⟨1, _⟩ => show win0_0.index t (1 : Fin 2) * 256 + 1 * kk.val = kk.val; rw [e1]; omega

/-- The column tile's negatives: row `q`, column `k` is sample 1 of class `512 j + q` (columns 128..255 of the array). -/
theorem nblk_apply (t : Fin cfg0.N) (q : Fin 512) (k : Fin 128) (cc : Fin 16384)
    (hcc : cc.val = 512 * (t.val % 32) + q.val) :
    nblk m c t (ix2 q k) = smp (xA m c) 1 cc k := by
  refine Eq.trans ?_ (v0_apply m c cc 1 k ⟨128 + k.val, by omega⟩ rfl)
  show V m c main_v0 (((cfg0.win 1).blk t).view.emb (ix2 q k)) = V m c main_v0 (ix2 cc ⟨128 + k.val, by omega⟩)
  refine congrArg _ (funext fun a => Fin.ext ?_)
  obtain ⟨-, -, e0, e1, -⟩ := idx_facts t
  match a with
  | ⟨0, _⟩ => show win0_1.index t (0 : Fin 2) * 512 + 1 * q.val = cc.val; rw [e0, hcc]; omega
  | ⟨1, _⟩ => show win0_1.index t (1 : Fin 2) * 128 + 1 * k.val = 128 + k.val; rw [e1]; omega

/-- The row tile's anchor words. -/
theorem ablk_apply (t : Fin cfg0.N) (p : Fin 2048) (r : Fin 16384) (hr : r.val = 2048 * (t.val / 32) + p.val) :
    ablk m c t (ix2 p (0 : Fin 1)) = aA m c (ix1 r) := by
  refine Eq.trans ?_ (v1_apply m c r)
  show V m c main_v1 (((cfg0.win 2).blk t).view.emb (ix2 p (0 : Fin 1))) = V m c main_v1 (ix2 r (0 : Fin 1))
  refine congrArg _ (funext fun a => Fin.ext ?_)
  obtain ⟨-, -, -, -, e0, e1, -⟩ := idx_facts t
  match a with
  | ⟨0, _⟩ => show win0_2.index t (0 : Fin 2) * 2048 + 1 * p.val = r.val; rw [e0, hr]; omega
  | ⟨1, _⟩ => show win0_2.index t (1 : Fin 2) * 1 + 1 * 0 = 0; rw [e1]

/-- The row tile's positive words. -/
theorem pblk_apply (t : Fin cfg0.N) (p : Fin 2048) (r : Fin 16384) (hr : r.val = 2048 * (t.val / 32) + p.val) :
    pblk m c t (ix2 p (0 : Fin 1)) = pA m c (ix1 r) := by
  refine Eq.trans ?_ (v2_apply m c r)
  show V m c main_v2 (((cfg0.win 3).blk t).view.emb (ix2 p (0 : Fin 1))) = V m c main_v2 (ix2 r (0 : Fin 1))
  refine congrArg _ (funext fun a => Fin.ext ?_)
  obtain ⟨-, -, -, -, -, -, e0, e1⟩ := idx_facts t
  match a with
  | ⟨0, _⟩ => show win0_3.index t (0 : Fin 2) * 2048 + 1 * p.val = r.val; rw [e0, hr]; omega
  | ⟨1, _⟩ => show win0_3.index t (1 : Fin 2) * 1 + 1 * 0 = 0; rw [e1]

/-! ## One point's payloads over the specification -/

/-- The select between the two samples is `pick`, whenever the sample block's row is class `r`'s two samples and the
    index block's row is class `r`'s word. -/
theorem pay6_pick (xb : Vec Ideal S2048x256 .f32) (ib : Vec Ideal S2048x1 .i32) (x : XArr) (a : IArr)
    (p : Fin 2048) (k : Fin 128) (r : Fin 16384)
    (hx0 : xb (ix2 p ⟨k.val, by omega⟩) = smp x 0 r k) (hx1 : xb (ix2 p ⟨128 + k.val, by omega⟩) = smp x 1 r k)
    (hi : ib (ix2 p (0 : Fin 1)) = a (ix1 r)) :
    k0_pay6 (F := Ideal) xb ib (ix2 p k) = pick x a r k := by
  rw [PayIdx.pay6_apply, hx0, hx1, hi]
  rfl

/-- The lane sum of anchor times positive is `ap`. -/
theorem pay7_ap (xb : Vec Ideal S2048x256 .f32) (ab pb : Vec Ideal S2048x1 .i32) (x : XArr) (a pp : IArr)
    (p : Fin 2048) (r : Fin 16384)
    (hx0 : ∀ k : Fin 128, xb (ix2 p ⟨k.val, by omega⟩) = smp x 0 r k)
    (hx1 : ∀ k : Fin 128, xb (ix2 p ⟨128 + k.val, by omega⟩) = smp x 1 r k)
    (ha : ab (ix2 p (0 : Fin 1)) = a (ix1 r)) (hp : pb (ix2 p (0 : Fin 1)) = pp (ix1 r)) :
    k0_pay7 (F := Ideal) xb ab pb (ix2 p (0 : Fin 1)) = ap x a pp r := by
  rw [PayIdx.pay7_apply]
  unfold ap
  refine Finset.sum_congr rfl fun k _ => ?_
  rw [pay6_pick xb ab x a p k r (hx0 k) (hx1 k) ha, pay6_pick xb pb x pp p k r (hx0 k) (hx1 k) hp]

/-- One column tile's step: the running sum of row `p` grows by the tile's sum of the masked exponentials of class `r`,
    whenever the anchors, the anchor-positive product and the negatives are the specification's and the grid point is
    (row tile `I`, column tile `j`) with `r = 2048 I + p`. -/
theorem pay8_tile (i : grid0.Coords) (an : Vec Ideal S2048x128 .f32) (apv : Vec Ideal S2048x1 .f32)
    (ng : Vec Ideal S512x128 .f32) (acc : Vec Ideal S2048x1 .f32) (x : XArr) (a pp : IArr)
    (p : Fin 2048) (r : Fin 16384) (I : ℕ) (j : Fin 32)
    (hI : (i 0).val = I) (hJ : (i 1).val = j.val) (hr : r.val = 2048 * I + p.val)
    (han : ∀ k : Fin 128, an (ix2 p k) = pick x a r k)
    (hap : apv (ix2 p (0 : Fin 1)) = ap x a pp r)
    (hng : ∀ (q : Fin 512) (k : Fin 128), ng (ix2 q k) = smp x 1 (colOf j q) k) :
    k0_pay8 (F := Ideal) i an apv ng acc (ix2 p (0 : Fin 1))
      = acc (ix2 p (0 : Fin 1)) + tileSum (term x a pp r) j := by
  rw [PayIdx.pay8_apply]
  congr 1
  unfold tileSum
  refine Finset.sum_congr rfl fun q _ => ?_
  unfold term score
  rw [hap]
  simp only [han, hng]
  refine if_congr ?_ rfl rfl
  show 2048 * (i 0).val + p.val ≠ 512 * (i 1).val + q.val ↔ r.val ≠ 512 * j.val + q.val
  rw [hI, hJ, hr]

/-- The running total's step. -/
theorem runTotal_succ (f : Fin 16384 → EReal) (j : ℕ) (hj : j < 32) :
    runTotal f (j + 1) = runTotal f j + tileSum f ⟨j, hj⟩ := by
  rw [runTotal, dif_pos hj]

/-! ## The scratch buffers by recursion on the point -/

/-- A row tile's first point writes all three buffers afresh. -/
theorem scr_first (n : ℕ) (h : n < cfg0.N) (h0 : n % 32 = 0) :
    scr m c (n + 1)
      = (k0_pay8 (grid0.coords ⟨n, h⟩) (k0_pay6 (xblk m c ⟨n, h⟩) (ablk m c ⟨n, h⟩))
            (k0_pay7 (xblk m c ⟨n, h⟩) (ablk m c ⟨n, h⟩) (pblk m c ⟨n, h⟩)) (nblk m c ⟨n, h⟩) (k0_pay1 (F := Ideal)),
          k0_pay6 (xblk m c ⟨n, h⟩) (ablk m c ⟨n, h⟩),
          k0_pay7 (xblk m c ⟨n, h⟩) (ablk m c ⟨n, h⟩) (pblk m c ⟨n, h⟩)) := by
  rw [scr, dif_pos h, if_pos h0]

/-- Every later point grows the sums and keeps the other two. -/
theorem scr_later (n : ℕ) (h : n < cfg0.N) (h0 : ¬n % 32 = 0) :
    scr m c (n + 1)
      = (k0_pay8 (grid0.coords ⟨n, h⟩) (scr m c n).2.1 (scr m c n).2.2 (nblk m c ⟨n, h⟩) (scr m c n).1,
          (scr m c n).2.1, (scr m c n).2.2) := by
  rw [scr, dif_pos h, if_neg h0]

/-- A row tile's first point: the buffers are read off the tile's blocks, and the running total is the first column
    tile's sum added to 0. -/
theorem scr_first_point (n : ℕ) (h : n < cfg0.N) (h0 : n % 32 = 0) (p : Fin 2048) (r : Fin 16384)
    (hr : r.val = 2048 * (n / 32) + p.val) :
    (∀ k : Fin 128, (scr m c (n + 1)).2.1 (ix2 p k) = pick (xA m c) (aA m c) r k)
    ∧ (scr m c (n + 1)).2.2 (ix2 p (0 : Fin 1)) = ap (xA m c) (aA m c) (pA m c) r
    ∧ (scr m c (n + 1)).1 (ix2 p (0 : Fin 1)) = runTotal (term (xA m c) (aA m c) (pA m c) r) (n % 32 + 1) := by
  rw [scr_first m c n h h0]
  dsimp only
  have hx0 : ∀ k : Fin 128, xblk m c ⟨n, h⟩ (ix2 p ⟨k.val, by omega⟩) = smp (xA m c) 0 r k :=
    fun k => xblk_apply m c ⟨n, h⟩ p 0 k ⟨k.val, by omega⟩ (by show k.val = 128 * 0 + k.val; omega) r hr
  have hx1 : ∀ k : Fin 128, xblk m c ⟨n, h⟩ (ix2 p ⟨128 + k.val, by omega⟩) = smp (xA m c) 1 r k :=
    fun k => xblk_apply m c ⟨n, h⟩ p 1 k ⟨128 + k.val, by omega⟩ (by show 128 + k.val = 128 * 1 + k.val; omega) r hr
  have hab : ablk m c ⟨n, h⟩ (ix2 p (0 : Fin 1)) = aA m c (ix1 r) := ablk_apply m c ⟨n, h⟩ p r hr
  have hpb : pblk m c ⟨n, h⟩ (ix2 p (0 : Fin 1)) = pA m c (ix1 r) := pblk_apply m c ⟨n, h⟩ p r hr
  have hA : ∀ k : Fin 128, k0_pay6 (F := Ideal) (xblk m c ⟨n, h⟩) (ablk m c ⟨n, h⟩) (ix2 p k)
      = pick (xA m c) (aA m c) r k :=
    fun k => pay6_pick (xblk m c ⟨n, h⟩) (ablk m c ⟨n, h⟩) (xA m c) (aA m c) p k r (hx0 k) (hx1 k) hab
  have hP : k0_pay7 (F := Ideal) (xblk m c ⟨n, h⟩) (ablk m c ⟨n, h⟩) (pblk m c ⟨n, h⟩) (ix2 p (0 : Fin 1))
      = ap (xA m c) (aA m c) (pA m c) r :=
    pay7_ap (xblk m c ⟨n, h⟩) (ablk m c ⟨n, h⟩) (pblk m c ⟨n, h⟩) (xA m c) (aA m c) (pA m c) p r hx0 hx1 hab hpb
  refine ⟨hA, hP, ?_⟩
  have hj : n % 32 < 32 := Nat.mod_lt _ (by decide)
  obtain ⟨c0, c1⟩ := coords_facts ⟨n, h⟩
  refine (pay8_tile (grid0.coords ⟨n, h⟩) (k0_pay6 (xblk m c ⟨n, h⟩) (ablk m c ⟨n, h⟩))
    (k0_pay7 (xblk m c ⟨n, h⟩) (ablk m c ⟨n, h⟩) (pblk m c ⟨n, h⟩)) (nblk m c ⟨n, h⟩) (k0_pay1 (F := Ideal))
    (xA m c) (aA m c) (pA m c) p r (n / 32) ⟨n % 32, hj⟩ c0 c1 hr hA hP
    (fun q k => nblk_apply m c ⟨n, h⟩ q k (colOf ⟨n % 32, hj⟩ q) rfl)).trans ?_
  rw [PayIdx.pay1_apply, runTotal_succ _ (n % 32) hj]
  congr 1
  rw [h0]
  rfl

/-- A later point of a row tile: the anchors and their products stay, the running total takes one more column tile. -/
theorem scr_later_point (n : ℕ) (h : n + 1 < cfg0.N) (h0 : ¬(n + 1) % 32 = 0) (p : Fin 2048) (r : Fin 16384)
    (hr : r.val = 2048 * ((n + 1) / 32) + p.val)
    (ha : ∀ k : Fin 128, (scr m c (n + 1)).2.1 (ix2 p k) = pick (xA m c) (aA m c) r k)
    (hp : (scr m c (n + 1)).2.2 (ix2 p (0 : Fin 1)) = ap (xA m c) (aA m c) (pA m c) r)
    (hs : (scr m c (n + 1)).1 (ix2 p (0 : Fin 1)) = runTotal (term (xA m c) (aA m c) (pA m c) r) (n % 32 + 1)) :
    (∀ k : Fin 128, (scr m c (n + 1 + 1)).2.1 (ix2 p k) = pick (xA m c) (aA m c) r k)
    ∧ (scr m c (n + 1 + 1)).2.2 (ix2 p (0 : Fin 1)) = ap (xA m c) (aA m c) (pA m c) r
    ∧ (scr m c (n + 1 + 1)).1 (ix2 p (0 : Fin 1))
        = runTotal (term (xA m c) (aA m c) (pA m c) r) ((n + 1) % 32 + 1) := by
  rw [scr_later m c (n + 1) h h0]
  dsimp only
  refine ⟨ha, hp, ?_⟩
  have hj : (n + 1) % 32 < 32 := Nat.mod_lt _ (by decide)
  obtain ⟨c0, c1⟩ := coords_facts ⟨n + 1, h⟩
  refine (pay8_tile (grid0.coords ⟨n + 1, h⟩) (scr m c (n + 1)).2.1 (scr m c (n + 1)).2.2 (nblk m c ⟨n + 1, h⟩)
    (scr m c (n + 1)).1 (xA m c) (aA m c) (pA m c) p r ((n + 1) / 32) ⟨(n + 1) % 32, hj⟩ c0 c1 hr ha hp
    (fun q k => nblk_apply m c ⟨n + 1, h⟩ q k (colOf ⟨(n + 1) % 32, hj⟩ q) rfl)).trans ?_
  rw [hs, runTotal_succ _ ((n + 1) % 32) hj]
  congr 2
  omega

/-- The three buffers after point `n`, at row `p` of its row tile (class `r = 2048 (n / 32) + p`): the picked anchor,
    anchor · positive, and the running total of the first `n % 32 + 1` column tiles. By induction on the point: a row
    tile's first point starts from the blocks, every later one from what the point before left, which is in the same
    row tile. -/
theorem scr_all : ∀ (n : ℕ) (h : n < cfg0.N) (p : Fin 2048) (r : Fin 16384), r.val = 2048 * (n / 32) + p.val →
    (∀ k : Fin 128, (scr m c (n + 1)).2.1 (ix2 p k) = pick (xA m c) (aA m c) r k)
    ∧ (scr m c (n + 1)).2.2 (ix2 p (0 : Fin 1)) = ap (xA m c) (aA m c) (pA m c) r
    ∧ (scr m c (n + 1)).1 (ix2 p (0 : Fin 1)) = runTotal (term (xA m c) (aA m c) (pA m c) r) (n % 32 + 1) := by
  intro n
  induction n with
  | zero =>
    intro h p r hr
    exact scr_first_point m c 0 h rfl p r hr
  | succ n ih =>
    intro h p r hr
    by_cases h0 : (n + 1) % 32 = 0
    · exact scr_first_point m c (n + 1) h h0 p r hr
    · have hn : n < cfg0.N := Nat.lt_of_succ_lt h
      have hr' : r.val = 2048 * (n / 32) + p.val := by omega
      obtain ⟨ha, hp, hs⟩ := ih hn p r hr'
      exact scr_later_point m c n h h0 p r hr ha hp hs

/-! ## The statements at a grid point -/

/-- The class of row `p` of point `t`'s row tile. -/
abbrev rowCls (t : Fin cfg0.N) (p : Fin 2048) : Fin 16384 :=
  ⟨2048 * (t.val / 32) + p.val, by have := t.isLt; have hN : cfg0.N = 256 := N_0; omega⟩

theorem scr_anchor (t : Fin cfg0.N) (p : Fin 2048) (k : Fin 128) :
    (scr m c (t.val + 1)).2.1 (ix2 p k) = pick (xA m c) (aA m c) (rowCls t p) k :=
  (scr_all m c t.val t.isLt p (rowCls t p) rfl).1 k

theorem scr_ap (t : Fin cfg0.N) (p : Fin 2048) :
    (scr m c (t.val + 1)).2.2 (ix2 p (0 : Fin 1)) = ap (xA m c) (aA m c) (pA m c) (rowCls t p) :=
  (scr_all m c t.val t.isLt p (rowCls t p) rfl).2.1

theorem scr_sum (t : Fin cfg0.N) (p : Fin 2048) :
    (scr m c (t.val + 1)).1 (ix2 p (0 : Fin 1))
      = runTotal (term (xA m c) (aA m c) (pA m c) (rowCls t p)) (t.val % 32 + 1) :=
  (scr_all m c t.val t.isLt p (rowCls t p) rfl).2.2

/-- What a row tile's last point leaves in the result's staging block: `log (1 + ·)` of the whole row sum. -/
theorem outAt_apply (t : Fin cfg0.N) (ht : t.val % 32 = 31) (p : Fin 2048) :
    outAt m c t (ix2 p (0 : Fin 1))
      = Ideal.log1p (rowSum (xA m c) (aA m c) (pA m c)
          ⟨2048 * (t.val / 32) + p.val, by have := t.isLt; have hN : cfg0.N = 256 := N_0; omega⟩) := by
  rw [outAt]
  refine (PayIdx.pay9_apply (scr m c (t.val + 1)).1 (ix2 p (0 : Fin 1))).trans ?_
  rw [scr_sum m c t p, ht, runTotal_all]
  rfl

end Cert.KernelIdeal.HandValue

end
-- ==== Proof.KI.Final.lean ====
/-
  The region's result array, and the host tail's sum of it, on the extended reals.

  The result window (rows of `main_v3`, shape [16384, 1]) has one block of 2048 rows per row tile `i`; the block of
  row tile `i` is written back once, at the tile's last point `t = 32·i + 31`, and holds `log (1 + ·)` of the
  tile's finished row sums. The eight blocks tile the array, so after the run row `r` of the array holds
  `log (1 + rowSum r)` (`out_rows`). The host then adds all 16384 entries to the zero constant: the loss
  `Σ_r log (1 + rowSum r)` (`kernel_loss`).
-/
import proofs.«414660_j40200893890726_2_alg».proof.Proof.KI.Data
import proofs.«414660_j40200893890726_2_alg».proof.Proof.Spec
import proofs.«414660_j40200893890726_2_alg».proof.Proof.KI.ScrValue
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

/-! ## The result array from its written-back blocks -/

/-- The result array as one function of the argument arrays: row `r` holds `log (1 + rowSum r)`. -/
def out_G : S16384x1.Idx → EReal :=
  fun j => Ideal.log1p (Cert.NPair.rowSum (xA m c) (aA m c) (pA m c) (j 0))

theorem out_G_apply (r : Fin 16384) (q : Fin 1) :
    out_G m c (ix2 r q) = Ideal.log1p (Cert.NPair.rowSum (xA m c) (aA m c) (pA m c) r) := rfl

/-- Reading contents of the result array through point `t`'s block is precomposition with the block's embedding. -/
theorem out_read_blk (g : S16384x1.Idx → EReal) (t : Fin cfg0.N) (y : S2048x1.Idx) :
    ((cfg0.win 4).blk t).view.read (Elt Ideal) g y = g (((cfg0.win 4).blk t).view.emb y) := rfl

/-- The result window's block index at point `t = 32·i + j` is `(i, 0)`. -/
theorem out_index : ∀ t : Fin cfg0.N, win0_4.index t (0 : Fin 2) = t.val / 32 ∧ win0_4.index t (1 : Fin 2) = 0 :=
  (by decide +kernel : ∀ t : Fin grid0.N, win0_4.index t (0 : Fin 2) = t.val / 32 ∧ win0_4.index t (1 : Fin 2) = 0)

/-- Row `p` of point `t`'s block is row `2048·(t / 32) + p` of the array. -/
theorem out_emb_blk (t : Fin cfg0.N) (p : Fin 2048) (r : Fin 16384) (hr : r.val = 2048 * (t.val / 32) + p.val) :
    ((cfg0.win 4).blk t).view.emb (ix2 p (0 : Fin 1)) = ix2 r (0 : Fin 1) := by
  obtain ⟨e0, e1⟩ := out_index t
  funext a
  apply Fin.ext
  match a with
  | ⟨0, _⟩ => show win0_4.index t (0 : Fin 2) * 2048 + 1 * p.val = r.val; rw [e0, hr]; omega
  | ⟨1, _⟩ => show win0_4.index t (1 : Fin 2) * 1 + 1 * 0 = 0; rw [e1]

/-- What a row tile's last point writes back is that tile's rows of `out_G`. -/
theorem out_flushed_eq (t : Fin cfg0.N) (hf : (cfg0.win 4).flush t = true) :
    (dats m 0 c).flushed 4 t = ((cfg0.win 4).blk t).view.read (Elt Ideal) (out_G m c) := by
  have ht : t.val % 32 = 31 := (flush0_4 t).mp hf
  show (cfg0.win 4).cut (grid0.coords t) ((dats m 0 c).after 4 t) = _
  have ha : (dats m 0 c).after 4 t = outAt m c t := by dsimp only [dats]
  rw [ha]
  funext y
  refine Eq.trans ?_ (out_read_blk (out_G m c) t y).symm
  show outAt m c t y = out_G m c (((cfg0.win 4).blk t).view.emb y)
  obtain ⟨p, q, rfl⟩ : ∃ (p : Fin 2048) (q : Fin 1), y = ix2 p q :=
    ⟨y 0, y 1, funext fun a => by match a with | ⟨0, _⟩ => rfl | ⟨1, _⟩ => rfl⟩
  obtain rfl : q = 0 := Subsingleton.elim _ _
  have hr : 2048 * (t.val / 32) + p.val < 16384 := by have := t.isLt; have hN : cfg0.N = 256 := N_0; omega
  rw [outAt_apply m c t ht p, out_emb_blk t p ⟨2048 * (t.val / 32) + p.val, hr⟩ rfl, out_G_apply]

/-- An index of the result array is in point `t`'s block iff each coordinate is in the block's range on its axis. -/
theorem out_mem_blk (t : Fin cfg0.N) (i : S16384x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v3).slice (win0_4.rect t)).set ↔ _
  rw [View.set_slice_whole, Rect.mem_set_unit]
  exact Iff.rfl

/-- Row `r` lies in the block written back at the last point of row tile `r / 2048`. -/
theorem out_cover (i : S16384x1.Idx) :
    ∃ t : Fin cfg0.N, (cfg0.win 4).flush t = true ∧ i ∈ ((cfg0.win 4).blk t).view.set := by
  have hi0 : (i 0).val < 16384 := (i 0).isLt
  have hi1 : (i 1).val < 1 := (i 1).isLt
  have hN : cfg0.N = 256 := N_0
  have hlt : 32 * ((i 0).val / 2048) + 31 < cfg0.N := by omega
  obtain ⟨e0, e1⟩ := out_index ⟨32 * ((i 0).val / 2048) + 31, hlt⟩
  refine ⟨⟨32 * ((i 0).val / 2048) + 31, hlt⟩, (flush0_4 _).mpr (by show (32 * ((i 0).val / 2048) + 31) % 32 = 31; omega), ?_⟩
  rw [out_mem_blk]
  intro a
  match a with
  | ⟨0, _⟩ =>
    show win0_4.index ⟨32 * ((i 0).val / 2048) + 31, hlt⟩ (0 : Fin 2) * 2048 ≤ (i 0).val
      ∧ (i 0).val < win0_4.index ⟨32 * ((i 0).val / 2048) + 31, hlt⟩ (0 : Fin 2) * 2048 + 2048
    rw [e0]
    show (32 * ((i 0).val / 2048) + 31) / 32 * 2048 ≤ (i 0).val ∧ (i 0).val < (32 * ((i 0).val / 2048) + 31) / 32 * 2048 + 2048
    omega
  | ⟨1, _⟩ =>
    show win0_4.index ⟨32 * ((i 0).val / 2048) + 31, hlt⟩ (1 : Fin 2) * 1 ≤ (i 1).val
      ∧ (i 1).val < win0_4.index ⟨32 * ((i 0).val / 2048) + 31, hlt⟩ (1 : Fin 2) * 1 + 1
    rw [e1]; omega

/-- The result array after the run is `out_G`: the eight written-back blocks tile it. -/
theorem out_final : (dats m 0 c).arrAt 4 cfg0.N = out_G m c :=
  (dats m 0 c).arrAt_eq_of_cover 4 (out_G m c) (fun t hf => out_flushed_eq m c t hf) out_cover

/-- The result array after the run holds `log (1 + rowSum r)` at row `r`. -/
theorem out_rows (r : Fin 16384) :
    (((dats m 0 c).arrAt 4 cfg0.N : _) : S16384x1.Idx → EReal) (ix2 r (0 : Fin 1))
      = Ideal.log1p (Cert.NPair.rowSum (xA m c) (aA m c) (pA m c) r) := by
  rw [out_final, out_G_apply]

/-! ## The host tail: the sum over both axes -/

/-- The sum over every index of a [16384, 1] array is the sum over its rows. -/
theorem out_sum_rows (g : S16384x1.Idx → EReal) :
    ∑ i : S16384x1.Idx, g i = ∑ r : Fin 16384, g (ix2 r (0 : Fin 1)) := by
  let e : Fin 16384 ≃ S16384x1.Idx :=
    ⟨fun r => ix2 r (0 : Fin 1), fun j => j 0, fun r => rfl, fun j => funext fun a => by
      match a with
      | ⟨0, _⟩ => rfl
      | ⟨1, _⟩ => exact Subsingleton.elim (α := Fin 1) _ _⟩
  exact (Equiv.sum_comp e g).symm

/-- The host's sum of the result array over both axes, from the zero constant, is the loss. -/
theorem kernel_loss :
    Host.reduceAdd (F := Ideal) ((dats m 0 c).arrAt 4 cfg0.N) (constant S_ .f32 0x00000000#32) reducesTo_S16384x1_S_d0_1 h_S_
      = fun _ => Cert.NPair.loss (xA m c) (aA m c) (pA m c) := by
  rw [out_final]
  funext j
  refine (hostReduceAdd_apply (s := S16384x1) (φ := .f32) (out_G m c) _ reducesTo_S16384x1_S_d0_1 h_S_ j).trans ?_
  refine (Ideal.hostReduceAdd_total reducesTo_S16384x1_S_d0_1 (fun b => b.elim0) (out_G m c) _ j).trans ?_
  show Ideal.ofBits .f32 0x00000000#32 + _ = _
  rw [Ideal.ofBits_zero_f32, zero_add, out_sum_rows]
  unfold Cert.NPair.loss
  exact Finset.sum_congr rfl fun r _ => out_G_apply m c r 0

end Cert.KernelIdeal.HandValue

end
-- ==== Proof.RefValue.lean ====
/-
  The reference's result is the N-pair loss of the specification, when both index arrays hold only the words 0 and 1.

  The reference regards the sample array as classes × samples × coordinates: row `2r + s` is sample `s` of class `r`.
  It takes, for each class, the sample an index word names — a negative word first wrapped by adding 2, the read guarded
  by the range test `0 ≤ word ≤ 1` (a failed test would put a not-a-number in the row), the word read signed and clamped
  into `[0, 1]` — once for the anchors and once for the positives; the negatives are sample 1 of every class.

  For a word that is 0 or 1 the wrap does nothing, the range test holds and the clamp is the word itself, so the row
  taken is sample 0 for the word 0 and sample 1 for the word 1: the specification's `pick`. From there every stage is
  read at an index and is the specification's term of the same name:
    the matrix product at `(r, c)`      Σ_k anchor r k · negative c k        = `score`
    the row sum of anchor × positive    0 + Σ_k anchor r k · positive r k    = `ap`
    the masked exponential at `(r, c)`  exp (score − ap) off the diagonal, 0 on it = `term`
      (row and column numbers below 16384 are equal as 32-bit words exactly when they are equal)
    the row sums                        0 + Σ_c term r c                     = `rowSum`
    the result                          0 + Σ_r log (1 + rowSum r)           = `loss`.
  No law of the extended reals beyond `0 + x = x` is used, so nothing here needs finiteness.
-/
import proofs.«414660_j40200893890726_2_alg».proof.Proof.RefRead
import proofs.«414660_j40200893890726_2_alg».proof.Proof.Spec
import Idealize.ShloMosaic.Lib.ValueIdx
import Idealize.ShloMosaic.Lib.ValueIdxRank1
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.NPair Idealize.ShloMosaic Idealize.ShloMosaic.ValueIdx

/-- The gather's dimension numbers. -/
abbrev gd : GatherDims S16384x2x128 S16384x1x1 S16384x1x128 :=
  gather_S16384x2x128_S16384x1x1_S16384x1x128_2_1_0_0_1_2_11128

theorem gd_axis0 {w : Nat} (idx : IVec S16384x1x1 w) (r : Fin 16384) (u : Fin 1) (k : Fin 128) :
    gd.start (ix3 r u k) idx 0 + gd.batchCoord (ix3 r u k) 0 + gd.offCoord (ix3 r u k) 0 = r.val := by
  rw [gd.start_batching _ _ 0 (show (0 : Fin S16384x2x128.rank) ∈ gd.operandBatchingDims by decide),
    gd.offCoord_eq_zero _ 0 (show ¬(0 : Fin S16384x2x128.rank) ∈ gd.sKept by decide), Nat.zero_add, Nat.add_zero]
  unfold GatherDims.batchCoord
  rw [dif_pos (show (0 : Fin S16384x2x128.rank) ∈ gd.operandBatchingDims by decide)]
  rfl

theorem gd_axis1 {w : Nat} (idx : IVec S16384x1x1 w) (r : Fin 16384) (u : Fin 1) (k : Fin 128) :
    gd.start (ix3 r u k) idx 1 + gd.batchCoord (ix3 r u k) 1 + gd.offCoord (ix3 r u k) 1
      = min (idx (ix3 r u 0)).toInt.toNat 1 := by
  rw [gd.batchCoord_eq_zero _ 1 (show ¬(1 : Fin S16384x2x128.rank) ∈ gd.operandBatchingDims by decide),
    gd.offCoord_eq_zero _ 1 (show ¬(1 : Fin S16384x2x128.rank) ∈ gd.sKept by decide), Nat.add_zero]
  unfold GatherDims.start
  rw [dif_pos (show (1 : Fin S16384x2x128.rank) ∈ gd.startIndexMap by decide)]
  have hsi : gd.siIdx (ix3 r u k) ⟨List.idxOf (1 : Fin S16384x2x128.rank) gd.startIndexMap,
      List.idxOf_lt_length_iff.2 (show (1 : Fin S16384x2x128.rank) ∈ gd.startIndexMap by decide)⟩ = ix3 r u 0 := by
    funext b; refine Fin.ext ?_
    match b with
    | ⟨0, _⟩ => rfl
    | ⟨1, _⟩ => rfl
    | ⟨2, _⟩ => rfl
  rw [hsi]
  rfl

theorem gd_axis2 {w : Nat} (idx : IVec S16384x1x1 w) (r : Fin 16384) (u : Fin 1) (k : Fin 128) :
    gd.start (ix3 r u k) idx 2 + gd.batchCoord (ix3 r u k) 2 + gd.offCoord (ix3 r u k) 2 = k.val := by
  rw [gd.batchCoord_eq_zero _ 2 (show ¬(2 : Fin S16384x2x128.rank) ∈ gd.operandBatchingDims by decide), Nat.add_zero]
  unfold GatherDims.start
  rw [dif_neg (show ¬(2 : Fin S16384x2x128.rank) ∈ gd.startIndexMap by decide), Nat.zero_add]
  unfold GatherDims.offCoord
  rw [dif_pos (show (2 : Fin S16384x2x128.rank) ∈ gd.sKept by decide)]
  rfl

/-- The gather read at class `r`, coordinate `k`: sample `min idx 1` of class `r`, the index word read signed and clamped. -/
theorem gather_apply {α : Type} {w : Nat} (x : S16384x2x128.Idx → α) (idx : IVec S16384x1x1 w)
    (r : Fin 16384) (u : Fin 1) (k : Fin 128) (s : Fin 2) (hs : min (idx (ix3 r u 0)).toInt.toNat 1 = s.val) :
    Host.gather gd x idx (ix3 r u k) = x (ix3 r s k) := by
  unfold Host.gather
  refine congrArg x (funext fun a => Fin.ext ?_)
  show gd.start (ix3 r u k) idx a + gd.batchCoord (ix3 r u k) a + gd.offCoord (ix3 r u k) a = _
  match a with
  | ⟨0, _⟩ => exact gd_axis0 idx r u k
  | ⟨1, _⟩ => exact (gd_axis1 idx r u k).trans hs
  | ⟨2, _⟩ => exact gd_axis2 idx r u k

/-! ## Words: an index word that is 0 or 1 -/

/-- A word 0 or 1 is not negative: the wrap-around of a negative index leaves it as it is. -/
theorem wrap_binary (w : BitVec 32) (hw : w = 0#32 ∨ w = 1#32) :
    Scalar.select (IntOp.cmpi .slt w 0#32) (IntOp.addi w 2#32) w = w := by
  rcases hw with rfl | rfl <;> decide

/-- A word 0 or 1 lies in the range `0 ≤ w ≤ 1`. -/
theorem inrange_binary (w : BitVec 32) (hw : w = 0#32 ∨ w = 1#32) :
    IntOp.andi (IntOp.cmpi .sge w 0#32) (IntOp.cmpi .sle w 1#32) = 1#1 := by
  rcases hw with rfl | rfl <;> decide

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | n :: l => by rw [List.foldl_cons, hf]; exact foldl_andi_ones f hf l

/-- An `and`-reduction from 1 of an array whose every element is 1 is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_ones (fun n => x (s.rowMajor.symm n)) (fun n => hx _) _

/-! ## The sample array as classes × samples × coordinates -/

/-- Row `2r + s` of the sample array is sample `s` of class `r`. -/
theorem reshape_row (x : XArr) (r : Fin 16384) (s : Fin 2) (k : Fin 128) :
    Read.val_main_v0 (F := Ideal) x (ix3 r s k) = smp x s r k := by
  rw [Read.val_main_v0_apply]
  unfold smp
  have hr := r.isLt; have hs := s.isLt; have hk := k.isLt
  exact congrArg x (funext fun d => Fin.ext (by
    match d with
    | ⟨0, _⟩ => show ((r.val * 2 + s.val) * 128 + k.val) / 128 = 2 * r.val + s.val; omega
    | ⟨1, _⟩ => show ((r.val * 2 + s.val) * 128 + k.val) % 128 = k.val; omega))

/-! ## The anchors: the sample the first index array picks -/

/-- The wrapped index word of class `r` is the word itself. -/
theorem idx4_binary0 (a : IArr) (ha : Binary a) (r : Fin 16384) (u v : Fin 1) :
    Read.val_main_call0_v4 (F := Ideal) a (ix3 r u v) = a (ix1 r) := by
  have e : Read.idx_main_v1 (ix3 r u v) = ix1 r := funext fun d => Fin.ext (by match d with | ⟨0, _⟩ => rfl)
  rw [Read.val_main_call0_v4_apply, Read.val_main_call0_v1_apply, Read.val_main_call0_v3_apply, Read.val_main_v1_apply,
    Read.val_main_call0_v0_apply, Read.val_main_call0_c_apply, Read.val_main_call0_v2_apply, Read.val_main_call0_c_0_apply, e]
  exact wrap_binary _ (ha r)

/-- Every index word is in range. -/
theorem inrange0 (a : IArr) (ha : Binary a) (i : S16384x1x1.Idx) : Read.val_main_call0_v10 (F := Ideal) a i = 1#1 := by
  obtain ⟨r, u, v, rfl⟩ : ∃ (r : Fin 16384) (u v : Fin 1), i = ix3 r u v := ⟨i 0, i 1, i 2, eq_ix3 i⟩
  rw [Read.val_main_call0_v10_apply, Read.val_main_call0_v6_apply, Read.val_main_call0_v9_apply, idx4_binary0 a ha,
    Read.val_main_call0_v5_apply, Read.val_main_call0_c_2_apply, Read.val_main_call0_v8_apply, Read.val_main_call0_v7_apply,
    Read.val_main_call0_c_1_apply]
  exact inrange_binary _ (ha r)

/-- So the in-range mask is 1 everywhere. -/
theorem mask0 (a : IArr) (ha : Binary a) (i : S16384x1x128.Idx) : Read.val_main_call0_v13 (F := Ideal) a i = 1#1 := by
  rw [Read.val_main_call0_v13_apply]
  unfold Read.val_main_call0_v11
  exact reduce_andi_ones _ _ _ _ (inrange0 a ha) (fun _ => rfl) _

/-- The gathered row of class `r` is the sample its index word picks. -/
theorem gathered0 (x : XArr) (a : IArr) (ha : Binary a) (r : Fin 16384) (u : Fin 1) (k : Fin 128) :
    Read.val_main_call0_v12 (F := Ideal) x a (ix3 r u k) = pick x a r k := by
  unfold Read.val_main_call0_v12
  have hw := idx4_binary0 a ha r u 0
  unfold pick
  rcases ha r with h | h
  · rw [if_pos h]
    refine (gather_apply _ _ r u k 0 ?_).trans (reshape_row x r 0 k)
    rw [hw, h]; rfl
  · rw [if_neg (by rw [h]; decide)]
    refine (gather_apply _ _ r u k 1 ?_).trans (reshape_row x r 1 k)
    rw [hw, h]; rfl

/-- The anchor of class `r` at coordinate `k`. -/
theorem anchors (x : XArr) (a : IArr) (ha : Binary a) (r : Fin 16384) (k : Fin 128) :
    Read.val_main_v3 (F := Ideal) x a (ix2 r k) = pick x a r k := by
  have hr := r.isLt; have hk := k.isLt
  have e : Read.idx_main_v3 (ix2 r k) = ix3 r 0 k := funext fun d => Fin.ext (by
    match d with
    | ⟨0, _⟩ => show (r.val * 128 + k.val) / 128 = r.val; omega
    | ⟨1, _⟩ => rfl
    | ⟨2, _⟩ => show (r.val * 128 + k.val) % 128 = k.val; omega)
  rw [Read.val_main_v3_apply, e, Read.val_main_v2_apply, mask0 a ha, select_one]
  exact gathered0 x a ha r 0 k

/-! ## The positives: the sample the second index array picks -/

/-- The wrapped index word of class `r` is the word itself. -/
theorem idx4_binary1 (p : IArr) (hp : Binary p) (r : Fin 16384) (u v : Fin 1) :
    Read.val_main_call1_v4 (F := Ideal) p (ix3 r u v) = p (ix1 r) := by
  have e : Read.idx_main_v4 (ix3 r u v) = ix1 r := funext fun d => Fin.ext (by match d with | ⟨0, _⟩ => rfl)
  rw [Read.val_main_call1_v4_apply, Read.val_main_call1_v1_apply, Read.val_main_call1_v3_apply, Read.val_main_v4_apply,
    Read.val_main_call1_v0_apply, Read.val_main_call1_c_apply, Read.val_main_call1_v2_apply, Read.val_main_call1_c_0_apply, e]
  exact wrap_binary _ (hp r)

/-- Every index word is in range. -/
theorem inrange1 (p : IArr) (hp : Binary p) (i : S16384x1x1.Idx) : Read.val_main_call1_v10 (F := Ideal) p i = 1#1 := by
  obtain ⟨r, u, v, rfl⟩ : ∃ (r : Fin 16384) (u v : Fin 1), i = ix3 r u v := ⟨i 0, i 1, i 2, eq_ix3 i⟩
  rw [Read.val_main_call1_v10_apply, Read.val_main_call1_v6_apply, Read.val_main_call1_v9_apply, idx4_binary1 p hp,
    Read.val_main_call1_v5_apply, Read.val_main_call1_c_2_apply, Read.val_main_call1_v8_apply, Read.val_main_call1_v7_apply,
    Read.val_main_call1_c_1_apply]
  exact inrange_binary _ (hp r)

/-- So the in-range mask is 1 everywhere. -/
theorem mask1 (p : IArr) (hp : Binary p) (i : S16384x1x128.Idx) : Read.val_main_call1_v13 (F := Ideal) p i = 1#1 := by
  rw [Read.val_main_call1_v13_apply]
  unfold Read.val_main_call1_v11
  exact reduce_andi_ones _ _ _ _ (inrange1 p hp) (fun _ => rfl) _

/-- The gathered row of class `r` is the sample its index word picks. -/
theorem gathered1 (x : XArr) (p : IArr) (hp : Binary p) (r : Fin 16384) (u : Fin 1) (k : Fin 128) :
    Read.val_main_call1_v12 (F := Ideal) x p (ix3 r u k) = pick x p r k := by
  unfold Read.val_main_call1_v12
  have hw := idx4_binary1 p hp r u 0
  unfold pick
  rcases hp r with h | h
  · rw [if_pos h]
    refine (gather_apply _ _ r u k 0 ?_).trans (reshape_row x r 0 k)
    rw [hw, h]; rfl
  · rw [if_neg (by rw [h]; decide)]
    refine (gather_apply _ _ r u k 1 ?_).trans (reshape_row x r 1 k)
    rw [hw, h]; rfl

/-- The positive of class `r` at coordinate `k`. -/
theorem positives (x : XArr) (p : IArr) (hp : Binary p) (r : Fin 16384) (k : Fin 128) :
    Read.val_main_v6 (F := Ideal) x p (ix2 r k) = pick x p r k := by
  have hr := r.isLt; have hk := k.isLt
  have e : Read.idx_main_v6 (ix2 r k) = ix3 r 0 k := funext fun d => Fin.ext (by
    match d with
    | ⟨0, _⟩ => show (r.val * 128 + k.val) / 128 = r.val; omega
    | ⟨1, _⟩ => rfl
    | ⟨2, _⟩ => show (r.val * 128 + k.val) % 128 = k.val; omega)
  rw [Read.val_main_v6_apply, e, Read.val_main_v5_apply, mask1 p hp, select_one]
  exact gathered1 x p hp r 0 k

/-! ## The negatives: sample 1 of every class, transposed -/

/-- Entry `(k, c)` of the transposed negatives is coordinate `k` of class `c`'s sample 1. -/
theorem negs (x : XArr) (k : Fin 128) (c : Fin 16384) : Read.val_main_v9 (F := Ideal) x (ix2 k c) = smp x 1 c k := by
  have hc := c.isLt; have hk := k.isLt
  have e9 : Read.idx_main_v9 (ix2 k c) = ix2 c k := funext fun d => Fin.ext (by
    match d with
    | ⟨0, _⟩ => rfl
    | ⟨1, _⟩ => rfl)
  have e8 : Read.idx_main_v8 (ix2 c k) = ix3 c 0 k := funext fun d => Fin.ext (by
    match d with
    | ⟨0, _⟩ => show (c.val * 128 + k.val) / 128 = c.val; omega
    | ⟨1, _⟩ => rfl
    | ⟨2, _⟩ => show (c.val * 128 + k.val) % 128 = k.val; omega)
  have e7 : Read.idx_main_v7 (ix3 c (0 : Fin 1) k) = ix3 c (1 : Fin 2) k := funext fun d => Fin.ext (by
    match d with
    | ⟨0, _⟩ => rfl
    | ⟨1, _⟩ => rfl
    | ⟨2, _⟩ => rfl)
  rw [Read.val_main_v9_apply, e9, Read.val_main_v8_apply, e8, Read.val_main_v7_apply, e7]
  exact reshape_row x c 1 k

/-! ## Scores, anchor · positive, and the masked exponentials -/

/-- Entry `(r, c)` of the matrix product is anchor `r` · negative `c`. -/
theorem dots (x : XArr) (a : IArr) (ha : Binary a) (r c : Fin 16384) :
    Read.val_main_v10 (F := Ideal) x a (ix2 r c) = score x a r c := by
  rw [Read.val_main_v10_apply]
  unfold score
  refine Finset.sum_congr rfl fun k _ => ?_
  have el : Read.lidx_main_v10 (ix2 r c) k = ix2 r k := funext fun d => Fin.ext (by
    match d with
    | ⟨0, _⟩ => rfl
    | ⟨1, _⟩ => rfl)
  have er : Read.ridx_main_v10 (ix2 r c) k = ix2 k c := funext fun d => Fin.ext (by
    match d with
    | ⟨0, _⟩ => rfl
    | ⟨1, _⟩ => rfl)
  rw [el, er, anchors x a ha r k, negs x k c]

/-- The row sum of anchors × positives at class `r`. -/
theorem aps (x : XArr) (a p : IArr) (ha : Binary a) (hp : Binary p) (r : Fin 16384) :
    Read.val_main_v12 (F := Ideal) x a p (ix1 r) = ap x a p r := by
  have hs : ∀ k : Fin 128, Read.val_main_v11 (F := Ideal) x a p (Read.idx_main_v12 (ix1 r) k)
      = pick x a r k * pick x p r k := fun k => by
    have e : Read.idx_main_v12 (ix1 r) k = ix2 r k := funext fun d => Fin.ext (by
      match d with
      | ⟨0, _⟩ => rfl
      | ⟨1, _⟩ => rfl)
    rw [e, Read.val_main_v11_apply, anchors x a ha r k, positives x p hp r k, Ideal.mulf_def]
  rw [Read.val_main_v12_apply, Read.val_main_cst_apply, Finset.sum_congr rfl fun k _ => hs k]
  unfold ap
  show Ideal.ofBits .f32 0x00000000#32 + _ = _
  rw [Ideal.ofBits_zero_f32, zero_add]

/-- Broadcast along the columns, it is the same at every `(r, c)`. -/
theorem ap_bcast (x : XArr) (a p : IArr) (ha : Binary a) (hp : Binary p) (r c : Fin 16384) :
    Read.val_main_v14 (F := Ideal) x a p (ix2 r c) = ap x a p r := by
  have e : Read.idx_main_v13 (Read.idx_main_v14 (ix2 r c)) = ix1 r := funext fun d => Fin.ext (by match d with | ⟨0, _⟩ => rfl)
  rw [Read.val_main_v14_apply, Read.val_main_v13_apply, e]
  exact aps x a p ha hp r

/-- The logit at `(r, c)`. -/
theorem logits (x : XArr) (a p : IArr) (ha : Binary a) (hp : Binary p) (r c : Fin 16384) :
    Read.val_main_v15 (F := Ideal) x a p (ix2 r c) = score x a r c - ap x a p r := by
  rw [Read.val_main_v15_apply, dots x a ha r c, ap_bcast x a p ha hp r c, Ideal.subf_def]

/-- Row and column numbers below 16384 are equal as 32-bit words exactly when they are equal. -/
theorem offdiag_word (r c : Fin 16384) :
    ~~~(IntOp.cmpi .eq (IntOp.addi (BitVec.ofNat 32 r.val) 0#32) (BitVec.ofNat 32 c.val))
      = if r.val ≠ c.val then 1#1 else 0#1 := by
  have hr := r.isLt; have hc := c.isLt
  show ~~~(BitVec.ofBool (BitVec.ofNat 32 r.val + 0#32 == BitVec.ofNat 32 c.val)) = _
  rw [BitVec.add_zero]
  by_cases h : r.val = c.val
  · rw [if_neg (not_not.mpr h), h, beq_self_eq_true]; rfl
  · rw [if_pos h]
    have hne : (BitVec.ofNat 32 r.val == BitVec.ofNat 32 c.val) = false := by
      rw [beq_eq_false_iff_ne]
      intro e
      have := congrArg BitVec.toNat e
      simp only [BitVec.toNat_ofNat] at this
      omega
    rw [hne]; rfl

/-- The mask at `(r, c)`: 1 off the diagonal. -/
theorem offdiag (r c : Fin 16384) : Read.val_main_v21 (F := Ideal) (ix2 r c) = if r.val ≠ c.val then 1#1 else 0#1 := by
  rw [Read.val_main_v21_apply, Read.val_main_v20_apply, Read.val_main_v19_apply, Read.val_main_v16_apply,
    Read.val_main_v17_apply, Read.val_main_v18_apply, Read.val_main_c_apply]
  exact offdiag_word r c

/-- The masked exponential at `(r, c)`. -/
theorem terms (x : XArr) (a p : IArr) (ha : Binary a) (hp : Binary p) (r c : Fin 16384) :
    Read.val_main_v23 (F := Ideal) x a p (ix2 r c) = term x a p r c := by
  rw [Read.val_main_v23_apply, offdiag r c, Read.val_main_v22_apply, logits x a p ha hp r c,
    Read.val_main_call2_v0_apply, Read.val_main_cst_0_apply]
  unfold term
  by_cases h : r.val ≠ c.val
  · rw [if_pos h, if_pos h, select_one, Ideal.hostUnary_exp_def]
  · rw [if_neg h, if_neg h, select_zero]; exact Ideal.ofBits_zero_f32

/-! ## Row sums and the loss -/

/-- The sum of row `r`. -/
theorem rowSums (x : XArr) (a p : IArr) (ha : Binary a) (hp : Binary p) (r : Fin 16384) :
    Read.val_main_v24 (F := Ideal) x a p (ix1 r) = rowSum x a p r := by
  have hs : ∀ c : Fin 16384, Read.val_main_v23 (F := Ideal) x a p (Read.idx_main_v24 (ix1 r) c) = term x a p r c := fun c => by
    have e : Read.idx_main_v24 (ix1 r) c = ix2 r c := funext fun d => Fin.ext (by
      match d with
      | ⟨0, _⟩ => rfl
      | ⟨1, _⟩ => rfl)
    rw [e]; exact terms x a p ha hp r c
  rw [Read.val_main_v24_apply, Read.val_main_cst_1_apply, Finset.sum_congr rfl fun c _ => hs c]
  unfold rowSum
  show Ideal.ofBits .f32 0x00000000#32 + _ = _
  rw [Ideal.ofBits_zero_f32, zero_add]

/-- The last stage is the loss. -/
theorem losses (x : XArr) (a p : IArr) (ha : Binary a) (hp : Binary p) (i : S_.Idx) :
    Read.val_main_v26 (F := Ideal) x a p i = loss x a p := by
  rw [Read.val_main_v26_apply, Read.val_main_cst_2_apply, ← Equiv.sum_comp (idxEquiv1 (n := 16384)).symm]
  unfold loss
  show Ideal.ofBits .f32 0x00000000#32 + ∑ r : Fin 16384, Read.val_main_v25 (F := Ideal) x a p (ix1 r) = _
  rw [Ideal.ofBits_zero_f32, zero_add]
  refine Finset.sum_congr rfl fun r _ => ?_
  rw [Read.val_main_v25_apply, rowSums x a p ha hp r, Ideal.hostUnary_log1p_def]

/-! ## The reference's result -/

open Idealize.ShloMosaic.TcCoe Idealize.SL.Sem in
/-- With both index arrays holding only the words 0 and 1, the reference returns the loss of the three arguments. -/
theorem ref_loss (m : (ℓ : Loc nD τ sig) → Buf (Elt Ideal) ℓ) (c : Dev nD)
    (ha : Binary (m ((c.tc : Thread nD τ).loc main_arg1))) (hp : Binary (m ((c.tc : Thread nD τ).loc main_arg2))) :
    Cert.ReferenceIdeal.Value.res_main_v26 (F := Ideal) m c
      = fun _ => loss (m ((c.tc : Thread nD τ).loc main_arg0)) (m ((c.tc : Thread nD τ).loc main_arg1))
          (m ((c.tc : Thread nD τ).loc main_arg2)) := by
  rw [Read.val_main_v26_eq]
  funext i
  exact losses _ _ _ ha hp i

end Cert.ReferenceIdeal.RefValue

end
-- ==== Proof.PreDecode.lean ====
/-
  The precondition read back: every word of the two index arrays is 0 or 1.

  The printed predicate is a five-fold conjunction of "all" reductions: all |x| below infinity, all a ≥ 0, all a < 2,
  all p ≥ 0, all p < 2, the four word comparisons signed.  A conjunction of one-bit words that is 1 has every
  conjunct 1; an "all" reduction over the whole array that is 1 has a 1 at every element; an element of a comparison
  against a broadcast scalar is the comparison of that word with the scalar.  A signed 32-bit word w with 0 ≤ w and
  w < 2 has integer value 0 or 1, and a word is determined by its integer value.  The float conjunct is not used.
-/
import proofs.«414660_j40200893890726_2_alg».proof.Pre_finite_inputs
import proofs.«414660_j40200893890726_2_alg».proof.Proof.Gen.Pre_finite_inputs
import proofs.«414660_j40200893890726_2_alg».proof.Proof.Spec
import Idealize.ShloMosaic.Lib.ReduceAll
import Idealize.ShloMosaic.Lib.StableHlo.Predicate

noncomputable section

namespace Cert.NPair

open Idealize.ShloMosaic Idealize.ShloMosaic.ValueIdx

/-- The scalar shape has exactly one index. -/
instance subsingleton_scalar_idx : Subsingleton Cert.Pre_finite_inputs.S_.Idx :=
  ⟨fun a b => funext fun d => d.elim0⟩

/-- A signed 32-bit word `w` with `0 ≤ w` and `w < 2` is the word 0 or the word 1: its integer value is 0 or 1, and
    a word is determined by its integer value. -/
theorem word_binary (w : BitVec 32) (h0 : IntOp.cmpi .sge w 0#32 = 1#1) (h2 : IntOp.cmpi .slt w 2#32 = 1#1) :
    w = 0#32 ∨ w = 1#32 := by
  unfold IntOp.cmpi at h0 h2
  rw [StableHlo.Predicate.ofBool_eq_one_iff] at h0 h2
  simp only [BitVec.sle, BitVec.slt, decide_eq_true_eq] at h0 h2
  have e0 : (0#32 : BitVec 32).toInt = 0 := rfl
  have e1 : (1#32 : BitVec 32).toInt = 1 := rfl
  have e2 : (2#32 : BitVec 32).toInt = 2 := rfl
  rw [e0] at h0; rw [e2] at h2
  have hw : w.toInt = 0 ∨ w.toInt = 1 := by omega
  rcases hw with hw | hw
  · exact Or.inl (BitVec.eq_of_toInt_eq (by rw [hw, e0]))
  · exact Or.inr (BitVec.eq_of_toInt_eq (by rw [hw, e1]))

/-- The precondition holds only of index arrays whose every word is 0 or 1. -/
theorem binary_of_pre {F : FTy → Type} [FloatOps F] [Cert.Pre_finite_inputs.Facts]
    (x : FVec F Cert.Pre_finite_inputs.S32768x128 .f32) (a p : IVec Cert.Pre_finite_inputs.S16384 32)
    (h : Cert.Pre_finite_inputs.fn (F := F) x a p = fun _ => 1#1) : Binary a ∧ Binary p := by
  have e := congrFun h ix0
  dsimp only [Cert.Pre_finite_inputs.fn, Cert.Pre_finite_inputs.fn_part1] at e
  -- the five conjuncts, outermost last: all p < 2, all p ≥ 0, all a < 2, all a ≥ 0, (all |x| finite)
  obtain ⟨e, hp2⟩ := IntOp.andi_eq_one.1 (show IntOp.andi _ _ = 1#1 from e)
  obtain ⟨e, hp0⟩ := IntOp.andi_eq_one.1 (show IntOp.andi _ _ = 1#1 from e)
  obtain ⟨e, ha2⟩ := IntOp.andi_eq_one.1 (show IntOp.andi _ _ = 1#1 from e)
  obtain ⟨-, ha0⟩ := IntOp.andi_eq_one.1 (show IntOp.andi _ _ = 1#1 from e)
  exact ⟨fun r => word_binary (a (ix1 r)) (Host.reduce_andi_all _ _ _ _ ix0 ha0 (ix1 r))
      (Host.reduce_andi_all _ _ _ _ ix0 ha2 (ix1 r)),
    fun r => word_binary (p (ix1 r)) (Host.reduce_andi_all _ _ _ _ ix0 hp0 (ix1 r))
      (Host.reduce_andi_all _ _ _ _ ix0 hp2 (ix1 r))⟩

end Cert.NPair

end
-- ==== Proof.lean ====
/-
  The N-pair loss kernel against its reference: the five claims.

  The kernel tiles the 16384 × 16384 matrix of scores  anchor r · negative c  by 8 row tiles and 32 column tiles and never
  forms it: per row tile it keeps the anchors, their products with the positives, and running row sums of
  exp (score − anchor · positive) off the diagonal; after the last column tile it writes log (1 + row sum), and the host
  adds the 16384 logarithms. The reference forms the whole matrix and sums each row at once. On the extended reals the
  two are one function of the arguments (`Cert.NPair.loss`): a row's sum over all columns is the sum of its 32 tile sums
  taken in order, and a sum may be regrouped in any commutative additive monoid, so no finiteness is used.

  The two programs pick a class's anchor and positive differently: the kernel takes sample 0 where the index word is 0 and
  sample 1 otherwise, the reference reads the sample the word names and is undefined outside the two samples. Under the
  stated range of the index words, 0 or 1, they agree; the range is what the precondition adds to finiteness.

  The frames of the two kernel programs are one argument over the program logic's pipeline rule, written once for every
  float instance: the invariant between grid points holds the three scratch buffers at contents that are a function
  of the arguments alone. The reference is a host program; its frame is its run with the result dropped.
-/
import proofs.«414660_j40200893890726_2_alg».proof.Defs
import proofs.«414660_j40200893890726_2_alg».proof.Proof.Gen.Kernel
import proofs.«414660_j40200893890726_2_alg».proof.Proof.Gen.KernelIdeal
import proofs.«414660_j40200893890726_2_alg».proof.Proof.Gen.ReferenceIdeal
import proofs.«414660_j40200893890726_2_alg».proof.Proof.Gen.Pre_finite_inputs
import proofs.«414660_j40200893890726_2_alg».proof.Proof.K.Obligation
import proofs.«414660_j40200893890726_2_alg».proof.Proof.K.Run
import proofs.«414660_j40200893890726_2_alg».proof.Proof.KI.Obligation
import proofs.«414660_j40200893890726_2_alg».proof.Proof.KI.Run
import proofs.«414660_j40200893890726_2_alg».proof.Proof.KI.Final
import proofs.«414660_j40200893890726_2_alg».proof.Proof.RefValue
import proofs.«414660_j40200893890726_2_alg».proof.Proof.PreDecode
import Idealize.ShloMosaic.Adequacy
import Idealize.ShloMosaic.Init

noncomputable section

namespace Cert.Proof

open Idealize.ShloMosaic Idealize.SL.Sem

/-- The word-level kernel runs to the end, faults nowhere and leaves its arguments as they were: its run, the result
    dropped. -/
theorem frame_k : Cert.frame_Kernel := fun m ρ _ =>
  (θ_run Cert.Kernel.defs _ _).mono (fun _ h c => (h c).2)
    (Cert.Kernel.Hand.run_main_of (F := Bits) m (Cert.Kernel.Hand.body_obligation m) ρ)

/-- The idealized kernel likewise. -/
theorem frame_ki : Cert.frame_KernelIdeal := fun m ρ _ =>
  (θ_run Cert.KernelIdeal.defs _ _).mono (fun _ h c => (h c).2)
    (Cert.KernelIdeal.Hand.run_main_of (F := Ideal) m (Cert.KernelIdeal.Hand.body_obligation m) ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, whose index words are 0 or 1, both programs end with the loss of the
    arguments in their result. -/
theorem algebraic : Cert.algebraic_KernelIdeal_ReferenceIdeal := by
  intro m ρ m' ρ' hpre hagree
  refine ⟨fun c => Cert.KernelIdeal.Hand.lossOf (F := Ideal) m c,
    Cert.KernelIdeal.Hand.run_main_of (F := Ideal) m (Cert.KernelIdeal.Hand.body_obligation m) ρ, ?_⟩
  refine (θ_run Cert.ReferenceIdeal.defs _ _).mono (fun _ h c => ⟨(h c).1.trans ?_, (h c).2⟩)
    (Cert.ReferenceIdeal.Value.run (F := Ideal) m' ρ')
  obtain ⟨ha, hp⟩ := Cert.NPair.binary_of_pre (F := Ideal) _ _ _ (hpre c)
  have ha' : Cert.NPair.Binary (m' ((c.tc : Thread Cert.ReferenceIdeal.nD Cert.ReferenceIdeal.τ).loc Cert.ReferenceIdeal.main_arg1)) := by
    rw [(hagree c).2.1]; exact ha
  have hp' : Cert.NPair.Binary (m' ((c.tc : Thread Cert.ReferenceIdeal.nD Cert.ReferenceIdeal.τ).loc Cert.ReferenceIdeal.main_arg2)) := by
    rw [(hagree c).2.2]; exact hp
  rw [Cert.ReferenceIdeal.RefValue.ref_loss m' c ha' hp', (hagree c).1, (hagree c).2.1, (hagree c).2.2]
  exact (Cert.KernelIdeal.HandValue.kernel_loss m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
